-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S1000000x4 : Shape := ⟨2, ![1000000, 4]⟩
abbrev S132x128 : Shape := ⟨2, ![132, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S1000000x4 : S_.BroadcastsInDim S1000000x4 (![] : Fin 0 → Fin S1000000x4.rank)
  reducesTo_S1000000x4_S_d0_1 : S1000000x4.ReducesTo [0, 1] S_
  bcast_S_S132x128 : S_.BroadcastsInDim S132x128 (![] : Fin 0 → Fin S132x128.rank)
  reducesTo_S132x128_S_d0_1 : S132x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S32x2048x64 .f32) (main_arg1 : FVec F S1000000x4 .f32) (main_arg2 : FVec F S132x128 .f32) (main_arg3 : FVec F S128 .f32) (main_arg4 : FVec F S128 .f32) (main_arg5 : FVec F S128 .f32) (main_arg6 : FVec F S128x1 .f32) (main_arg7 : FVec F S1 .f32) (main_arg8 : IVec S2x1000000 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S1000000x4 .f32 := Host.absf main_arg1
  let main_cst_0 : FVec F S_ .f32 := constant S_ .f32 0x7F800000#32
  let main_v5 : FVec F S1000000x4 .f32 := broadcastInDim S1000000x4 ![] bcast_S_S1000000x4 main_cst_0
  let main_v6 : IVec S1000000x4 1 := cmpf .olt main_v4 main_v5
  let main_c_1 : IVec S_ 1 := constantI S_ 1 1#1
  let main_v7 : IVec S_ 1 := (fun x v => Host.reduce IntOp.andi x v reducesTo_S1000000x4_S_d0_1 h_S_) main_v6 main_c_1
  let main_v8 : IVec S_ 1 := andi main_v3 main_v7
  let main_v9 : FVec F S132x128 .f32 := Host.absf main_arg2
  let main_cst_2 : FVec F S_ .f32 := constant S_ .f32 0x7F800000#32
  let main_v10 : FVec F S132x128 .f32 := broadcastInDim S132x128 ![] bcast_S_S132x128 main_cst_2
  let main_v11 : IVec S132x128 1 := cmpf .olt main_v9 main_v10
  let main_c_3 : IVec S_ 1 := constantI S_ 1 1#1
  let main_v12 : IVec S_ 1 := (fun x v => Host.reduce IntOp.andi x v reducesTo_S132x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S32x2048x64 : Shape := ⟨3, ![32, 2048, 64]⟩
abbrev S1000000x4 : Shape := ⟨2, ![1000000, 4]⟩
abbrev S132x128 : Shape := ⟨2, ![132, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S65536x64 : Shape := ⟨2, ![65536, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x2 : Shape := ⟨2, ![1000000, 2]⟩
abbrev S1000000x2x1 : Shape := ⟨3, ![1000000, 2, 1]⟩
abbrev S1000000x2x64 : Shape := ⟨3, ![1000000, 2, 64]⟩
abbrev S1000000x128 : Shape := ⟨2, ![1000000, 128]⟩
abbrev S128x128 : Shape := ⟨2, ![128, 128]⟩
abbrev S4x128 : Shape := ⟨2, ![4, 128]⟩
abbrev S1x128 : Shape := ⟨2, ![1, 128]⟩
abbrev S2x8x128 : Shape := ⟨3, ![2, 8, 128]⟩
abbrev S10000x128 : Shape := ⟨2, ![10000, 128]⟩
abbrev S10000x4 : Shape := ⟨2, ![10000, 4]⟩
abbrev S1x8x128 : Shape := ⟨3, ![1, 8, 128]⟩
abbrev S8x128 : Shape := ⟨2, ![8, 128]⟩
abbrev S1x1x128 : Shape := ⟨3, ![1, 1, 128]⟩
abbrev S2x1x128 : Shape := ⟨3, ![2, 1, 128]⟩
abbrev S2x128 : Shape := ⟨2, ![2, 128]⟩
abbrev S1x1 : Shape := ⟨2, ![1, 1]⟩
abbrev S10000x1 : Shape := ⟨2, ![10000, 1]⟩
abbrev S10000 : Shape := ⟨1, ![10000]⟩

abbrev nBuf : Space → Nat
  | .hbm => 146
  | .vmem => 22
  | .smem => 0
  | _ => 0

abbrev hbmTy0_0 (i : Nat) : BufTy := match i % 128 with
  | 0 => ⟨S32x2048x64, .f32⟩
  | 1 => ⟨S1000000x4, .f32⟩
  | 2 => ⟨S132x128, .f32⟩
  | 3 => ⟨S128, .f32⟩
  | 4 => ⟨S128, .f32⟩
  | 5 => ⟨S128, .f32⟩
  | 6 => ⟨S128x1, .f32⟩
  | 7 => ⟨S1, .f32⟩
  | 8 => ⟨S2x1000000, .i32⟩
  | 9 => ⟨S65536x64, .f32⟩
  | 10 => ⟨S65536x64, .bf16⟩
  | 11 => ⟨S1x1000000, .i32⟩
  | 12 => ⟨S1000000, .i32⟩
  | 13 => ⟨S1x1000000, .i32⟩
  | 14 => ⟨S1000000, .i32⟩
  | 15 => ⟨S_, .i32⟩
  | 16 => ⟨S_, .i32⟩
  | 17 => ⟨S1000000, .i32⟩
  | 18 => ⟨S1000000, .i32⟩
  | 19 => ⟨S1000000, .i32⟩
  | 20 => ⟨S_, .i32⟩
  | 21 => ⟨S1000000, .i32⟩
  | 22 => ⟨S1000000, .i1⟩
  | 23 => ⟨S1000000, .i32⟩
  | 24 => ⟨S1000000, .i32⟩
  | 25 => ⟨S_, .i32⟩
  | 26 => ⟨S1000000, .i32⟩
  | 27 => ⟨S1000000, .i1⟩
  | 28 => ⟨S1000000, .i1⟩
  | 29 => ⟨S_, .i32⟩
  | 30 => ⟨S1000000, .i32⟩
  | 31 => ⟨S1000000, .i32⟩
  | 32 => ⟨S1000000, .i32⟩
  | 33 => ⟨S_, .i32⟩
  | 34 => ⟨S_, .i32⟩
  | 35 => ⟨S_, .i32⟩
  | 36 => ⟨S1000000, .i32⟩
  | 37 => ⟨S1000000, .i32⟩
  | 38 => ⟨S_, .i32⟩
  | 39 => ⟨S1000000, .i32⟩
  | 40 => ⟨S1000000, .i32⟩
  | 41 => ⟨S_, .i32⟩
  | 42 => ⟨S1000000, .i32⟩
  | 43 => ⟨S1000000, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i1⟩
  | 58 => ⟨S_, .i32⟩
  | 59 => ⟨S_, .i1⟩
  | 60 => ⟨S1000000, .i1⟩
  | 61 => ⟨S1000000, .i1⟩
  | 62 => ⟨S1000000, .i1⟩
  | 63 => ⟨S1000000, .i32⟩
  | 64 => ⟨S1000000, .i32⟩
  | 65 => ⟨S1000000, .i32⟩
  | 66 => ⟨S1000000, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S1000000, .i32⟩
  | 74 => ⟨S1000000, .i32⟩
  | 75 => ⟨S_, .i32⟩
  | 76 => ⟨S1000000, .i32⟩
  | 77 => ⟨S1000000, .i1⟩
  | 78 => ⟨S_, .i32⟩
  | 79 => ⟨S1000000, .i32⟩
  | 80 => ⟨S1000000, .i1⟩
  | 81 => ⟨S_, .i32⟩
  | 82 => ⟨S_, .i1⟩
  | 83 => ⟨S1000000, .i1⟩
  | 84 => ⟨S1000000, .i1⟩
  | 85 => ⟨S1000000, .i1⟩
  | 86 => ⟨S1000000, .i32⟩
  | 87 => ⟨S1000000, .i32⟩
  | 88 => ⟨S1000000, .i32⟩
  | 89 => ⟨S1000000, .i32⟩
  | 90 => ⟨S1000000x1, .i32⟩
  | 91 => ⟨S1000000x1, .i32⟩
  | 92 => ⟨S1000000x2, .i32⟩
  | 93 => ⟨S1000000x2x1, .i32⟩
  | 94 => ⟨S1000000x2x64, .bf16⟩
  | 95 => ⟨S1000000x128, .bf16⟩
  | 96 => ⟨S1000000x4, .bf16⟩
  | 97 => ⟨S128x128, .f32⟩
  | 98 => ⟨S4x128, .f32⟩
  | 99 => ⟨S128x128, .bf16⟩
  | 100 => ⟨S4x128, .bf16⟩
  | 101 => ⟨S1x128, .f32⟩
  | 102 => ⟨S2x8x128, .f32⟩
  | 103 => ⟨S2x8x128, .f32⟩
  | 104 => ⟨S2x1x128, .f32⟩
  | 105 => ⟨S2x128, .f32⟩
  | 106 => ⟨S_, .f32⟩
  | 107 => ⟨S128, .f32⟩
  | 108 => ⟨S1x128, .f32⟩
  | 109 => ⟨S2x1x128, .f32⟩
  | 110 => ⟨S2x128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S32x2048x64, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S128x128, .f32⟩
  | 6 => ⟨S128x128, .f32⟩
  | 7 => ⟨S128x128, .bf16⟩
  | 8 => ⟨S4x128, .f32⟩
  | 9 => ⟨S4x128, .f32⟩
  | 10 => ⟨S4x128, .bf16⟩
  | 11 => ⟨S1x128, .f32⟩
  | 12 => ⟨S1x128, .f32⟩
  | 13 => ⟨S1x128, .f32⟩
  | 14 => ⟨S1x128, .f32⟩
  | 15 => ⟨S1x128, .f32⟩
  | 16 => ⟨S1x1, .f32⟩
  | 17 => ⟨S1000000x1, .f32⟩
  | _ => ⟨S32x2048x64, .f32⟩

abbrev hbmTy (i : Nat) : BufTy := match i / 128 with
  | 0 => hbmTy0_0 i
  | 1 => hbmTy0_1 i
  | _ => ⟨S32x2048x64, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S10000x4, .bf16⟩
  | .local _ .vmem, ⟨3, _⟩ => ⟨S10000x4, .bf16⟩
  | .local _ .vmem, ⟨4, _⟩ => ⟨S128x128, .bf16⟩
  | .local _ .vmem, ⟨5, _⟩ => ⟨S4x128, .bf16⟩
  | .local _ .vmem, ⟨6, _⟩ => ⟨S1x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S10000x128, .bf16⟩
  | .local _ .vmem, ⟨12, _⟩ => ⟨S10000x128, .bf16⟩
  | .local _ .vmem, ⟨13, _⟩ => ⟨S10000x4, .bf16⟩
  | .local _ .vmem, ⟨14, _⟩ => ⟨S10000x4, .bf16⟩
  | .local _ .vmem, ⟨15, _⟩ => ⟨S128x128, .bf16⟩
  | .local _ .vmem, ⟨16, _⟩ => ⟨S4x128, .bf16⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v6 : Ref sig .tc := ⟨.hbm, 32, rfl⟩
abbrev main_c_0 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v7 : Ref sig .tc := ⟨.hbm, 40, rfl⟩
abbrev main_c_2 : Ref sig .tc := ⟨.hbm, 41, rfl⟩
abbrev main_v8 : Ref sig .tc := ⟨.hbm, 42, rfl⟩
abbrev main_v9 : Ref sig .tc := ⟨.hbm, 43, rfl⟩
abbrev main_c_3 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v10 : Ref sig .tc := ⟨.hbm, 65, rfl⟩
abbrev main_v11 : Ref sig .tc := ⟨.hbm, 66, rfl⟩
abbrev main_c_4 : Ref sig .tc := ⟨.hbm, 67, rfl⟩
abbrev main_call3_v0 : Ref sig .tc := ⟨.hbm, 68, rfl⟩
abbrev main_call3_c : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_c_1 : Ref sig .tc := ⟨.hbm, 75, rfl⟩
abbrev main_call3_v5 : Ref sig .tc := ⟨.hbm, 76, rfl⟩
abbrev main_call3_v6 : Ref sig .tc := ⟨.hbm, 77, rfl⟩
abbrev main_call3_c_2 : Ref sig .tc := ⟨.hbm, 78, rfl⟩
abbrev main_call3_v7 : Ref sig .tc := ⟨.hbm, 79, rfl⟩
abbrev main_call3_v8 : Ref sig .tc := ⟨.hbm, 80, rfl⟩
abbrev main_call3_c_3 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_v12 : Ref sig .tc := ⟨.hbm, 85, rfl⟩
abbrev main_call3_v13 : Ref sig .tc := ⟨.hbm, 86, rfl⟩
abbrev main_call3_v14 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_call4_v0 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25_0 : Ref sig .tc := ⟨.hbm, 102, rfl⟩
abbrev main_v25_1 : Ref sig .tc := ⟨.hbm, 103, rfl⟩
abbrev main_v26 : Ref sig .tc := ⟨.hbm, 104, rfl⟩
abbrev main_v27 : Ref sig .tc := ⟨.hbm, 105, rfl⟩
abbrev main_cst : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_cst_5 : Ref sig .tc := ⟨.hbm, 111, rfl⟩
abbrev main_v32 : Ref sig .tc := ⟨.hbm, 112, rfl⟩
abbrev main_v33 : Ref sig .tc := ⟨.hbm, 113, rfl⟩
abbrev main_cst_6 : Ref sig .tc := ⟨.hbm, 114, rfl⟩
abbrev main_v34 : Ref sig .tc := ⟨.hbm, 115, rfl⟩
abbrev main_v35 : Ref sig .tc := ⟨.hbm, 116, rfl⟩
abbrev main_cst_7 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_cst_8 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_cst_9 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x4 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S32x2048x64_S65536x64 : S32x2048x64.ShapeCasts S65536x64
  bitsLt_bf16_f32 : FTy.bits .bf16 < FTy.bits .f32
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000x2_S1000000x2x1_0_1 : S1000000x2.BroadcastsInDim S1000000x2x1 (![0, 1] : Fin 2 → Fin S1000000x2x1.rank)
  shapeCasts_S1000000x2x64_S1000000x128 : S1000000x2x64.ShapeCasts S1000000x128
  slices_S132x128_S128x128_0_0 : S132x128.Slices ![0, 0] S128x128
  slices_S132x128_S4x128_128_0 : S132x128.Slices ![128, 0] S4x128
  shapeCasts_S128_S1x128 : S128.ShapeCasts S1x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  inb_S1x8x128_S1x1x128_0_0_0 : ∀ a, (![0, 0, 0] : Fin 3 → Nat) a + S1x1x128.size a ≤ S1x8x128.size a
  h_S1x1x128 : 0 < S1x1x128.numel
  shapeCasts_S1x1x128_S1x128 : S1x1x128.ShapeCasts S1x128
  shapeCasts_S1x128_S1x1x128 : S1x128.ShapeCasts S1x1x128
  slices_S2x8x128_S2x1x128_0_0_0 : S2x8x128.Slices ![0, 0, 0] S2x1x128
  shapeCasts_S2x1x128_S2x128 : S2x1x128.ShapeCasts S2x128
  reducesTo_S2x128_S128_d0 : S2x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S128x128_0_1 : S1x128.BroadcastsInDim S128x128 (![0, 1] : Fin 2 → Fin S128x128.rank)
  bcast_S1x128_S4x128_0_1 : S1x128.BroadcastsInDim S4x128 (![0, 1] : Fin 2 → Fin S4x128.rank)
  shapeCasts_S128x1_S1x128 : S128x1.ShapeCasts S1x128
  shapeCasts_S1_S1x1 : S1.ShapeCasts S1x1
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S65536x64_S1000000x2x1_S1000000x2x64_2_0_n_n_0_2_164_wf : GatherDims.WF S65536x64 S1000000x2x1 S1000000x2x64 [2] [0] [] [0] [] 2 ![1, 64]
  dot_S10000x128_S128x128_S10000x128_1_0_0_1_n_n_wf : DotDims.WF S10000x128 S128x128 S10000x128 [1] [0] [0] [1] [] []
  dot_S10000x4_S4x128_S10000x128_1_0_0_1_n_n_wf : DotDims.WF S10000x4 S4x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .bf16 = 32 ∨ (Rect.block (s := S1000000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S1000000x4.size a
  hwx0_1 : ∀ i : grid0.Coords, EltTy.bits .bf16 = 32 ∨ (Rect.block (s := S1000000x4) S10000x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .bf16 = 32 ∨ (Rect.block (s := S4x128) S4x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S2x8x128.size a
  hwx0_6 : ∀ i : grid0.Coords, EltTy.bits .f32 = 32 ∨ (Rect.block (s := S2x8x128) S1x8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1000000x128.size a
  hwx1_0 : ∀ i : grid1.Coords, EltTy.bits .bf16 = 32 ∨ (Rect.block (s := S1000000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x4.size a ≤ S1000000x4.size a
  hwx1_1 : ∀ i : grid1.Coords, EltTy.bits .bf16 = 32 ∨ (Rect.block (s := S1000000x4) S10000x4.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .bf16 = 32 ∨ (Rect.block (s := S4x128) S4x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x1.size a ≤ S1000000x1.size a
  hwx1_7 : ∀ i : grid1.Coords, EltTy.bits .f32 = 32 ∨ (Rect.block (s := S1000000x1) S10000x1.size (cc1_transform_7 i) (hinb1_7 i)).WholeWords (EltTy.packing .f32)

variable [Facts₀]

def gather_S65536x64_S1000000x2x1_S1000000x2x64_2_0_n_n_0_2_164 : GatherDims S65536x64 S1000000x2x1 S1000000x2x64 where
  offsetDims := [2]
  collapsedSliceDims := [0]
  operandBatchingDims := []
  startIndicesBatchingDims := []
  startIndexMap := [0]
  indexVectorDim := 2
  sliceSizes := ![1, 64]
  wf := gather_S65536x64_S1000000x2x1_S1000000x2x64_2_0_n_n_0_2_164_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf

abbrev win0_0 : Pipeline.Window sig grid0 :=
  Pipeline.Window.ofSpec (Memref.whole main_v18) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S1x8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S10000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x2048x64 : Shape := ⟨3, ![32, 2048, 64]⟩
abbrev S1000000x4 : Shape := ⟨2, ![1000000, 4]⟩
abbrev S132x128 : Shape := ⟨2, ![132, 128]⟩
abbrev S128 : Shape := ⟨1, ![128]⟩
abbrev S128x1 : Shape := ⟨2, ![128, 1]⟩
abbrev S1 : Shape := ⟨1, ![1]⟩
abbrev S2x1000000 : Shape := ⟨2, ![2, 1000000]⟩
abbrev S65536x64 : Shape := ⟨2, ![65536, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x132 : Shape := ⟨2, ![1000000, 132]⟩
abbrev S1000000x128 : Shape := ⟨2, ![1000000, 128]⟩
abbrev S1x128 : Shape := ⟨2, ![1, 128]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S32x2048x64, .f32⟩
  | 1 => ⟨S1000000x4, .f32⟩
  | 2 => ⟨S132x128, .f32⟩
  | 3 => ⟨S128, .f32⟩
  | 4 => ⟨S128, .f32⟩
  | 5 => ⟨S128, .f32⟩
  | 6 => ⟨S128x1, .f32⟩
  | 7 => ⟨S1, .f32⟩
  | 8 => ⟨S2x1000000, .i32⟩
  | 9 => ⟨S65536x64, .f32⟩
  | 10 => ⟨S1x1000000, .i32⟩
  | 11 => ⟨S1000000, .i32⟩
  | 12 => ⟨S1x1000000, .i32⟩
  | 13 => ⟨S1000000, .i32⟩
  | 14 => ⟨S_, .i32⟩
  | 15 => ⟨S_, .i32⟩
  | 16 => ⟨S1000000, .i32⟩
  | 17 => ⟨S1000000, .i32⟩
  | 18 => ⟨S1000000, .i32⟩
  | 19 => ⟨S_, .i32⟩
  | 20 => ⟨S1000000, .i32⟩
  | 21 => ⟨S1000000, .i1⟩
  | 22 => ⟨S1000000, .i32⟩
  | 23 => ⟨S1000000, .i32⟩
  | 24 => ⟨S_, .i32⟩
  | 25 => ⟨S1000000, .i32⟩
  | 26 => ⟨S1000000, .i1⟩
  | 27 => ⟨S1000000, .i1⟩
  | 28 => ⟨S_, .i32⟩
  | 29 => ⟨S1000000, .i32⟩
  | 30 => ⟨S1000000, .i32⟩
  | 31 => ⟨S1000000, .i32⟩
  | 32 => ⟨S_, .i32⟩
  | 33 => ⟨S_, .i32⟩
  | 34 => ⟨S_, .i32⟩
  | 35 => ⟨S1000000, .i32⟩
  | 36 => ⟨S1000000, .i32⟩
  | 37 => ⟨S_, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i1⟩
  | 57 => ⟨S_, .i32⟩
  | 58 => ⟨S_, .i1⟩
  | 59 => ⟨S1000000, .i1⟩
  | 60 => ⟨S1000000, .i1⟩
  | 61 => ⟨S1000000, .i1⟩
  | 62 => ⟨S1000000, .i32⟩
  | 63 => ⟨S1000000, .i32⟩
  | 64 => ⟨S1000000, .i32⟩
  | 65 => ⟨S1000000, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S1000000, .i32⟩
  | 73 => ⟨S1000000, .i32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i1⟩
  | 80 => ⟨S_, .i32⟩
  | 81 => ⟨S_, .i1⟩
  | 82 => ⟨S1000000, .i1⟩
  | 83 => ⟨S1000000, .i1⟩
  | 84 => ⟨S1000000, .i1⟩
  | 85 => ⟨S1000000, .i32⟩
  | 86 => ⟨S1000000, .i32⟩
  | 87 => ⟨S1000000, .i32⟩
  | 88 => ⟨S1000000, .i32⟩
  | 89 => ⟨S_, .i32⟩
  | 90 => ⟨S1000000, .i32⟩
  | 91 => ⟨S1000000, .i1⟩
  | 92 => ⟨S_, .i32⟩
  | 93 => ⟨S1000000, .i32⟩
  | 94 => ⟨S1000000, .i32⟩
  | 95 => ⟨S1000000, .i32⟩
  | 96 => ⟨S1000000x1, .i32⟩
  | 97 => ⟨S1000000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x64, .f32⟩
  | 107 => ⟨S1000000x132, .f32⟩
  | 108 => ⟨S1000000x128, .f32⟩
  | 109 => ⟨S1x128, .f32⟩
  | 110 => ⟨S1000000x128, .f32⟩
  | 111 => ⟨S1000000x128, .f32⟩
  | 112 => ⟨S_, .f32⟩
  | 113 => ⟨S128, .f32⟩
  | 114 => ⟨S_, .f32⟩
  | 115 => ⟨S128, .f32⟩
  | 116 => ⟨S128, .f32⟩
  | 117 => ⟨S1x128, .f32⟩
  | 118 => ⟨S1000000x128, .f32⟩
  | 119 => ⟨S1000000x128, .f32⟩
  | 120 => ⟨S1000000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S1000000x128, .f32⟩
  | _ => ⟨S32x2048x64, .f32⟩

abbrev hbmTy0_1 (i : Nat) : BufTy := match i % 128 with
  | 0 => ⟨S1000000x128, .f32⟩
  | 1 => ⟨S_, .f32⟩
  | 2 => ⟨S128, .f32⟩
  | 3 => ⟨S128, .f32⟩
  | 4 => ⟨S128, .f32⟩
  | 5 => ⟨S1x128, .f32⟩
  | 6 => ⟨S1000000x128, .f32⟩
  | 7 => ⟨S1000000x128, .f32⟩
  | 8 => ⟨S1x128, .f32⟩
  | 9 => ⟨S1000000x128, .f32⟩
  | 10 => ⟨S1000000x128, .f32⟩
  | 11 => ⟨S1x128, .f32⟩
  | 12 => ⟨S1000000x128, .f32⟩
  | 13 => ⟨S1000000x128, .f32⟩
  | 14 => ⟨S_, .f32⟩
  | 15 => ⟨S1000000x128, .f32⟩
  | 16 => ⟨S1000000x128, .i1⟩
  | 17 => ⟨S_, .f32⟩
  | 18 => ⟨S1000000x128, .f32⟩
  | 19 => ⟨S1000000x128, .f32⟩
  | 20 => ⟨S1000000x128, .f32⟩
  | 21 => ⟨S1000000x1, .f32⟩
  | 22 => ⟨S1x1, .f32⟩
  | 23 => ⟨S1000000x1, .f32⟩
  | 24 => ⟨S1000000x1, .f32⟩
  | _ => ⟨S32x2048x64, .f32⟩

abbrev hbmTy (i : Nat) : BufTy := match i / 128 with
  | 0 => hbmTy0_0 i
  | 1 => hbmTy0_1 i
  | _ => ⟨S32x2048x64, .f32⟩

abbrev bufTy : (tb : Table) → Fin (tcTables nBuf tb) → BufTy
  | .hbm, ⟨i, _⟩ => hbmTy i
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v5 : Ref sig .tc := ⟨.hbm, 31, rfl⟩
abbrev main_c_0 : Ref sig .tc := ⟨.hbm, 32, rfl⟩
abbrev main_c_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v6 : Ref sig .tc := ⟨.hbm, 39, rfl⟩
abbrev main_c_2 : Ref sig .tc := ⟨.hbm, 40, rfl⟩
abbrev main_v7 : Ref sig .tc := ⟨.hbm, 41, rfl⟩
abbrev main_v8 : Ref sig .tc := ⟨.hbm, 42, rfl⟩
abbrev main_c_3 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v9 : Ref sig .tc := ⟨.hbm, 64, rfl⟩
abbrev main_v10 : Ref sig .tc := ⟨.hbm, 65, rfl⟩
abbrev main_c_4 : Ref sig .tc := ⟨.hbm, 66, rfl⟩
abbrev main_call3_v0 : Ref sig .tc := ⟨.hbm, 67, rfl⟩
abbrev main_call3_c : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_c_1 : Ref sig .tc := ⟨.hbm, 74, rfl⟩
abbrev main_call3_v5 : Ref sig .tc := ⟨.hbm, 75, rfl⟩
abbrev main_call3_v6 : Ref sig .tc := ⟨.hbm, 76, rfl⟩
abbrev main_call3_c_2 : Ref sig .tc := ⟨.hbm, 77, rfl⟩
abbrev main_call3_v7 : Ref sig .tc := ⟨.hbm, 78, rfl⟩
abbrev main_call3_v8 : Ref sig .tc := ⟨.hbm, 79, rfl⟩
abbrev main_call3_c_3 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_v11 : Ref sig .tc := ⟨.hbm, 87, rfl⟩
abbrev main_v12 : Ref sig .tc := ⟨.hbm, 88, rfl⟩
abbrev main_c_5 : Ref sig .tc := ⟨.hbm, 89, rfl⟩
abbrev main_v13 : Ref sig .tc := ⟨.hbm, 90, rfl⟩
abbrev main_v14 : Ref sig .tc := ⟨.hbm, 91, rfl⟩
abbrev main_c_6 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_c_7 : Ref sig .tc := ⟨.hbm, 98, rfl⟩
abbrev main_v20 : Ref sig .tc := ⟨.hbm, 99, rfl⟩
abbrev main_v21 : Ref sig .tc := ⟨.hbm, 100, rfl⟩
abbrev main_c_8 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst : Ref sig .tc := ⟨.hbm, 112, rfl⟩
abbrev main_v32 : Ref sig .tc := ⟨.hbm, 113, rfl⟩
abbrev main_cst_9 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_10 : Ref sig .tc := ⟨.hbm, 121, rfl⟩
abbrev main_v39 : Ref sig .tc := ⟨.hbm, 122, rfl⟩
abbrev main_cst_11 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_cst_12 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_cst_13 : Ref sig .tc := ⟨.hbm, 142, rfl⟩
abbrev main_v57 : Ref sig .tc := ⟨.hbm, 143, rfl⟩
abbrev main_v58 : Ref sig .tc := ⟨.hbm, 144, rfl⟩
abbrev main_cst_14 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩

abbrev nD : Nat := 1
abbrev τ : Topo := Topo.v7x

variable {F : FTy → Type} [FloatOps F]

class Facts₀ : Prop where
  shapeCasts_S32x2048x64_S65536x64 : S32x2048x64.ShapeCasts S65536x64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x4_S1000000x132_d1 : Shape.Concatenates [S1000000x64, S1000000x64, S1000000x4] S1000000x132 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S128_d0 : S1000000x128.ReducesTo [0] S128
  h_S_ : 0 < S_.numel
  bcast_S_S128 : S_.BroadcastsInDim S128 (![] : Fin 0 → Fin S128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S65536x64_S1000000x1_S1000000x64_1_0_n_n_0_1_164_wf : GatherDims.WF S65536x64 S1000000x1 S1000000x64 [1] [0] [] [0] [] 1 ![1, 64]
  dot_S1000000x132_S132x128_S1000000x128_1_0_0_1_n_n_wf : DotDims.WF S1000000x132 S132x128 S1000000x128 [1] [0] [0] [1] [] []
  dot_S1000000x128_S128x1_S1000000x1_1_0_0_1_n_n_wf : DotDims.WF S1000000x128 S128x1 S1000000x1 [1] [0] [0] [1] [] []

variable [Facts₀]

def gather_S65536x64_S1000000x1_S1000000x64_1_0_n_n_0_1_164 : GatherDims S65536x64 S1000000x1 S1000000x64 where
  offsetDims := [1]
  collapsedSliceDims := [0]
  operandBatchingDims := []
  startIndicesBatchingDims := []
  startIndexMap := [0]
  indexVectorDim := 1
  sliceSizes := ![1, 64]
  wf := gather_S65536x64_S1000000x1_S1000000x64_1_0_n_n_0_1_164_wf
def dot_S1000000x132_S132x128_S1000000x128_1_0_0_1_n_n : DotDims S1000000x132 S132x128 S1000000x128 where
  lhsContracting := [1]
  rhsContracting := [0]
  lhsNonContracting := [0]
  rhsNonContracting := [1]
  lhsBatch := []
  rhsBatch := []
  wf := dot_S1000000x132_S132x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf

class Facts : Prop extends Facts₀ where

variable [Facts]
-- ==== Proof.Spec.lean ====
/-
  The mathematics both programs compute, written once over plain index functions into the extended reals and
  32-bit words. An edge decoder: for each of 1,000,000 edges the two endpoint rows of a 65,536 × 64 table are
  gathered (the row number computed from the edge's words: a remainder by 2048 plus 2048 times a quotient
  clamped to [0, 31]) and joined with 4 edge attributes into 132 features; a 132 → 128 linear layer; batch
  normalisation over the edges (mean and biased variance per column); a leaky rectifier; a 128 → 1 projection.
  The kernel program sums the hidden layer and its squares blockwise (2 × 50 blocks of 10,000 rows), forms mean
  and variance from the two sums, folds the normalisation into the layer's weights and bias, and recomputes the
  layer; the reference normalises the hidden layer directly with the centred variance.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Words: the row number of an endpoint -/

/-- The floored remainder by 2048 as both programs compute it: the truncated remainder, moved up by 2048 when
    it is negative (its sign differs from the divisor's) and not zero. -/
def rem2048 (x : BitVec 32) : BitVec 32 :=
  Scalar.select
    (IntOp.andi (IntOp.cmpi .ne (IntOp.cmpi .slt (IntOp.remsi .host x 2048#32) 0#32) (IntOp.cmpi .slt (2048#32 : BitVec 32) 0#32))
      (IntOp.cmpi .ne (IntOp.remsi .host x 2048#32) 0#32))
    (IntOp.addi (IntOp.remsi .host x 2048#32) 2048#32) (IntOp.remsi .host x 2048#32)

/-- The sign of a word as a word: 0, -1 or 1. -/
def sgn (x : BitVec 32) : BitVec 32 := if x = 0 then 0 else if x.msb then -1 else 1

/-- The floored quotient by 2048 as both programs compute it: the truncated quotient, less one when the signs
    differ and the remainder is not zero. -/
def fdiv2048 (x : BitVec 32) : BitVec 32 :=
  Scalar.select
    (IntOp.andi (IntOp.cmpi .ne (sgn x) (sgn 2048#32)) (IntOp.cmpi .ne (IntOp.remsi .host x 2048#32) 0#32))
    (IntOp.subi (IntOp.divsi .host x 2048#32) 1#32) (IntOp.divsi .host x 2048#32)

/-- A word clamped to [0, 31]. -/
def clip31 (y : BitVec 32) : BitVec 32 := IntOp.minsi 31#32 (IntOp.maxsi 0#32 y)

/-- The row number: word `a`'s remainder by 2048 plus 2048 times the clamped quotient of word `s`. -/
def gidx (a s : BitVec 32) : BitVec 32 :=
  IntOp.addi (rem2048 a) (IntOp.muli (clip31 (fdiv2048 s)) 2048#32)

/-- The reference's treatment of a negative row number (counted from the end of the table). -/
def norm (w : BitVec 32) : BitVec 32 := Scalar.select (IntOp.cmpi .slt w 0#32) (IntOp.addi w 65536#32) w

/-! ## The arrays -/

abbrev SZ : Shape := ⟨3, ![32, 2048, 64]⟩
abbrev SEA : Shape := ⟨2, ![1000000, 4]⟩
abbrev SW1 : Shape := ⟨2, ![132, 128]⟩
abbrev SV : Shape := ⟨1, ![128]⟩
abbrev SW2 : Shape := ⟨2, ![128, 1]⟩
abbrev SB2 : Shape := ⟨1, ![1]⟩
abbrev SEI : Shape := ⟨2, ![2, 1000000]⟩
abbrev SOUT : Shape := ⟨2, ![1000000, 1]⟩

/-- Row `w` (read signed and clamped into the table) and column `d` of the table `z` laid out as 65,536 rows. -/
def zsel (z : SZ.Idx → EReal) (w : BitVec 32) (d : Fin 64) : EReal :=
  z (ix3 (⟨min w.toInt.toNat 65535 / 2048, by omega⟩ : Fin 32) (⟨min w.toInt.toNat 65535 % 2048, by omega⟩ : Fin 2048) d)

/-- The source endpoint's row number of edge `e`. -/
def srcW (ei : SEI.Idx → BitVec 32) (e : Fin 1000000) : BitVec 32 :=
  gidx (ei (ix2 (0 : Fin 2) e)) (ei (ix2 (0 : Fin 2) e))
/-- The destination endpoint's row number of edge `e` (its graph taken from the source's word). -/
def dstW (ei : SEI.Idx → BitVec 32) (e : Fin 1000000) : BitVec 32 :=
  gidx (ei (ix2 (1 : Fin 2) e)) (ei (ix2 (0 : Fin 2) e))

/-- The kernel program's 128 gathered features of edge `e`: source row, then destination row. -/
def zabK (z : SZ.Idx → EReal) (ei : SEI.Idx → BitVec 32) (e : Fin 1000000) (k : Fin 128) : EReal :=
  zsel z (if k.val < 64 then srcW ei e else dstW ei e) ⟨k.val % 64, Nat.mod_lt _ (by decide)⟩

/-- The reference's 132 features of edge `e`: source row, destination row, edge attributes. -/
def xR (z : SZ.Idx → EReal) (ea : SEA.Idx → EReal) (ei : SEI.Idx → BitVec 32) (e : Fin 1000000) (k : Fin 132) : EReal :=
  if h : k.val < 64 then zsel z (norm (srcW ei e)) ⟨k.val, h⟩
  else if h' : k.val < 128 then zsel z (norm (dstW ei e)) ⟨k.val - 64, by omega⟩
  else ea (ix2 e (⟨k.val - 128, by omega⟩ : Fin 4))

/-! ## The layers -/

/-- The two float constants both programs share: the number of edges and the variance's epsilon. -/
abbrev nE : EReal := Ideal.ofBits .f32 0x49742400#32
abbrev eps : EReal := Ideal.ofBits .f32 0x3727C5AC#32

/-- The leaky rectifier: `h` where `h ≥ 0`, else the shared slope times `h`. -/
def act (h : EReal) : EReal :=
  Scalar.select (Ideal.cmp .oge h 0) h (Ideal.ofBits .f32 0x3E4CCCCD#32 * h)

/-- One row of the hidden layer as the kernels compute it: 128 gathered features through `wab`, 4 attributes
    through `wc`, the bias. -/
def pre1 (zab : Fin 128 → EReal) (ea : Fin 4 → EReal) (wab : Fin 128 → Fin 128 → EReal) (wc : Fin 4 → Fin 128 → EReal)
    (b : Fin 128 → EReal) (j : Fin 128) : EReal :=
  ((∑ k, zab k * wab k j) + (∑ k, ea k * wc k j)) + b j

/-- One edge's output as the second kernel computes it: the layer, the rectifier, the projection. -/
def finalOut (zab : Fin 128 → EReal) (ea : Fin 4 → EReal) (wab : Fin 128 → Fin 128 → EReal) (wc : Fin 4 → Fin 128 → EReal)
    (b : Fin 128 → EReal) (w2 : Fin 128 → EReal) (b2 : EReal) : EReal :=
  (∑ j, act (pre1 zab ea wab wc b j) * w2 j) + b2

/-- Edge number `(50 c + i) · 10000 + r`: row `r` of block `i` of half `c`. -/
def row (c : Fin 2) (i : Fin 50) (r : Fin 10000) : Fin 1000000 :=
  ⟨(c.val * 50 + i.val) * 10000 + r.val, by have := c.isLt; have := i.isLt; have := r.isLt; omega⟩

/-- The sum of `f` over half `c` of the edges, block by block. -/
def blockSum (f : Fin 1000000 → EReal) (c : Fin 2) : EReal := ∑ i : Fin 50, ∑ r : Fin 10000, f (row c i r)

/-- What the host makes of the two halves' sums `s1` and sums of squares `s2` of a column: the mean … -/
def muOf (s1 : Fin 2 → EReal) : EReal := Ideal.div (∑ c, s1 c) nE
/-- … the variance as mean of squares less squared mean, not below zero … -/
def varOf (s1 s2 : Fin 2 → EReal) : EReal := max (Ideal.div (∑ c, s2 c) nE - muOf s1 * muOf s1) 0
/-- … and the scale `γ / √(var + ε)`. -/
def scaleOf (s1 s2 : Fin 2 → EReal) (g : EReal) : EReal := g * Ideal.rsqrt (varOf s1 s2 + eps)
/-- The folded bias `b1 · s + β − μ · s`. -/
def biasOf (s1 s2 : Fin 2 → EReal) (g b1 bt : EReal) : EReal :=
  (b1 * scaleOf s1 s2 g + bt) - muOf s1 * scaleOf s1 s2 g

section Kernel
variable (zab : Fin 1000000 → Fin 128 → EReal) (ea : Fin 1000000 → Fin 4 → EReal)
  (wab : Fin 128 → Fin 128 → EReal) (wc : Fin 4 → Fin 128 → EReal) (b1 g bt w2 : Fin 128 → EReal) (b2 : EReal)

/-- Column `j`'s two halves' sums of the hidden layer … -/
def kS1 (j : Fin 128) (c : Fin 2) : EReal := blockSum (fun e => pre1 (zab e) (ea e) wab wc b1 j) c
/-- … and of its squares. -/
def kS2 (j : Fin 128) (c : Fin 2) : EReal :=
  blockSum (fun e => pre1 (zab e) (ea e) wab wc b1 j * pre1 (zab e) (ea e) wab wc b1 j) c

/-- The kernel program's output for edge `e`. -/
def kOut (e : Fin 1000000) : EReal :=
  finalOut (zab e) (ea e)
    (fun k j => wab k j * scaleOf (kS1 zab ea wab wc b1 j) (kS2 zab ea wab wc b1 j) (g j))
    (fun k j => wc k j * scaleOf (kS1 zab ea wab wc b1 j) (kS2 zab ea wab wc b1 j) (g j))
    (fun j => biasOf (kS1 zab ea wab wc b1 j) (kS2 zab ea wab wc b1 j) (g j) (b1 j) (bt j))
    w2 b2
end Kernel

section Reference
variable (x : Fin 1000000 → Fin 132 → EReal) (w : Fin 132 → Fin 128 → EReal) (b1 g bt w2 : Fin 128 → EReal) (b2 : EReal)

/-- The reference's hidden layer. -/
def rPre (e : Fin 1000000) (j : Fin 128) : EReal := (∑ k, x e k * w k j) + b1 j
/-- Its column means … -/
def rMu (j : Fin 128) : EReal := Ideal.div (∑ e, rPre x w b1 e j) nE
/-- … and centred variances. -/
def rVar (j : Fin 128) : EReal :=
  Ideal.div (∑ e, (rPre x w b1 e j - rMu x w b1 j) * (rPre x w b1 e j - rMu x w b1 j)) nE
/-- The reference's output for edge `e`. -/
def rOut (e : Fin 1000000) : EReal :=
  (∑ j, act ((rPre x w b1 e j - rMu x w b1 j) * Ideal.rsqrt (rVar x w b1 j + eps) * g j + bt j) * w2 j) + b2
end Reference

/-- A column of 1,000,000 values as the result array. -/
def outArr (f : Fin 1000000 → EReal) : SOUT.Idx → EReal := fun i => f ⟨(i 0).val, idx2_lt0 i⟩

/-! ## The two programs' results as functions of the argument arrays -/

section Programs
variable (z : SZ.Idx → EReal) (ea : SEA.Idx → EReal) (w1 : SW1.Idx → EReal) (b1 g bt : SV.Idx → EReal)
  (w2 : SW2.Idx → EReal) (b2 : SB2.Idx → EReal) (ei : SEI.Idx → BitVec 32)

/-- The kernel program's result array. -/
def kernelResult : SOUT.Idx → EReal :=
  outArr (kOut (zabK z ei) (fun e k => ea (ix2 e k))
    (fun k j => w1 (ix2 (⟨k.val, by omega⟩ : Fin 132) j)) (fun k j => w1 (ix2 (⟨128 + k.val, by omega⟩ : Fin 132) j))
    (fun j => b1 (ix1 j)) (fun j => g (ix1 j)) (fun j => bt (ix1 j)) (fun j => w2 (ix2 j (0 : Fin 1))) (b2 (ix1 (0 : Fin 1))))

/-- The reference's result array. -/
def referenceResult : SOUT.Idx → EReal :=
  outArr (rOut (xR z ea ei) (fun k j => w1 (ix2 k j))
    (fun j => b1 (ix1 j)) (fun j => g (ix1 j)) (fun j => bt (ix1 j)) (fun j => w2 (ix2 j (0 : Fin 1))) (b2 (ix1 (0 : Fin 1))))
end Programs

end Cert.Spec

end
-- ==== Proof.KRegion0.lean ====
/-
  The first kernel's two result arrays. Its grid is 2 halves × 50 steps; a point stages 10,000 edges and adds
  the column sums of their hidden layer (and of its squares) into row 0 of the half's 8 × 128 block, which is
  reset at the half's first step and written back after its last. So row 0 of half `c` ends holding the sum
  over that half's 500,000 edges.
-/
import proofs.«416790_j18339510354271_3_alg».proof.Proof.Gen.KernelIdeal.Frame
import proofs.«416790_j18339510354271_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.WritesUnit
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

/-! ## Reading the blocks the body leaves

The body touches only row 0 of each output's 8 × 128 block: it loads row 0, adds the staged rows' column sums, and stores
row 0 back; at a half's first step it has first stored the zero block. So after the body the block is what was there
before (the zero block at a first step) with row 0 replaced. The lemmas below read the stored pieces at one index:
row 0 from the newest store, a later row from what lay beneath it. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row 0 of an 8 × 128 block, as the 1 × 1 × 128 piece the body loads and stores. -/
abbrev R1 : Rect S1x8x128 := Rect.unit (s := S1x8x128) ![0, 0, 0] S1x1x128.size inb_S1x8x128_S1x1x128_0_0_0

/-- After a store of `w` into row 0, row 0 reads `w`. -/
theorem row0_hit {κ : Kind} {sp : Space} (v : View sig κ sp S1x8x128 .f32) (f : v.ty.Contents (Elt F))
    (w : R1.shape.Idx → Elt F .f32) (L : List (View.Piece (Elt F) S1x8x128 .f32)) (j : Fin 128) :
    v.read (Elt F) (v.writes (Elt F) f ((⟨R1, w⟩ : View.Piece (Elt F) S1x8x128 .f32) :: L)) (ix3 (0 : Fin 1) (0 : Fin 8) j)
      = w (ix3 (0 : Fin 1) (0 : Fin 1) j) :=
  View.read_writes_cons_unit_of_mem v f inb_S1x8x128_S1x1x128_0_0_0 w L (ix3 (0 : Fin 1) (0 : Fin 8) j)
    (ix3 (0 : Fin 1) (0 : Fin 1) j) rfl (fun a => by
      match a with
      | ⟨0, _⟩ => rfl
      | ⟨1, _⟩ => rfl
      | ⟨2, _⟩ => exact (Nat.zero_add _).symm)

/-- After a store into row 0, a later row reads what was there before. -/
theorem row0_miss {κ : Kind} {sp : Space} (v : View sig κ sp S1x8x128 .f32) (f : v.ty.Contents (Elt F))
    (w : R1.shape.Idx → Elt F .f32) (L : List (View.Piece (Elt F) S1x8x128 .f32)) (r : Fin 8) (hr : r.val ≠ 0) (j : Fin 128) :
    v.read (Elt F) (v.writes (Elt F) f ((⟨R1, w⟩ : View.Piece (Elt F) S1x8x128 .f32) :: L)) (ix3 (0 : Fin 1) r j)
      = v.read (Elt F) (v.writes (Elt F) f L) (ix3 (0 : Fin 1) r j) :=
  View.read_writes_cons_unit_of_not_mem v f inb_S1x8x128_S1x1x128_0_0_0 w L (ix3 (0 : Fin 1) r j) rfl (1 : Fin 3)
    (Or.inr (by show 0 + 1 ≤ r.val; omega))

end Pieces

section Pieces3
variable {F : FTy → Type} [FloatOps F]
/-- Row 0's piece of a block at lane `j` is the block at row 0, lane `j`. -/
theorem ld_row0 (X : Vec F S1x8x128 .f32) (j : Fin 128) :
    View.ld X R1 (ix3 (0 : Fin 1) (0 : Fin 1) j) = X (ix3 (0 : Fin 1) (0 : Fin 8) j) :=
  congrArg X (funext fun a => Fin.ext (by
    match a with
    | ⟨0, _⟩ => rfl
    | ⟨1, _⟩ => rfl
    | ⟨2, _⟩ => show 0 + 1 * j.val = j.val; omega))
end Pieces3

section Pieces2
variable {F : FTy → Type} [FloatOps F]

/-- A load of row 0 after one store of a whole block `w` reads row 0 of `w`. -/
theorem readCov_whole_row0 {κ : Kind} {sp : Space} (v : View sig κ sp S1x8x128 .f32) (w : Vec F S1x8x128 .f32) :
    v.readCov [(⟨Rect.unit (s := S1x8x128) ![0, 0, 0] S1x8x128.size inb_S1x8x128_S1x8x128_0_0_0, w⟩ : View.Piece (Elt F) S1x8x128 .f32)]
      (R1).toLoadRect = View.ld w R1 := by
  rw [View.readCov_eq_canon_ld _ _ _ (fun y => ⟨_, List.mem_singleton_self _, View.mem_set_unit_zero hz3 inb_S1x8x128_S1x8x128_0_0_0 y⟩),
    View.canon_unit_zero hz3]

/-- One store of a whole block `w`, read back, is `w`. -/
theorem read_whole {κ : Kind} {sp : Space} (v : View sig κ sp S1x8x128 .f32) (f : v.ty.Contents (Elt F)) (w : Vec F S1x8x128 .f32) :
    v.read (Elt F) (v.writes (Elt F) f
      [(⟨Rect.unit (s := S1x8x128) ![0, 0, 0] S1x8x128.size inb_S1x8x128_S1x8x128_0_0_0, w⟩ : View.Piece (Elt F) S1x8x128 .f32)]) = w :=
  (View.read_writes_eq_canon _ _ _ (fun y => ⟨_, List.mem_singleton_self _, View.mem_set_unit_zero hz3 inb_S1x8x128_S1x8x128_0_0_0 y⟩)).trans
    (View.canon_unit_zero hz3 _ _)

/-! Case B (a later step of a half): row 0 of each output becomes the body's sum over what was there, rows 1–7 stay. -/

theorem outB5_row0 (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond0_0 i) (x0 : Vec F S10000x128 .bf16) (x1 : Vec F S10000x4 .bf16) (x2 : Vec F S128x128 .bf16) (x3 : Vec F S4x128 .bf16) (x4 : Vec F S1x128 .f32) (xo5 xo6 : Vec F S1x8x128 .f32) (j : Fin 128) :
    out0_B_5 c i a2 h2 a3 h3 a4 h4 a5 h5 a6 h6 a7 h7 a8 h8 hc x0 x1 x2 x3 x4 xo5 xo6 (ix3 (0 : Fin 1) (0 : Fin 8) j)
      = k0_pay6 x0 x1 x2 x3 x4 (View.ld xo5 R1) (ix3 (0 : Fin 1) (0 : Fin 1) j) := by
  unfold out0_B_5 kernelRun0_B
  dsimp only
  sl_unfold_words
  refine (row0_hit _ _ _ [] j).trans ?_
  simp only [View.readAt_eq_ld, h2.read_unread, h3.read_unread, h4.read_unread, h5.read_unread, h6.read_unread,
    View.ld_unit_zero (S := S10000x128) hz2, View.ld_unit_zero (S := S10000x4) hz2, View.ld_unit_zero (S := S128x128) hz2,
    View.ld_unit_zero (S := S4x128) hz2, View.ld_unit_zero (S := S1x128) hz2, h7.read_unread]

theorem outB5_rowpos (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond0_0 i) (x0 : Vec F S10000x128 .bf16) (x1 : Vec F S10000x4 .bf16) (x2 : Vec F S128x128 .bf16) (x3 : Vec F S4x128 .bf16) (x4 : Vec F S1x128 .f32) (xo5 xo6 : Vec F S1x8x128 .f32) (r : Fin 8) (hr : r.val ≠ 0) (j : Fin 128) :
    out0_B_5 c i a2 h2 a3 h3 a4 h4 a5 h5 a6 h6 a7 h7 a8 h8 hc x0 x1 x2 x3 x4 xo5 xo6 (ix3 (0 : Fin 1) r j) = xo5 (ix3 (0 : Fin 1) r j) := by
  unfold out0_B_5 kernelRun0_B
  dsimp only
  sl_unfold_words
  refine (row0_miss _ _ _ [] r hr j).trans ?_
  rw [View.writes_nil, h7.read_unread]

theorem outB6_row0 (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond0_0 i) (x0 : Vec F S10000x128 .bf16) (x1 : Vec F S10000x4 .bf16) (x2 : Vec F S128x128 .bf16) (x3 : Vec F S4x128 .bf16) (x4 : Vec F S1x128 .f32) (xo5 xo6 : Vec F S1x8x128 .f32) (j : Fin 128) :
    out0_B_6 c i a2 h2 a3 h3 a4 h4 a5 h5 a6 h6 a7 h7 a8 h8 hc x0 x1 x2 x3 x4 xo5 xo6 (ix3 (0 : Fin 1) (0 : Fin 8) j)
      = k0_pay1 (k0_pay5 x0 x1 x2 x3 x4) (k0_pay7 (View.ld xo6 R1)) (ix3 (0 : Fin 1) (0 : Fin 1) j) := by
  unfold out0_B_6 kernelRun0_B
  dsimp only
  sl_unfold_words
  refine (row0_hit _ _ _ [] j).trans ?_
  simp only [View.readAt_eq_ld, h2.read_unread, h3.read_unread, h4.read_unread, h5.read_unread, h6.read_unread,
    View.ld_unit_zero (S := S10000x128) hz2, View.ld_unit_zero (S := S10000x4) hz2, View.ld_unit_zero (S := S128x128) hz2,
    View.ld_unit_zero (S := S4x128) hz2, View.ld_unit_zero (S := S1x128) hz2, h8.read_unread]

theorem outB6_rowpos (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : ¬cond0_0 i) (x0 : Vec F S10000x128 .bf16) (x1 : Vec F S10000x4 .bf16) (x2 : Vec F S128x128 .bf16) (x3 : Vec F S4x128 .bf16) (x4 : Vec F S1x128 .f32) (xo5 xo6 : Vec F S1x8x128 .f32) (r : Fin 8) (hr : r.val ≠ 0) (j : Fin 128) :
    out0_B_6 c i a2 h2 a3 h3 a4 h4 a5 h5 a6 h6 a7 h7 a8 h8 hc x0 x1 x2 x3 x4 xo5 xo6 (ix3 (0 : Fin 1) r j) = xo6 (ix3 (0 : Fin 1) r j) := by
  unfold out0_B_6 kernelRun0_B
  dsimp only
  sl_unfold_words
  refine (row0_miss _ _ _ [] r hr j).trans ?_
  rw [View.writes_nil, h8.read_unread]

/-! Case A (a half's first step): the block is first set to the zero block, then row 0 updated as in case B. -/

theorem outA5_row0 (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond0_0 i) (x0 : Vec F S10000x128 .bf16) (x1 : Vec F S10000x4 .bf16) (x2 : Vec F S128x128 .bf16) (x3 : Vec F S4x128 .bf16) (x4 : Vec F S1x128 .f32) (j : Fin 128) :
    out0_A_5 c i a2 h2 a3 h3 a4 h4 a5 h5 a6 h6 a7 h7 a8 h8 hc x0 x1 x2 x3 x4 (ix3 (0 : Fin 1) (0 : Fin 8) j)
      = k0_pay6 x0 x1 x2 x3 x4 (View.ld (k0_pay2 (F := F)) R1) (ix3 (0 : Fin 1) (0 : Fin 1) j) := by
  unfold out0_A_5 kernelRun0_A
  dsimp only
  sl_unfold_words
  refine (row0_hit _ _ _ _ j).trans ?_
  simp only [View.readAt_eq_ld, h2.read_unread, h3.read_unread, h4.read_unread, h5.read_unread, h6.read_unread,
    View.ld_unit_zero (S := S10000x128) hz2, View.ld_unit_zero (S := S10000x4) hz2, View.ld_unit_zero (S := S128x128) hz2,
    View.ld_unit_zero (S := S4x128) hz2, View.ld_unit_zero (S := S1x128) hz2]
  exact congrArg (fun z => k0_pay6 x0 x1 x2 x3 x4 z (ix3 (0 : Fin 1) (0 : Fin 1) j)) (readCov_whole_row0 a7.view k0_pay2)

theorem outA5_rowpos (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond0_0 i) (x0 : Vec F S10000x128 .bf16) (x1 : Vec F S10000x4 .bf16) (x2 : Vec F S128x128 .bf16) (x3 : Vec F S4x128 .bf16) (x4 : Vec F S1x128 .f32) (r : Fin 8) (hr : r.val ≠ 0) (j : Fin 128) :
    out0_A_5 c i a2 h2 a3 h3 a4 h4 a5 h5 a6 h6 a7 h7 a8 h8 hc x0 x1 x2 x3 x4 (ix3 (0 : Fin 1) r j) = k0_pay2 (F := F) (ix3 (0 : Fin 1) r j) := by
  unfold out0_A_5 kernelRun0_A
  dsimp only
  sl_unfold_words
  refine (row0_miss _ _ _ _ r hr j).trans ?_
  rw [read_whole]

theorem outA6_row0 (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond0_0 i) (x0 : Vec F S10000x128 .bf16) (x1 : Vec F S10000x4 .bf16) (x2 : Vec F S128x128 .bf16) (x3 : Vec F S4x128 .bf16) (x4 : Vec F S1x128 .f32) (j : Fin 128) :
    out0_A_6 c i a2 h2 a3 h3 a4 h4 a5 h5 a6 h6 a7 h7 a8 h8 hc x0 x1 x2 x3 x4 (ix3 (0 : Fin 1) (0 : Fin 8) j)
      = k0_pay1 (k0_pay5 x0 x1 x2 x3 x4) (k0_pay7 (View.ld (k0_pay3 (F := F)) R1)) (ix3 (0 : Fin 1) (0 : Fin 1) j) := by
  unfold out0_A_6 kernelRun0_A
  dsimp only
  sl_unfold_words
  refine (row0_hit _ _ _ _ j).trans ?_
  simp only [View.readAt_eq_ld, h2.read_unread, h3.read_unread, h4.read_unread, h5.read_unread, h6.read_unread,
    View.ld_unit_zero (S := S10000x128) hz2, View.ld_unit_zero (S := S10000x4) hz2, View.ld_unit_zero (S := S128x128) hz2,
    View.ld_unit_zero (S := S4x128) hz2, View.ld_unit_zero (S := S1x128) hz2]
  exact congrArg (fun z => k0_pay1 (k0_pay5 x0 x1 x2 x3 x4) (k0_pay7 z) (ix3 (0 : Fin 1) (0 : Fin 1) j)) (readCov_whole_row0 a8.view k0_pay3)

theorem outA6_rowpos (c : Dev nD) (i : grid0.Coords) (a2 : Memref sig .tc .vmem S10000x128 .bf16) (h2 : a2.IsWhole) (a3 : Memref sig .tc .vmem S10000x4 .bf16) (h3 : a3.IsWhole) (a4 : Memref sig .tc .vmem S128x128 .bf16) (h4 : a4.IsWhole) (a5 : Memref sig .tc .vmem S4x128 .bf16) (h5 : a5.IsWhole) (a6 : Memref sig .tc .vmem S1x128 .f32) (h6 : a6.IsWhole) (a7 : Memref sig .tc .vmem S1x8x128 .f32) (h7 : a7.IsWhole) (a8 : Memref sig .tc .vmem S1x8x128 .f32) (h8 : a8.IsWhole) (hc : cond0_0 i) (x0 : Vec F S10000x128 .bf16) (x1 : Vec F S10000x4 .bf16) (x2 : Vec F S128x128 .bf16) (x3 : Vec F S4x128 .bf16) (x4 : Vec F S1x128 .f32) (r : Fin 8) (hr : r.val ≠ 0) (j : Fin 128) :
    out0_A_6 c i a2 h2 a3 h3 a4 h4 a5 h5 a6 h6 a7 h7 a8 h8 hc x0 x1 x2 x3 x4 (ix3 (0 : Fin 1) r j) = k0_pay3 (F := F) (ix3 (0 : Fin 1) r j) := by
  unfold out0_A_6 kernelRun0_A
  dsimp only
  sl_unfold_words
  refine (row0_miss _ _ _ _ r hr j).trans ?_
  rw [read_whole]

end Pieces2

/-! ## The body's arithmetic at an index, over the extended reals -/

section Payloads

/-! The two products' index maps, axis by axis: the left operand is read at (row, contracted), the right at (contracted, column). -/

theorem lhsA_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhsB_0 (i : S10000x128.Idx) (q : dot_S10000x4_S4x128_S10000x128_1_0_0_1_n_n.contr.Idx) : (dot_S10000x4_S4x128_S10000x128_1_0_0_1_n_n.lhsIdx i q 0).val = (i 0).val := by
  unfold DotDims.lhsIdx
  rw [dif_neg (show ¬(0 : Fin S10000x4.rank) ∈ dot_S10000x4_S4x128_S10000x128_1_0_0_1_n_n.lhsBatch by decide), dif_pos (show (0 : Fin S10000x4.rank) ∈ dot_S10000x4_S4x128_S10000x128_1_0_0_1_n_n.lhsNonContracting by decide)]
  rfl
theorem lhsB_1 (i : S10000x128.Idx) (q : dot_S10000x4_S4x128_S10000x128_1_0_0_1_n_n.contr.Idx) : (dot_S10000x4_S4x128_S10000x128_1_0_0_1_n_n.lhsIdx i q 1).val = (q ⟨0, by decide⟩).val :=
  dot_S10000x4_S4x128_S10000x128_1_0_0_1_n_n.lhsIdx_val_of_single rfl i q
theorem rhsB_0 (i : S10000x128.Idx) (q : dot_S10000x4_S4x128_S10000x128_1_0_0_1_n_n.contr.Idx) : (dot_S10000x4_S4x128_S10000x128_1_0_0_1_n_n.rhsIdx i q 0).val = (q ⟨0, by decide⟩).val :=
  dot_S10000x4_S4x128_S10000x128_1_0_0_1_n_n.rhsIdx_val_of_single rfl i q
theorem rhsB_1 (i : S10000x128.Idx) (q : dot_S10000x4_S4x128_S10000x128_1_0_0_1_n_n.contr.Idx) : (dot_S10000x4_S4x128_S10000x128_1_0_0_1_n_n.rhsIdx i q 1).val = (i 1).val := by
  unfold DotDims.rhsIdx
  rw [dif_neg (show ¬(1 : Fin S4x128.rank) ∈ dot_S10000x4_S4x128_S10000x128_1_0_0_1_n_n.rhsBatch by decide), dif_pos (show (1 : Fin S4x128.rank) ∈ dot_S10000x4_S4x128_S10000x128_1_0_0_1_n_n.rhsNonContracting by decide)]
  rfl

/-- The 128-feature product at (row, column): the row's features against the column's weights. -/
theorem mmA_apply (x : FVec Ideal S10000x128 .bf16) (w : FVec Ideal S128x128 .bf16) (r : Fin 10000) (j : Fin 128) :
    (matmul dot_S10000x128_S128x128_S10000x128_1_0_0_1_n_n none x w (constant (F := Ideal) S10000x128 .f32 0x00000000#32) : S10000x128.Idx → EReal) (ix2 r j)
      = ∑ k : Fin 128, (x : S10000x128.Idx → EReal) (ix2 r k) * (w : S128x128.Idx → EReal) (ix2 k j) := by
  refine (Ideal.matmul_constant_zero_apply dot_S10000x128_S128x128_S10000x128_1_0_0_1_n_n none x w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-- The 4-attribute product at (row, column). -/
theorem mmB_apply (x : FVec Ideal S10000x4 .bf16) (w : FVec Ideal S4x128 .bf16) (r : Fin 10000) (j : Fin 128) :
    (matmul dot_S10000x4_S4x128_S10000x128_1_0_0_1_n_n none x w (constant (F := Ideal) S10000x128 .f32 0x00000000#32) : S10000x128.Idx → EReal) (ix2 r j)
      = ∑ k : Fin 4, (x : S10000x4.Idx → EReal) (ix2 r k) * (w : S4x128.Idx → EReal) (ix2 k j) := by
  refine (Ideal.matmul_constant_zero_apply dot_S10000x4_S4x128_S10000x128_1_0_0_1_n_n none x w (ix2 r j)).trans ?_
  rw [← Equiv.sum_comp (contrEquiv1 dot_S10000x4_S4x128_S10000x128_1_0_0_1_n_n 4 rfl rfl).symm]
  refine Finset.sum_congr rfl fun k _ => ?_
  have hk := contrEquiv1_symm_val dot_S10000x4_S4x128_S10000x128_1_0_0_1_n_n 4 rfl rfl k
  have el : dot_S10000x4_S4x128_S10000x128_1_0_0_1_n_n.lhsIdx (ix2 r j) ((contrEquiv1 dot_S10000x4_S4x128_S10000x128_1_0_0_1_n_n 4 rfl rfl).symm k) = ix2 r k := funext fun a => Fin.ext (by
    match a with
    | ⟨0, _⟩ => exact lhsB_0 _ _
    | ⟨1, _⟩ => exact (lhsB_1 _ _).trans hk)
  have er : dot_S10000x4_S4x128_S10000x128_1_0_0_1_n_n.rhsIdx (ix2 r j) ((contrEquiv1 dot_S10000x4_S4x128_S10000x128_1_0_0_1_n_n 4 rfl rfl).symm k) = ix2 k j := funext fun a => Fin.ext (by
    match a with
    | ⟨0, _⟩ => exact (rhsB_0 _ _).trans hk
    | ⟨1, _⟩ => exact rhsB_1 _ _)
  rw [el, er]

/-- Adding or dropping a leading unit axis keeps the lane. -/
theorem cast_1x128_1x1x128 {α : Type} (v : S1x128.Idx → α) (h : S1x128.ShapeCasts S1x1x128) (j : Fin 128) :
    shapeCast S1x1x128 v h (ix3 (0 : Fin 1) (0 : Fin 1) j) = v (ix2 (0 : Fin 1) j) :=
  shapeCast_apply v h _ _ (by
    rw [Shape.rowMajor_val_two, Shape.rowMajor_val_three]
    show (0 : ℕ) * 128 + j.val = ((0 : ℕ) * 1 + 0) * 128 + j.val
    omega)
theorem cast_1x1x128_1x128 {α : Type} (v : S1x1x128.Idx → α) (h : S1x1x128.ShapeCasts S1x128) (j : Fin 128) :
    shapeCast S1x128 v h (ix2 (0 : Fin 1) j) = v (ix3 (0 : Fin 1) (0 : Fin 1) j) :=
  shapeCast_apply v h _ _ (by
    rw [Shape.rowMajor_val_two, Shape.rowMajor_val_three]
    show ((0 : ℕ) * 1 + 0) * 128 + j.val = (0 : ℕ) * 128 + j.val
    omega)
theorem cast_128_1x128 {α : Type} (v : S128.Idx → α) (h : S128.ShapeCasts S1x128) (j : Fin 128) :
    shapeCast S1x128 v h (ix2 (0 : Fin 1) j) = v (ix1 j) :=
  shapeCast_apply v h _ _ (by
    rw [Shape.rowMajor_val_two, Shape.rowMajor_val_one]
    show j.val = (0 : ℕ) * 128 + j.val
    omega)

/-- The hidden layer of staged row `r`, column `j`: features through the first weights, attributes through the second, the bias. -/
theorem pay4_apply (x0 : Vec Ideal S10000x128 .bf16) (x1 : Vec Ideal S10000x4 .bf16) (x2 : Vec Ideal S128x128 .bf16) (x3 : Vec Ideal S4x128 .bf16) (x4 : Vec Ideal S1x128 .f32) (r : Fin 10000) (j : Fin 128) :
    (k0_pay4 x0 x1 x2 x3 x4 : S10000x128.Idx → EReal) (ix2 r j)
      = ((∑ k : Fin 128, (x0 : S10000x128.Idx → EReal) (ix2 r k) * (x2 : S128x128.Idx → EReal) (ix2 k j))
          + ∑ k : Fin 4, (x1 : S10000x4.Idx → EReal) (ix2 r k) * (x3 : S4x128.Idx → EReal) (ix2 k j))
        + (x4 : S1x128.Idx → EReal) (ix2 (0 : Fin 1) j) := by
  unfold k0_pay4
  refine congrArg₂ (· + ·) (congrArg₂ (· + ·) ?_ ?_) ?_
  · refine (mmA_apply _ _ r j).trans (Finset.sum_congr rfl fun k _ => ?_)
    rw [shapeCast_self, shapeCast_self]
  · refine (mmB_apply _ _ r j).trans (Finset.sum_congr rfl fun k _ => ?_)
    rw [shapeCast_self, shapeCast_self]
  · refine (broadcastTo_apply _ _ (ix2 r j) (ix2 (0 : Fin 1) j) (fun a => ?_)).trans ?_
    · match a with
      | ⟨0, _⟩ => rfl
      | ⟨1, _⟩ => rfl
    · rw [shapeCast_self]

/-- Row 0's new value for the first output: what was there plus the column sum of the staged rows' hidden layer. -/
theorem pay6_apply (x0 : Vec Ideal S10000x128 .bf16) (x1 : Vec Ideal S10000x4 .bf16) (x2 : Vec Ideal S128x128 .bf16) (x3 : Vec Ideal S4x128 .bf16) (x4 : Vec Ideal S1x128 .f32) (v23 : Vec Ideal S1x1x128 .f32) (j : Fin 128) :
    (k0_pay6 x0 x1 x2 x3 x4 v23 : S1x1x128.Idx → EReal) (ix3 (0 : Fin 1) (0 : Fin 1) j)
      = (v23 : S1x1x128.Idx → EReal) (ix3 (0 : Fin 1) (0 : Fin 1) j)
        + ∑ r : Fin 10000, (k0_pay4 x0 x1 x2 x3 x4 : S10000x128.Idx → EReal) (ix2 r j) := by
  unfold k0_pay6
  refine (cast_1x128_1x1x128 _ _ j).trans ?_
  refine congrArg₂ (· + ·) (cast_1x1x128_1x128 v23 _ j) ?_
  refine (cast_128_1x128 _ _ j).trans ?_
  refine (Ideal.multiReduction_add_single _ _ _ _ _ (ix1 j)).trans (Finset.sum_congr rfl fun r _ => ?_)
  exact congrArg (k0_pay4 x0 x1 x2 x3 x4) (funext fun a => Fin.ext (by
    match a with
    | ⟨0, _⟩ => rfl
    | ⟨1, _⟩ => rfl))

/-- Row 0's new value for the second output: what was there plus the column sum of the squares. -/
theorem pay1_apply (x0 : Vec Ideal S10000x128 .bf16) (x1 : Vec Ideal S10000x4 .bf16) (x2 : Vec Ideal S128x128 .bf16) (x3 : Vec Ideal S4x128 .bf16) (x4 : Vec Ideal S1x128 .f32) (v29 : Vec Ideal S1x1x128 .f32) (j : Fin 128) :
    (k0_pay1 (k0_pay5 x0 x1 x2 x3 x4) (k0_pay7 v29) : S1x1x128.Idx → EReal) (ix3 (0 : Fin 1) (0 : Fin 1) j)
      = (v29 : S1x1x128.Idx → EReal) (ix3 (0 : Fin 1) (0 : Fin 1) j)
        + ∑ r : Fin 10000, (k0_pay4 x0 x1 x2 x3 x4 : S10000x128.Idx → EReal) (ix2 r j)
            * (k0_pay4 x0 x1 x2 x3 x4 : S10000x128.Idx → EReal) (ix2 r j) := by
  unfold k0_pay1 k0_pay5 k0_pay7
  refine (cast_1x128_1x1x128 _ _ j).trans ?_
  refine congrArg₂ (· + ·) (cast_1x1x128_1x128 v29 _ j) ?_
  refine (cast_128_1x128 _ _ j).trans ?_
  refine (Ideal.multiReduction_add_single _ _ _ _ _ (ix1 j)).trans (Finset.sum_congr rfl fun r _ => ?_)
  exact congrArg (fun y => (k0_pay4 x0 x1 x2 x3 x4 : S10000x128.Idx → EReal) y * (k0_pay4 x0 x1 x2 x3 x4 : S10000x128.Idx → EReal) y)
    (funext fun a => Fin.ext (by
      match a with
      | ⟨0, _⟩ => rfl
      | ⟨1, _⟩ => rfl))

/-- The reset block is zero everywhere. -/
theorem pay2_apply (y : S1x8x128.Idx) : (k0_pay2 (F := Ideal) : S1x8x128.Idx → EReal) y = 0 := by
  unfold k0_pay2
  exact Ideal.ofBits_zero_f32
theorem pay3_apply (y : S1x8x128.Idx) : (k0_pay3 (F := Ideal) : S1x8x128.Idx → EReal) y = 0 := by
  unfold k0_pay3
  exact Ideal.ofBits_zero_f32

end Payloads

/-! ## The running sum over a half's fifty steps -/

section RunningSum

/-- A function of the edge number, continued by zero past the last edge. -/
def ext (f : Fin 1000000 → EReal) (e : ℕ) : EReal := if h : e < 1000000 then f ⟨e, h⟩ else 0

/-- The sum of `f` over the 10,000 edges that grid point `t` stages: edges `10000 t … 10000 t + 9999`. -/
def ptSum (f : Fin 1000000 → EReal) (t : ℕ) : EReal := ∑ r : Fin 10000, ext f (t * 10000 + r.val)

/-- The running sum after point `n`: started afresh (from zero) at each multiple of 50, else carried on. -/
def run (f : Fin 1000000 → EReal) : ℕ → EReal
  | 0 => 0 + ptSum f 0
  | n + 1 => if (n + 1) % 50 = 0 then 0 + ptSum f (n + 1) else run f n + ptSum f (n + 1)

theorem run_reset (f : Fin 1000000 → EReal) (n : ℕ) (h0 : n % 50 = 0) : run f n = 0 + ptSum f n := by
  cases n with
  | zero => rfl
  | succ n => exact if_pos h0

theorem run_step (f : Fin 1000000 → EReal) (n : ℕ) (h0 : ¬(n + 1) % 50 = 0) : run f (n + 1) = run f n + ptSum f (n + 1) :=
  if_neg h0

/-- Within a half the running sum after step `i` is the sum of the points' sums up to it. -/
theorem run_eq (f : Fin 1000000 → EReal) (q : ℕ) : ∀ i : ℕ, i < 50 →
    run f (50 * q + i) = ∑ k ∈ Finset.range (i + 1), ptSum f (50 * q + k)
  | 0, _ => by
    rw [run_reset f _ (by omega), Finset.sum_range_one, zero_add]
  | i + 1, hi => by
    show run f (50 * q + i + 1) = _
    rw [run_step f _ (by omega), run_eq f q i (by omega), Finset.sum_range_succ _ (i + 1)]
    rfl

/-- After a half's last step the running sum is the half's block sum. -/
theorem run_last (f : Fin 1000000 → EReal) (cc : Fin 2) : run f (50 * cc.val + 49) = Spec.blockSum f cc := by
  rw [run_eq f cc.val 49 (by omega), Finset.sum_range]
  unfold Spec.blockSum
  refine Finset.sum_congr rfl fun i _ => ?_
  unfold ptSum
  refine Finset.sum_congr rfl fun r _ => ?_
  have hb : (50 * cc.val + i.val) * 10000 + r.val < 1000000 := by
    have := cc.isLt; have := i.isLt; have := r.isLt; omega
  unfold ext
  rw [dif_pos hb]
  exact congrArg f (Fin.ext (by show (50 * cc.val + i.val) * 10000 + r.val = (cc.val * 50 + i.val) * 10000 + r.val; omega))

end RunningSum

section Blocks

/-- The windows' block indices at point `t`, decided over the grid: the two edge windows are at block `t`, the weights
    and bias at their one block, the two results at half `t / 50`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 50 ∧ win0_5.index t (1 : Fin 3) = 0 ∧ win0_5.index t (2 : Fin 3) = 0)
    ∧ (win0_6.index t (0 : Fin 3) = t.val / 50 ∧ win0_6.index t (1 : Fin 3) = 0 ∧ win0_6.index t (2 : Fin 3) = 0) :=
  (by decide +kernel : ∀ t : Fin grid0.N, _)

end Blocks

variable (V : (c : Dev nD) → (b : Ref sig .tc) → Buf (Elt Ideal) ((c : Thread nD τ).loc b))

/-- The hidden layer of edge `e`, column `j`, from the arrays the first region is entered with. -/
def hid (c : Dev nD) (e : Fin 1000000) (j : Fin 128) : EReal :=
  Spec.pre1 (fun k => (V c main_v18 : S1000000x128.Idx → EReal) (ix2 e k))
    (fun k => (V c main_v19 : S1000000x4.Idx → EReal) (ix2 e k))
    (fun k j => (V c main_v22 : S128x128.Idx → EReal) (ix2 k j))
    (fun k j => (V c main_v23 : S4x128.Idx → EReal) (ix2 k j))
    (fun j => (V c main_v24 : S1x128.Idx → EReal) (ix2 (0 : Fin 1) j)) j

section BlockReads

/-- The features' block at point `t` is rows `10000 t … 10000 t + 9999` of the feature array. -/
theorem blk0_apply (c : Dev nD) (t : Fin cfg0.N) (r : Fin 10000) (k : Fin 128) (hb : t.val * 10000 + r.val < 1000000) :
    (iblk0 V c 0 t : Vec Ideal S10000x128 .bf16) (ix2 r k)
      = (V c main_v18 : S1000000x128.Idx → EReal) (ix2 (⟨t.val * 10000 + r.val, hb⟩ : Fin 1000000) k) := by
  obtain ⟨⟨e0, e1⟩, -⟩ := idx_facts t
  unfold iblk0
  rw [View.read_apply]
  show V c main_v18 _ = V c main_v18 _
  congr 1
  funext a
  apply Fin.ext
  match a with
  | ⟨0, _⟩ => show win0_0.index t (0 : Fin 2) * 10000 + 1 * r.val = t.val * 10000 + r.val; omega
  | ⟨1, _⟩ => show win0_0.index t (1 : Fin 2) * 128 + 1 * k.val = k.val; omega

/-- The attributes' block at point `t` is the same rows of the attribute array. -/
theorem blk1_apply (c : Dev nD) (t : Fin cfg0.N) (r : Fin 10000) (k : Fin 4) (hb : t.val * 10000 + r.val < 1000000) :
    (iblk0 V c 1 t : Vec Ideal S10000x4 .bf16) (ix2 r k)
      = (V c main_v19 : S1000000x4.Idx → EReal) (ix2 (⟨t.val * 10000 + r.val, hb⟩ : Fin 1000000) k) := by
  obtain ⟨-, ⟨e0, e1⟩, -⟩ := idx_facts t
  unfold iblk0
  rw [View.read_apply]
  show V c main_v19 _ = V c main_v19 _
  congr 1
  funext a
  apply Fin.ext
  match a with
  | ⟨0, _⟩ => show win0_1.index t (0 : Fin 2) * 10000 + 1 * r.val = t.val * 10000 + r.val; omega
  | ⟨1, _⟩ => show win0_1.index t (1 : Fin 2) * 4 + 1 * k.val = k.val; omega

/-- The two weight windows and the bias window hold their whole arrays at every point. -/
theorem blk2_apply (c : Dev nD) (t : Fin cfg0.N) (k j : Fin 128) :
    (iblk0 V c 2 t : Vec Ideal S128x128 .bf16) (ix2 k j) = (V c main_v22 : S128x128.Idx → EReal) (ix2 k j) := by
  obtain ⟨-, -, ⟨e0, e1⟩, -⟩ := idx_facts t
  unfold iblk0
  rw [View.read_apply]
  show V c main_v22 _ = V c main_v22 _
  congr 1
  funext a
  apply Fin.ext
  match a with
  | ⟨0, _⟩ => show win0_2.index t (0 : Fin 2) * 128 + 1 * k.val = k.val; omega
  | ⟨1, _⟩ => show win0_2.index t (1 : Fin 2) * 128 + 1 * j.val = j.val; omega

theorem blk3_apply (c : Dev nD) (t : Fin cfg0.N) (k : Fin 4) (j : Fin 128) :
    (iblk0 V c 3 t : Vec Ideal S4x128 .bf16) (ix2 k j) = (V c main_v23 : S4x128.Idx → EReal) (ix2 k j) := by
  obtain ⟨-, -, -, ⟨e0, e1⟩, -⟩ := idx_facts t
  unfold iblk0
  rw [View.read_apply]
  show V c main_v23 _ = V c main_v23 _
  congr 1
  funext a
  apply Fin.ext
  match a with
  | ⟨0, _⟩ => show win0_3.index t (0 : Fin 2) * 4 + 1 * k.val = k.val; omega
  | ⟨1, _⟩ => show win0_3.index t (1 : Fin 2) * 128 + 1 * j.val = j.val; omega

theorem blk4_apply (c : Dev nD) (t : Fin cfg0.N) (j : Fin 128) :
    (iblk0 V c 4 t : Vec Ideal S1x128 .f32) (ix2 (0 : Fin 1) j) = (V c main_v24 : S1x128.Idx → EReal) (ix2 (0 : Fin 1) j) := by
  obtain ⟨-, -, -, -, ⟨e0, e1⟩, -⟩ := idx_facts t
  unfold iblk0
  rw [View.read_apply]
  show V c main_v24 _ = V c main_v24 _
  congr 1
  funext a
  apply Fin.ext
  match a with
  | ⟨0, _⟩ => show win0_4.index t (0 : Fin 2) * 1 + 1 * 0 = 0; omega
  | ⟨1, _⟩ => show win0_4.index t (1 : Fin 2) * 128 + 1 * j.val = j.val; omega

/-- So the body's hidden layer at staged row `r` of point `t` is the hidden layer of edge `10000 t + r`. -/
theorem hid_blk (c : Dev nD) (t : Fin cfg0.N) (r : Fin 10000) (j : Fin 128) (hb : t.val * 10000 + r.val < 1000000) :
    (k0_pay4 (iblk0 V c 0 t) (iblk0 V c 1 t) (iblk0 V c 2 t) (iblk0 V c 3 t) (iblk0 V c 4 t) : S10000x128.Idx → EReal) (ix2 r j) = hid V c ⟨t.val * 10000 + r.val, hb⟩ j := by
  refine (pay4_apply (iblk0 V c 0 t) (iblk0 V c 1 t) (iblk0 V c 2 t) (iblk0 V c 3 t) (iblk0 V c 4 t) r j).trans ?_
  unfold hid Spec.pre1
  refine congrArg₂ (· + ·) (congrArg₂ (· + ·) ?_ ?_) ?_
  · exact Finset.sum_congr rfl fun k _ => congrArg₂ (· * ·) (blk0_apply V c t r k hb) (blk2_apply V c t k j)
  · exact Finset.sum_congr rfl fun k _ => congrArg₂ (· * ·) (blk1_apply V c t r k hb) (blk3_apply V c t k j)
  · exact blk4_apply V c t j

/-- What point `t` adds to column `j` of the first output: the column's sum over the point's edges … -/
theorem addend5 (c : Dev nD) (t : Fin cfg0.N) (j : Fin 128) :
    ∑ r : Fin 10000, (k0_pay4 (iblk0 V c 0 t) (iblk0 V c 1 t) (iblk0 V c 2 t) (iblk0 V c 3 t) (iblk0 V c 4 t) : S10000x128.Idx → EReal) (ix2 r j) = ptSum (fun e => hid V c e j) t.val := by
  unfold ptSum
  refine Finset.sum_congr rfl fun r _ => ?_
  have hb : t.val * 10000 + r.val < 1000000 := by
    have := lt_of_lt_of_eq t.isLt (show cfg0.N = 100 from N_0); have := r.isLt; omega
  rw [ext, dif_pos hb]
  exact hid_blk V c t r j hb

/-- … and of the second: the sum of the squares. -/
theorem addend6 (c : Dev nD) (t : Fin cfg0.N) (j : Fin 128) :
    ∑ r : Fin 10000, (k0_pay4 (iblk0 V c 0 t) (iblk0 V c 1 t) (iblk0 V c 2 t) (iblk0 V c 3 t) (iblk0 V c 4 t) : S10000x128.Idx → EReal) (ix2 r j) * (k0_pay4 (iblk0 V c 0 t) (iblk0 V c 1 t) (iblk0 V c 2 t) (iblk0 V c 3 t) (iblk0 V c 4 t) : S10000x128.Idx → EReal) (ix2 r j)
      = ptSum (fun e => hid V c e j * hid V c e j) t.val := by
  unfold ptSum
  refine Finset.sum_congr rfl fun r _ => ?_
  have hb : t.val * 10000 + r.val < 1000000 := by
    have := lt_of_lt_of_eq t.isLt (show cfg0.N = 100 from N_0); have := r.isLt; omega
  rw [ext, dif_pos hb]
  exact congrArg₂ (· * ·) (hid_blk V c t r j hb) (hid_blk V c t r j hb)

end BlockReads

section Invariant

/-- A half's first step leaves, in the first output's block, row 0 at zero plus the point's sum and rows 1–7 at zero. -/
theorem stepA5 (c : Dev nD) (t : Fin cfg0.N) (h0 : t.val % 50 = 0) (r : Fin 8) (j : Fin 128) :
    ((outsAt0 V c t.val t.isLt).1 : S1x8x128.Idx → EReal) (ix3 (0 : Fin 1) r j)
      = if r.val = 0 then 0 + ptSum (fun e => hid V c e j) t.val else 0 := by
  rw [outsAt0_A V c t h0]
  dsimp only
  by_cases hr : r.val = 0
  · obtain rfl : r = 0 := Fin.ext hr
    rw [if_pos hr]
    refine (outA5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t) j).trans ?_
    refine (pay6_apply (iblk0 V c 0 t) (iblk0 V c 1 t) (iblk0 V c 2 t) (iblk0 V c 3 t) (iblk0 V c 4 t) (View.ld (k0_pay2 (F := Ideal)) R1) j).trans ?_
    exact congrArg₂ (· + ·) (pay2_apply _) (addend5 V c t j)
  · rw [if_neg hr]
    exact (outA5_rowpos (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t) r hr j).trans (pay2_apply _)

/-- A later step adds the point's sum to row 0 of what the step before left, and keeps rows 1–7. -/
theorem stepB5 (c : Dev nD) (t : Fin cfg0.N) (h0 : ¬t.val % 50 = 0) (r : Fin 8) (j : Fin 128) :
    ((outsAt0 V c t.val t.isLt).1 : S1x8x128.Idx → EReal) (ix3 (0 : Fin 1) r j)
      = if r.val = 0 then
          ((outsAt0 V c (t.val - 1) (Nat.lt_of_le_of_lt (Nat.sub_le _ _) t.isLt)).1 : S1x8x128.Idx → EReal) (ix3 (0 : Fin 1) (0 : Fin 8) j) + ptSum (fun e => hid V c e j) t.val
        else ((outsAt0 V c (t.val - 1) (Nat.lt_of_le_of_lt (Nat.sub_le _ _) t.isLt)).1 : S1x8x128.Idx → EReal) (ix3 (0 : Fin 1) r j) := by
  rw [outsAt0_B V c t h0]
  dsimp only
  by_cases hr : r.val = 0
  · obtain rfl : r = 0 := Fin.ext hr
    rw [if_pos hr]
    refine (outB5_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2 j).trans ?_
    refine (pay6_apply (iblk0 V c 0 t) (iblk0 V c 1 t) (iblk0 V c 2 t) (iblk0 V c 3 t) (iblk0 V c 4 t) (View.ld (outsAt0 V c (t.val - 1) (Nat.lt_of_le_of_lt (Nat.sub_le _ _) t.isLt)).1 R1) j).trans ?_
    exact congrArg₂ (· + ·) (ld_row0 (outsAt0 V c (t.val - 1) (Nat.lt_of_le_of_lt (Nat.sub_le _ _) t.isLt)).1 j) (addend5 V c t j)
  · rw [if_neg hr]
    exact outB5_rowpos (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2 r hr j

/-- So after every point the first output's block holds the running sum in row 0 and zeros below: by induction on the point. -/
theorem outs5_eq (c : Dev nD) : ∀ (n : ℕ) (h : n < cfg0.N) (r : Fin 8) (j : Fin 128),
    ((outsAt0 V c n h).1 : S1x8x128.Idx → EReal) (ix3 (0 : Fin 1) r j) = if r.val = 0 then run (fun e => hid V c e j) n else 0
  | 0, h, r, j => by
    rw [run_reset _ 0 rfl]
    exact stepA5 V c ⟨0, h⟩ rfl r j
  | n + 1, h, r, j => by
    by_cases h0 : (n + 1) % 50 = 0
    · rw [run_reset _ (n + 1) h0]
      exact stepA5 V c ⟨n + 1, h⟩ h0 r j
    · rw [run_step _ n h0]
      refine (stepB5 V c ⟨n + 1, h⟩ h0 r j).trans ?_
      by_cases hr : r.val = 0
      · rw [if_pos hr, if_pos hr]
        exact congrArg (· + ptSum (fun e => hid V c e j) (n + 1)) ((outs5_eq c n (Nat.lt_of_succ_lt h) 0 j).trans (if_pos rfl))
      · rw [if_neg hr, if_neg hr]
        exact (outs5_eq c n (Nat.lt_of_succ_lt h) r j).trans (if_neg hr)

/-- A half's first step leaves, in the second output's block, row 0 at zero plus the point's sum and rows 1–7 at zero. -/
theorem stepA6 (c : Dev nD) (t : Fin cfg0.N) (h0 : t.val % 50 = 0) (r : Fin 8) (j : Fin 128) :
    ((outsAt0 V c t.val t.isLt).2 : S1x8x128.Idx → EReal) (ix3 (0 : Fin 1) r j)
      = if r.val = 0 then 0 + ptSum (fun e => hid V c e j * hid V c e j) t.val else 0 := by
  rw [outsAt0_A V c t h0]
  dsimp only
  by_cases hr : r.val = 0
  · obtain rfl : r = 0 := Fin.ext hr
    rw [if_pos hr]
    refine (outA6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t) j).trans ?_
    refine (pay1_apply (iblk0 V c 0 t) (iblk0 V c 1 t) (iblk0 V c 2 t) (iblk0 V c 3 t) (iblk0 V c 4 t) (View.ld (k0_pay3 (F := Ideal)) R1) j).trans ?_
    exact congrArg₂ (· + ·) (pay3_apply _) (addend6 V c t j)
  · rw [if_neg hr]
    exact (outA6_rowpos (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t) r hr j).trans (pay3_apply _)

/-- A later step adds the point's sum to row 0 of what the step before left, and keeps rows 1–7. -/
theorem stepB6 (c : Dev nD) (t : Fin cfg0.N) (h0 : ¬t.val % 50 = 0) (r : Fin 8) (j : Fin 128) :
    ((outsAt0 V c t.val t.isLt).2 : S1x8x128.Idx → EReal) (ix3 (0 : Fin 1) r j)
      = if r.val = 0 then
          ((outsAt0 V c (t.val - 1) (Nat.lt_of_le_of_lt (Nat.sub_le _ _) t.isLt)).2 : S1x8x128.Idx → EReal) (ix3 (0 : Fin 1) (0 : Fin 8) j) + ptSum (fun e => hid V c e j * hid V c e j) t.val
        else ((outsAt0 V c (t.val - 1) (Nat.lt_of_le_of_lt (Nat.sub_le _ _) t.isLt)).2 : S1x8x128.Idx → EReal) (ix3 (0 : Fin 1) r j) := by
  rw [outsAt0_B V c t h0]
  dsimp only
  by_cases hr : r.val = 0
  · obtain rfl : r = 0 := Fin.ext hr
    rw [if_pos hr]
    refine (outB6_row0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2 j).trans ?_
    refine (pay1_apply (iblk0 V c 0 t) (iblk0 V c 1 t) (iblk0 V c 2 t) (iblk0 V c 3 t) (iblk0 V c 4 t) (View.ld (outsAt0 V c (t.val - 1) (Nat.lt_of_le_of_lt (Nat.sub_le _ _) t.isLt)).2 R1) j).trans ?_
    exact congrArg₂ (· + ·) (ld_row0 (outsAt0 V c (t.val - 1) (Nat.lt_of_le_of_lt (Nat.sub_le _ _) t.isLt)).2 j) (addend6 V c t j)
  · rw [if_neg hr]
    exact outB6_rowpos (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2 r hr j

/-- So after every point the second output's block holds the running sum in row 0 and zeros below: by induction on the point. -/
theorem outs6_eq (c : Dev nD) : ∀ (n : ℕ) (h : n < cfg0.N) (r : Fin 8) (j : Fin 128),
    ((outsAt0 V c n h).2 : S1x8x128.Idx → EReal) (ix3 (0 : Fin 1) r j) = if r.val = 0 then run (fun e => hid V c e j * hid V c e j) n else 0
  | 0, h, r, j => by
    rw [run_reset _ 0 rfl]
    exact stepA6 V c ⟨0, h⟩ rfl r j
  | n + 1, h, r, j => by
    by_cases h0 : (n + 1) % 50 = 0
    · rw [run_reset _ (n + 1) h0]
      exact stepA6 V c ⟨n + 1, h⟩ h0 r j
    · rw [run_step _ n h0]
      refine (stepB6 V c ⟨n + 1, h⟩ h0 r j).trans ?_
      by_cases hr : r.val = 0
      · rw [if_pos hr, if_pos hr]
        exact congrArg (· + ptSum (fun e => hid V c e j * hid V c e j) (n + 1)) ((outs6_eq c n (Nat.lt_of_succ_lt h) 0 j).trans (if_pos rfl))
      · rw [if_neg hr, if_neg hr]
        exact (outs6_eq c n (Nat.lt_of_succ_lt h) r j).trans (if_neg hr)

end Invariant

section WriteBack

/-- At any point that ends a half, the running sum is that half's block sum. -/
theorem run_last' (f : Fin 1000000 → EReal) (n : ℕ) (h49 : n % 50 = 49) (hn : n < 100) :
    run f n = Spec.blockSum f ⟨n / 50, by omega⟩ := by
  have e : n = 50 * (n / 50) + 49 := by omega
  refine (congrArg (run f) e).trans ?_
  exact run_last f ⟨n / 50, by omega⟩

/-- The first result array as one function of its index: row 0 of half `cc` the half's block sum, rows 1–7 zero. -/
def G5 (c : Dev nD) : S2x8x128.Idx → EReal := fun i =>
  if (i 1).val = 0 then Spec.blockSum (fun e => hid V c e (i 2)) (i 0) else 0

theorem G5_at (c : Dev nD) (i : S2x8x128.Idx) (cc : Fin 2) (r : Fin 8) (j : Fin 128)
    (h0 : (i 0).val = cc.val) (h1 : (i 1).val = r.val) (h2 : (i 2).val = j.val) :
    G5 V c i = if r.val = 0 then Spec.blockSum (fun e => hid V c e j) cc else 0 := by
  obtain rfl : i = ix3 cc r j := funext fun a => Fin.ext (by
    match a with
    | ⟨0, _⟩ => exact h0
    | ⟨1, _⟩ => exact h1
    | ⟨2, _⟩ => exact h2)
  rfl

/-- What a half's last point writes back is that half's block of the function above. -/
theorem flushed5_eq (c : Dev nD) (t : Fin cfg0.N) (hf : (cfg0.win 5).flush t = true) :
    (dat0 V c).flushed 5 t = ((cfg0.win 5).blk t).view.read (Elt Ideal) (G5 V c) := by
  have h49 : t.val % 50 = 49 := (flush0_5 t).mp hf
  have hN : t.val < 100 := lt_of_lt_of_eq t.isLt (show cfg0.N = 100 from N_0)
  obtain ⟨-, -, -, -, -, ⟨e0, e1, e2⟩, -⟩ := idx_facts t
  show (cfg0.win 5).cut (grid0.coords t) ((dat0 V c).after 5 t) = _
  rw [after0_5]
  refine funext fun (y : S1x8x128.Idx) => ?_
  obtain ⟨a, r, j, rfl⟩ : ∃ (a : Fin 1) (r : Fin 8) (j : Fin 128), y = ix3 a r j := ⟨y 0, y 1, y 2, eq_ix3 y⟩
  obtain rfl : a = 0 := Fin.ext (by have := a.isLt; omega)
  rw [View.read_apply]
  refine (outs5_eq V c t.val t.isLt r j).trans ?_
  refine Eq.trans ?_ (G5_at V c _ ⟨t.val / 50, by omega⟩ r j ?_ ?_ ?_).symm
  · rw [run_last' _ t.val h49 hN]
  · show win0_5.index t (0 : Fin 3) * 1 + 1 * 0 = t.val / 50; omega
  · show win0_5.index t (1 : Fin 3) * 8 + 1 * r.val = r.val; omega
  · show win0_5.index t (2 : Fin 3) * 128 + 1 * j.val = j.val; omega

/-- An index of the first result array is in point `t`'s block iff each coordinate is in the block's range. -/
theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v25_0).slice (win0_5.rect t)).set ↔ _
  rw [View.set_slice_whole, Rect.mem_set_unit]
  exact Iff.rfl

/-- Half `cc` of the array is the block of the half's last point, `50 cc + 49`, which writes back. -/
theorem cover5 (i : S2x8x128.Idx) :
    ∃ t : Fin cfg0.N, (cfg0.win 5).flush t = true ∧ i ∈ ((cfg0.win 5).blk t).view.set := by
  have h0 : (i 0).val < 2 := (i 0).isLt
  have h1 : (i 1).val < 8 := (i 1).isLt
  have h2 : (i 2).val < 128 := (i 2).isLt
  have hlt : 50 * (i 0).val + 49 < cfg0.N := by have hN : cfg0.N = 100 := N_0; omega
  refine ⟨⟨50 * (i 0).val + 49, hlt⟩, (flush0_5 _).mpr (by show (50 * (i 0).val + 49) % 50 = 49; omega), ?_⟩
  rw [mem_blk5]
  obtain ⟨-, -, -, -, -, ⟨e0, e1, e2⟩, -⟩ := idx_facts ⟨50 * (i 0).val + 49, hlt⟩
  dsimp only at e0 e1 e2
  intro a
  match a with
  | ⟨0, _⟩ =>
    show win0_5.index _ (0 : Fin 3) * 1 ≤ (i 0).val ∧ (i 0).val < win0_5.index _ (0 : Fin 3) * 1 + 1
    rw [e0]; omega
  | ⟨1, _⟩ =>
    show win0_5.index _ (1 : Fin 3) * 8 ≤ (i 1).val ∧ (i 1).val < win0_5.index _ (1 : Fin 3) * 8 + 8
    rw [e1]; omega
  | ⟨2, _⟩ =>
    show win0_5.index _ (2 : Fin 3) * 128 ≤ (i 2).val ∧ (i 2).val < win0_5.index _ (2 : Fin 3) * 128 + 128
    rw [e2]; omega

/-- So the first result array ends as that function. -/
theorem final5 (c : Dev nD) : (dat0 (F := Ideal) V c).arrAt 5 cfg0.N = G5 V c :=
  (dat0 V c).arrAt_eq_of_cover 5 (G5 V c) (flushed5_eq V c) cover5

/-- The second result array as one function of its index: row 0 of half `cc` the half's block sum, rows 1–7 zero. -/
def G6 (c : Dev nD) : S2x8x128.Idx → EReal := fun i =>
  if (i 1).val = 0 then Spec.blockSum (fun e => hid V c e (i 2) * hid V c e (i 2)) (i 0) else 0

theorem G6_at (c : Dev nD) (i : S2x8x128.Idx) (cc : Fin 2) (r : Fin 8) (j : Fin 128)
    (h0 : (i 0).val = cc.val) (h1 : (i 1).val = r.val) (h2 : (i 2).val = j.val) :
    G6 V c i = if r.val = 0 then Spec.blockSum (fun e => hid V c e j * hid V c e j) cc else 0 := by
  obtain rfl : i = ix3 cc r j := funext fun a => Fin.ext (by
    match a with
    | ⟨0, _⟩ => exact h0
    | ⟨1, _⟩ => exact h1
    | ⟨2, _⟩ => exact h2)
  rfl

/-- What a half's last point writes back is that half's block of the function above. -/
theorem flushed6_eq (c : Dev nD) (t : Fin cfg0.N) (hf : (cfg0.win 6).flush t = true) :
    (dat0 V c).flushed 6 t = ((cfg0.win 6).blk t).view.read (Elt Ideal) (G6 V c) := by
  have h49 : t.val % 50 = 49 := (flush0_6 t).mp hf
  have hN : t.val < 100 := lt_of_lt_of_eq t.isLt (show cfg0.N = 100 from N_0)
  obtain ⟨-, -, -, -, -, -, ⟨e0, e1, e2⟩⟩ := idx_facts t
  show (cfg0.win 6).cut (grid0.coords t) ((dat0 V c).after 6 t) = _
  rw [after0_6]
  refine funext fun (y : S1x8x128.Idx) => ?_
  obtain ⟨a, r, j, rfl⟩ : ∃ (a : Fin 1) (r : Fin 8) (j : Fin 128), y = ix3 a r j := ⟨y 0, y 1, y 2, eq_ix3 y⟩
  obtain rfl : a = 0 := Fin.ext (by have := a.isLt; omega)
  rw [View.read_apply]
  refine (outs6_eq V c t.val t.isLt r j).trans ?_
  refine Eq.trans ?_ (G6_at V c _ ⟨t.val / 50, by omega⟩ r j ?_ ?_ ?_).symm
  · rw [run_last' _ t.val h49 hN]
  · show win0_6.index t (0 : Fin 3) * 1 + 1 * 0 = t.val / 50; omega
  · show win0_6.index t (1 : Fin 3) * 8 + 1 * r.val = r.val; omega
  · show win0_6.index t (2 : Fin 3) * 128 + 1 * j.val = j.val; omega

/-- An index of the second result array is in point `t`'s block iff each coordinate is in the block's range. -/
theorem mem_blk6 (t : Fin cfg0.N) (i : S2x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v25_1).slice (win0_6.rect t)).set ↔ _
  rw [View.set_slice_whole, Rect.mem_set_unit]
  exact Iff.rfl

/-- Half `cc` of the array is the block of the half's last point, `50 cc + 49`, which writes back. -/
theorem cover6 (i : S2x8x128.Idx) :
    ∃ t : Fin cfg0.N, (cfg0.win 6).flush t = true ∧ i ∈ ((cfg0.win 6).blk t).view.set := by
  have h0 : (i 0).val < 2 := (i 0).isLt
  have h1 : (i 1).val < 8 := (i 1).isLt
  have h2 : (i 2).val < 128 := (i 2).isLt
  have hlt : 50 * (i 0).val + 49 < cfg0.N := by have hN : cfg0.N = 100 := N_0; omega
  refine ⟨⟨50 * (i 0).val + 49, hlt⟩, (flush0_6 _).mpr (by show (50 * (i 0).val + 49) % 50 = 49; omega), ?_⟩
  rw [mem_blk6]
  obtain ⟨-, -, -, -, -, -, ⟨e0, e1, e2⟩⟩ := idx_facts ⟨50 * (i 0).val + 49, hlt⟩
  dsimp only at e0 e1 e2
  intro a
  match a with
  | ⟨0, _⟩ =>
    show win0_6.index _ (0 : Fin 3) * 1 ≤ (i 0).val ∧ (i 0).val < win0_6.index _ (0 : Fin 3) * 1 + 1
    rw [e0]; omega
  | ⟨1, _⟩ =>
    show win0_6.index _ (1 : Fin 3) * 8 ≤ (i 1).val ∧ (i 1).val < win0_6.index _ (1 : Fin 3) * 8 + 8
    rw [e1]; omega
  | ⟨2, _⟩ =>
    show win0_6.index _ (2 : Fin 3) * 128 ≤ (i 2).val ∧ (i 2).val < win0_6.index _ (2 : Fin 3) * 128 + 128
    rw [e2]; omega

/-- So the second result array ends as that function. -/
theorem final6 (c : Dev nD) : (dat0 (F := Ideal) V c).arrAt 6 cfg0.N = G6 V c :=
  (dat0 V c).arrAt_eq_of_cover 6 (G6 V c) (flushed6_eq V c) cover6

end WriteBack

/-- Row 0 of half `cc` of the first result array: the half's sum of the hidden layer's column `j`. -/
theorem sum (c : Dev nD) (cc : Fin 2) (j : Fin 128) :
    ((dat0 (F := Ideal) V c).arrAt 5 cfg0.N : S2x8x128.Idx → EReal) (ix3 cc (0 : Fin 8) j)
      = Spec.blockSum (fun e => hid V c e j) cc := by
  rw [final5]
  exact if_pos rfl

/-- Row 0 of half `cc` of the second result array: the half's sum of the squared column. -/
theorem sumsq (c : Dev nD) (cc : Fin 2) (j : Fin 128) :
    ((dat0 (F := Ideal) V c).arrAt 6 cfg0.N : S2x8x128.Idx → EReal) (ix3 cc (0 : Fin 8) j)
      = Spec.blockSum (fun e => hid V c e j * hid V c e j) cc := by
  rw [final6]
  exact if_pos rfl

end Cert.KernelIdeal.R0

end
-- ==== Proof.KRegion1.lean ====
/-
  The second kernel's result array. Each of its 100 grid points stages 10,000 edges: their 128 gathered
  features, their 4 attributes, and whole the two weight blocks, the bias row, the projection row and the
  projection bias; the body stores, for every staged edge, the projection of the rectified layer. The blocks
  tile the result array, so it ends holding that value at every edge.
-/
import proofs.«416790_j18339510354271_3_alg».proof.Proof.Gen.KernelIdeal.Frame
import proofs.«416790_j18339510354271_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.R1

open Cert.KernelIdeal Cert.KernelIdeal.Gen

variable (V : (c : Dev nD) → (b : Ref sig .tc) → Buf (Elt Ideal) ((c : Thread nD τ).loc b))

/-! ## The two products read at a row and a column

Both products contract the left operand's columns with the right operand's rows: at output index `(r, j)` and
contraction coordinate `k` the left operand is read at `(r, k)` and the right one at `(k, j)`. The four
coordinate facts of each product come first, then the product as a sum over `k`. -/

theorem lhsAB_0 (j : S10000x128.Idx) (k : dot_S10000x128_S128x128_S10000x128_1_0_0_1_n_n.contr.Idx) :
    (dot_S10000x128_S128x128_S10000x128_1_0_0_1_n_n.lhsIdx j k 0).val = (j 0).val := by
  unfold DotDims.lhsIdx
  rw [dif_neg (show ¬ (0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhsAB_1 (j : S10000x128.Idx) (k : dot_S10000x128_S128x128_S10000x128_1_0_0_1_n_n.contr.Idx) :
    (dot_S10000x128_S128x128_S10000x128_1_0_0_1_n_n.lhsIdx j k 1).val = (k ⟨0, by decide⟩).val :=
  DotDims.lhsIdx_val_of_single _ rfl j k

theorem rhsAB_0 (j : S10000x128.Idx) (k : dot_S10000x128_S128x128_S10000x128_1_0_0_1_n_n.contr.Idx) :
    (dot_S10000x128_S128x128_S10000x128_1_0_0_1_n_n.rhsIdx j k 0).val = (k ⟨0, by decide⟩).val :=
  DotDims.rhsIdx_val_of_single _ rfl j k

theorem rhsAB_1 (j : S10000x128.Idx) (k : dot_S10000x128_S128x128_S10000x128_1_0_0_1_n_n.contr.Idx) :
    (dot_S10000x128_S128x128_S10000x128_1_0_0_1_n_n.rhsIdx j k 1).val = (j 1).val := by
  unfold DotDims.rhsIdx
  rw [dif_neg (show ¬ (1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The first product at a row and column: the sum over the 128 gathered features. -/
theorem mmAB_apply (a : FVec Ideal S10000x128 .bf16) (b : FVec Ideal S128x128 .bf16) (r : Fin 10000) (j : Fin 128) :
    matmul dot_S10000x128_S128x128_S10000x128_1_0_0_1_n_n none a b (constant (F := Ideal) S10000x128 .f32 0x00000000#32) (ix2 r j)
      = ∑ k : Fin 128, a (ix2 r k) * b (ix2 k j) := by
  show FloatOps.matmul _ none a b _ (ix2 r j) = _
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have hl : dot_S10000x128_S128x128_S10000x128_1_0_0_1_n_n.lhsIdx (ix2 r j) ((contrEquiv1 _ 128 rfl rfl).symm k) = ix2 r k := by
    funext ax; apply Fin.ext
    match ax with
    | ⟨0, _⟩ => exact lhsAB_0 _ _
    | ⟨1, _⟩ => exact (lhsAB_1 _ _).trans hk
  have hr : dot_S10000x128_S128x128_S10000x128_1_0_0_1_n_n.rhsIdx (ix2 r j) ((contrEquiv1 _ 128 rfl rfl).symm k) = ix2 k j := by
    funext ax; apply Fin.ext
    match ax with
    | ⟨0, _⟩ => exact (rhsAB_0 _ _).trans hk
    | ⟨1, _⟩ => exact rhsAB_1 _ _
  rw [hl, hr]

theorem lhsC_0 (j : S10000x128.Idx) (k : dot_S10000x4_S4x128_S10000x128_1_0_0_1_n_n.contr.Idx) :
    (dot_S10000x4_S4x128_S10000x128_1_0_0_1_n_n.lhsIdx j k 0).val = (j 0).val := by
  unfold DotDims.lhsIdx
  rw [dif_neg (show ¬ (0 : Fin S10000x4.rank) ∈ dot_S10000x4_S4x128_S10000x128_1_0_0_1_n_n.lhsBatch by decide),
    dif_pos (show (0 : Fin S10000x4.rank) ∈ dot_S10000x4_S4x128_S10000x128_1_0_0_1_n_n.lhsNonContracting by decide)]
  rfl

theorem lhsC_1 (j : S10000x128.Idx) (k : dot_S10000x4_S4x128_S10000x128_1_0_0_1_n_n.contr.Idx) :
    (dot_S10000x4_S4x128_S10000x128_1_0_0_1_n_n.lhsIdx j k 1).val = (k ⟨0, by decide⟩).val :=
  DotDims.lhsIdx_val_of_single _ rfl j k

theorem rhsC_0 (j : S10000x128.Idx) (k : dot_S10000x4_S4x128_S10000x128_1_0_0_1_n_n.contr.Idx) :
    (dot_S10000x4_S4x128_S10000x128_1_0_0_1_n_n.rhsIdx j k 0).val = (k ⟨0, by decide⟩).val :=
  DotDims.rhsIdx_val_of_single _ rfl j k

theorem rhsC_1 (j : S10000x128.Idx) (k : dot_S10000x4_S4x128_S10000x128_1_0_0_1_n_n.contr.Idx) :
    (dot_S10000x4_S4x128_S10000x128_1_0_0_1_n_n.rhsIdx j k 1).val = (j 1).val := by
  unfold DotDims.rhsIdx
  rw [dif_neg (show ¬ (1 : Fin S4x128.rank) ∈ dot_S10000x4_S4x128_S10000x128_1_0_0_1_n_n.rhsBatch by decide),
    dif_pos (show (1 : Fin S4x128.rank) ∈ dot_S10000x4_S4x128_S10000x128_1_0_0_1_n_n.rhsNonContracting by decide)]
  rfl

/-- The second product at a row and column: the sum over the 4 attributes. -/
theorem mmC_apply (a : FVec Ideal S10000x4 .bf16) (b : FVec Ideal S4x128 .bf16) (r : Fin 10000) (j : Fin 128) :
    matmul dot_S10000x4_S4x128_S10000x128_1_0_0_1_n_n none a b (constant (F := Ideal) S10000x128 .f32 0x00000000#32) (ix2 r j)
      = ∑ k : Fin 4, a (ix2 r k) * b (ix2 k j) := by
  show FloatOps.matmul _ none a b _ (ix2 r j) = _
  rw [Ideal.matmul_constant_zero_apply,
    ← Equiv.sum_comp (contrEquiv1 dot_S10000x4_S4x128_S10000x128_1_0_0_1_n_n 4 rfl rfl).symm]
  refine Finset.sum_congr rfl fun k _ => ?_
  have hk := contrEquiv1_symm_val dot_S10000x4_S4x128_S10000x128_1_0_0_1_n_n 4 rfl rfl k
  have hl : dot_S10000x4_S4x128_S10000x128_1_0_0_1_n_n.lhsIdx (ix2 r j) ((contrEquiv1 _ 4 rfl rfl).symm k) = ix2 r k := by
    funext ax; apply Fin.ext
    match ax with
    | ⟨0, _⟩ => exact lhsC_0 _ _
    | ⟨1, _⟩ => exact (lhsC_1 _ _).trans hk
  have hr : dot_S10000x4_S4x128_S10000x128_1_0_0_1_n_n.rhsIdx (ix2 r j) ((contrEquiv1 _ 4 rfl rfl).symm k) = ix2 k j := by
    funext ax; apply Fin.ext
    match ax with
    | ⟨0, _⟩ => exact (rhsC_0 _ _).trans hk
    | ⟨1, _⟩ => exact rhsC_1 _ _
  rw [hl, hr]

/-! ## The column view, the lane sum, and the stored value at a staged edge -/

/-- A 10000-vector viewed as a column reads its row. -/
theorem col_apply (x : FVec Ideal S10000 .f32) (r : Fin 10000) (u : Fin 1) :
    shapeCast S10000x1 x shapeCasts_S10000_S10000x1 (ix2 r u) = x (ix1 r) :=
  shapeCast_apply x _ _ _ (by
    have hu : u.val = 0 := by omega
    rw [Shape.rowMajor_val_one, Shape.rowMajor_val_two]
    show r.val = r.val * 1 + u.val
    omega)

/-- The lane sum of a row is the sum over its 128 columns. -/
theorem lane_apply (x : FVec Ideal S10000x128 .f32) (hφ : FKind.Formats .f32)
    (hacc : (0x00000000#32 : BitVec 32) = FKind.add.neutral .f32 hφ) (r : Fin 10000) :
    multiReduction (F := Ideal) .add [1] S10000 x 0x00000000#32 reduces_S10000x128_S10000 hφ hacc (ix1 r)
      = ∑ j : Fin 128, x (ix2 r j) :=
  (Ideal.multiReduction_add_single x _ _ hφ hacc (ix1 r)).trans
    (Finset.sum_congr rfl fun j _ => congrArg x (funext fun a => match a with | ⟨0, _⟩ => rfl | ⟨1, _⟩ => rfl))

/-- The body's stored value at a staged edge: the projection of the rectified layer of the edge's row. -/
theorem pay_apply (x0 : Vec Ideal S10000x128 .bf16) (x1 : Vec Ideal S10000x4 .bf16) (x2 : Vec Ideal S128x128 .bf16)
    (x3 : Vec Ideal S4x128 .bf16) (x4 : Vec Ideal S1x128 .f32) (x5 : Vec Ideal S1x128 .f32) (x6 : Vec Ideal S1x1 .f32)
    (r : Fin 10000) (u : Fin 1) :
    k1_pay1 (F := Ideal) x0 x1 x2 x3 x4 x5 x6 (ix2 r u)
      = Spec.finalOut (fun k => x0 (ix2 r k)) (fun k => x1 (ix2 r k)) (fun k j => x2 (ix2 k j)) (fun k j => x3 (ix2 k j))
          (fun j => x4 (ix2 (0 : Fin 1) j)) (fun j => x5 (ix2 (0 : Fin 1) j)) (x6 (ix2 (0 : Fin 1) (0 : Fin 1))) := by
  obtain rfl : u = 0 := Subsingleton.elim _ _
  unfold k1_pay1
  simp only [shapeCast_self]
  rw [addf_apply, col_apply, broadcastTo_1b_ab_apply]
  refine (congrArg (· + _) (lane_apply _ _ _ r)).trans ?_
  unfold Spec.finalOut
  refine congrArg (· + _) (Finset.sum_congr rfl fun j _ => ?_)
  rw [mulf_apply, broadcastTo_1b_ab_apply, select_apply, cmpf_apply, mulf_apply, broadcast_apply, broadcast_apply,
    addf_apply, addf_apply, mmAB_apply, mmC_apply, broadcastTo_1b_ab_apply]
  show Scalar.select (Ideal.cmp .oge _ (Ideal.ofBits .f32 0x00000000#32)) _ (Ideal.ofBits .f32 0x3E4CCCCD#32 * _) * _ = _
  rw [Ideal.ofBits_zero_f32]
  rfl

/-! ## The windows' blocks as rows of their arrays -/

/-- The printed index maps, decided over the grid: the two edge windows and the result window move with the point
    along the rows, the other windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0's block at point `t` is rows `10000 t … 10000 t + 9999` of its array. -/
theorem blk0_apply (c : Dev nD) (t : Fin cfg1.N) (r : Fin 10000) (k : Fin 128) (e : Fin 1000000)
    (he : e.val = t.val * 10000 + r.val) :
    (iblk1 V c 0 t : Vec Ideal S10000x128 .bf16) (ix2 r k) = (V c main_v18 : S1000000x128.Idx → EReal) (ix2 e k) := by
  have hi : win1_0.index t (0 : Fin 2) = t.val ∧ win1_0.index t (1 : Fin 2) = 0 := by
    have h := idx_facts t
    exact ⟨h.1, h.2.1⟩
  unfold iblk1
  rw [View.read_apply]
  show V c main_v18 _ = V c main_v18 _
  congr 1
  funext a
  apply Fin.ext
  match a with
  | ⟨0, _⟩ => show win1_0.index t (0 : Fin 2) * 10000 + 1 * r.val = e.val; rw [hi.1, he]; omega
  | ⟨1, _⟩ => show win1_0.index t (1 : Fin 2) * 128 + 1 * k.val = k.val; rw [hi.2]; omega

/-- Window 1's block at point `t` is rows `10000 t … 10000 t + 9999` of its array. -/
theorem blk1_apply (c : Dev nD) (t : Fin cfg1.N) (r : Fin 10000) (k : Fin 4) (e : Fin 1000000)
    (he : e.val = t.val * 10000 + r.val) :
    (iblk1 V c 1 t : Vec Ideal S10000x4 .bf16) (ix2 r k) = (V c main_v19 : S1000000x4.Idx → EReal) (ix2 e k) := by
  have hi : win1_1.index t (0 : Fin 2) = t.val ∧ win1_1.index t (1 : Fin 2) = 0 := by
    have h := idx_facts t
    exact ⟨h.2.2.1, h.2.2.2.1⟩
  unfold iblk1
  rw [View.read_apply]
  show V c main_v19 _ = V c main_v19 _
  congr 1
  funext a
  apply Fin.ext
  match a with
  | ⟨0, _⟩ => show win1_1.index t (0 : Fin 2) * 10000 + 1 * r.val = e.val; rw [hi.1, he]; omega
  | ⟨1, _⟩ => show win1_1.index t (1 : Fin 2) * 4 + 1 * k.val = k.val; rw [hi.2]; omega

/-- Window 2's block at every point is its whole array. -/
theorem blk2_apply (c : Dev nD) (t : Fin cfg1.N) (r : Fin 128) (k : Fin 128) :
    (iblk1 V c 2 t : Vec Ideal S128x128 .bf16) (ix2 r k) = (V c main_v51 : S128x128.Idx → EReal) (ix2 r k) := by
  have hi : win1_2.index t (0 : Fin 2) = 0 ∧ win1_2.index t (1 : Fin 2) = 0 := by
    have h := idx_facts t
    exact ⟨h.2.2.2.2.1, h.2.2.2.2.2.1⟩
  unfold iblk1
  rw [View.read_apply]
  show V c main_v51 _ = V c main_v51 _
  congr 1
  funext a
  apply Fin.ext
  match a with
  | ⟨0, _⟩ => show win1_2.index t (0 : Fin 2) * 128 + 1 * r.val = r.val; rw [hi.1]; omega
  | ⟨1, _⟩ => show win1_2.index t (1 : Fin 2) * 128 + 1 * k.val = k.val; rw [hi.2]; omega

/-- Window 3's block at every point is its whole array. -/
theorem blk3_apply (c : Dev nD) (t : Fin cfg1.N) (r : Fin 4) (k : Fin 128) :
    (iblk1 V c 3 t : Vec Ideal S4x128 .bf16) (ix2 r k) = (V c main_v54 : S4x128.Idx → EReal) (ix2 r k) := by
  have hi : win1_3.index t (0 : Fin 2) = 0 ∧ win1_3.index t (1 : Fin 2) = 0 := by
    have h := idx_facts t
    exact ⟨h.2.2.2.2.2.2.1, h.2.2.2.2.2.2.2.1⟩
  unfold iblk1
  rw [View.read_apply]
  show V c main_v54 _ = V c main_v54 _
  congr 1
  funext a
  apply Fin.ext
  match a with
  | ⟨0, _⟩ => show win1_3.index t (0 : Fin 2) * 4 + 1 * r.val = r.val; rw [hi.1]; omega
  | ⟨1, _⟩ => show win1_3.index t (1 : Fin 2) * 128 + 1 * k.val = k.val; rw [hi.2]; omega

/-- Window 4's block at every point is its whole array. -/
theorem blk4_apply (c : Dev nD) (t : Fin cfg1.N) (r : Fin 1) (k : Fin 128) :
    (iblk1 V c 4 t : Vec Ideal S1x128 .f32) (ix2 r k) = (V c main_v58 : S1x128.Idx → EReal) (ix2 r k) := by
  have hi : win1_4.index t (0 : Fin 2) = 0 ∧ win1_4.index t (1 : Fin 2) = 0 := by
    have h := idx_facts t
    exact ⟨h.2.2.2.2.2.2.2.2.1, h.2.2.2.2.2.2.2.2.2.1⟩
  unfold iblk1
  rw [View.read_apply]
  show V c main_v58 _ = V c main_v58 _
  congr 1
  funext a
  apply Fin.ext
  match a with
  | ⟨0, _⟩ => show win1_4.index t (0 : Fin 2) * 1 + 1 * r.val = r.val; rw [hi.1]; omega
  | ⟨1, _⟩ => show win1_4.index t (1 : Fin 2) * 128 + 1 * k.val = k.val; rw [hi.2]; omega

/-- Window 5's block at every point is its whole array. -/
theorem blk5_apply (c : Dev nD) (t : Fin cfg1.N) (r : Fin 1) (k : Fin 128) :
    (iblk1 V c 5 t : Vec Ideal S1x128 .f32) (ix2 r k) = (V c main_v59 : S1x128.Idx → EReal) (ix2 r k) := by
  have hi : win1_5.index t (0 : Fin 2) = 0 ∧ win1_5.index t (1 : Fin 2) = 0 := by
    have h := idx_facts t
    exact ⟨h.2.2.2.2.2.2.2.2.2.2.1, h.2.2.2.2.2.2.2.2.2.2.2.1⟩
  unfold iblk1
  rw [View.read_apply]
  show V c main_v59 _ = V c main_v59 _
  congr 1
  funext a
  apply Fin.ext
  match a with
  | ⟨0, _⟩ => show win1_5.index t (0 : Fin 2) * 1 + 1 * r.val = r.val; rw [hi.1]; omega
  | ⟨1, _⟩ => show win1_5.index t (1 : Fin 2) * 128 + 1 * k.val = k.val; rw [hi.2]; omega

/-- Window 6's block at every point is its whole array. -/
theorem blk6_apply (c : Dev nD) (t : Fin cfg1.N) (r : Fin 1) (k : Fin 1) :
    (iblk1 V c 6 t : Vec Ideal S1x1 .f32) (ix2 r k) = (V c main_v60 : S1x1.Idx → EReal) (ix2 r k) := by
  have hi : win1_6.index t (0 : Fin 2) = 0 ∧ win1_6.index t (1 : Fin 2) = 0 := by
    have h := idx_facts t
    exact ⟨h.2.2.2.2.2.2.2.2.2.2.2.2.1, h.2.2.2.2.2.2.2.2.2.2.2.2.2.1⟩
  unfold iblk1
  rw [View.read_apply]
  show V c main_v60 _ = V c main_v60 _
  congr 1
  funext a
  apply Fin.ext
  match a with
  | ⟨0, _⟩ => show win1_6.index t (0 : Fin 2) * 1 + 1 * r.val = r.val; rw [hi.1]; omega
  | ⟨1, _⟩ => show win1_6.index t (1 : Fin 2) * 1 + 1 * k.val = k.val; rw [hi.2]; omega

/-! ## From the blocks to the array -/

theorem hz : (![0, 0] : Fin 2 → Nat) = fun _ => 0 := funext fun a => by fin_cases a <;> rfl

/-- Edge `e`'s value: its projected, rectified layer through the staged arrays. -/
def resAt (c : Dev nD) (e : Fin 1000000) : EReal :=
  Spec.finalOut
    (fun k => (V c main_v18 : S1000000x128.Idx → EReal) (ix2 e k))
    (fun k => (V c main_v19 : S1000000x4.Idx → EReal) (ix2 e k))
    (fun k j => (V c main_v51 : S128x128.Idx → EReal) (ix2 k j))
    (fun k j => (V c main_v54 : S4x128.Idx → EReal) (ix2 k j))
    (fun j => (V c main_v58 : S1x128.Idx → EReal) (ix2 (0 : Fin 1) j))
    (fun j => (V c main_v59 : S1x128.Idx → EReal) (ix2 (0 : Fin 1) j))
    ((V c main_v60 : S1x1.Idx → EReal) (ix2 (0 : Fin 1) (0 : Fin 1)))

/-- The result column of those values. -/
def resArr (c : Dev nD) : S1000000x1.Idx → EReal := Spec.outArr (resAt V c)

/-- The edge's value depends on its seven arguments only. -/
theorem finalOut_congr {a1 b1 : Fin 128 → EReal} {a2 b2 : Fin 4 → EReal} {a3 b3 : Fin 128 → Fin 128 → EReal}
    {a4 b4 : Fin 4 → Fin 128 → EReal} {a5 b5 a6 b6 : Fin 128 → EReal} {a7 b7 : EReal}
    (h1 : a1 = b1) (h2 : a2 = b2) (h3 : a3 = b3) (h4 : a4 = b4) (h5 : a5 = b5) (h6 : a6 = b6) (h7 : a7 = b7) :
    Spec.finalOut a1 a2 a3 a4 a5 a6 a7 = Spec.finalOut b1 b2 b3 b4 b5 b6 b7 := by
  rw [h1, h2, h3, h4, h5, h6, h7]

/-- At point `t` the body's stored value at row `y` of the block is edge `10000 t + y`'s value. -/
theorem point_eq (c : Dev nD) (t : Fin cfg1.N) (y : S10000x1.Idx) (e : Fin 1000000) (he : e.val = t.val * 10000 + (y 0).val) :
    k1_pay1 (F := Ideal) (iblk1 V c 0 t) (iblk1 V c 1 t) (iblk1 V c 2 t) (iblk1 V c 3 t) (iblk1 V c 4 t) (iblk1 V c 5 t)
      (iblk1 V c 6 t) y = resAt V c e := by
  obtain ⟨r, u, rfl⟩ : ∃ (r : Fin 10000) (u : Fin 1), y = ix2 r u := ⟨y 0, y 1, eq_ix2 y⟩
  refine (pay_apply _ _ _ _ _ _ _ r u).trans ?_
  unfold resAt
  exact finalOut_congr (funext fun k => blk0_apply V c t r k e he) (funext fun k => blk1_apply V c t r k e he)
    (funext fun k => funext fun j => blk2_apply V c t k j) (funext fun k => funext fun j => blk3_apply V c t k j)
    (funext fun j => blk4_apply V c t 0 j) (funext fun j => blk5_apply V c t 0 j) (blk6_apply V c t 0 0)

/-- What point `t` writes back is block `t` of the result column. -/
theorem flushed_eq (c : Dev nD) (t : Fin cfg1.N) :
    (dat1 V c).flushed 7 t = ((cfg1.win 7).blk t).view.read (Elt Ideal) (resArr V c) := by
  show (cfg1.win 7).cut (grid1.coords t) ((dat1 V c).after 7 t) = _
  rw [after1_7]
  unfold out1_7
  rw [View.canon_unit_zero hz]
  simp only [View.ld_unit_zero (S := S10000x128) hz, View.ld_unit_zero (S := S10000x4) hz, View.ld_unit_zero (S := S128x128) hz,
    View.ld_unit_zero (S := S4x128) hz, View.ld_unit_zero (S := S1x128) hz, View.ld_unit_zero (S := S1x1) hz]
  funext y
  have hi : win1_7.index t (0 : Fin 2) = t.val := (idx_facts t).2.2.2.2.2.2.2.2.2.2.2.2.2.2.1
  have ht : t.val < 100 := by have := t.isLt; have hN : cfg1.N = 100 := N_1; omega
  have hy : (y 0).val < 10000 := (y 0).isLt
  refine (point_eq V c t y ⟨t.val * 10000 + (y 0).val, by omega⟩ rfl).trans ?_
  rw [View.read_apply]
  refine congrArg (resAt V c) (Fin.ext ?_)
  show t.val * 10000 + (y 0).val = win1_7.index t (0 : Fin 2) * 10000 + 1 * (y 0).val
  rw [hi]; omega

/-- An index of the result array is in point `t`'s block iff each coordinate is in the block's range on its axis. -/
theorem mem_blk (t : Fin cfg1.N) (i : S1000000x1.Idx) :
    i ∈ ((cfg1.win 7).blk t).view.set ↔ ∀ a : Fin 2, win1_7.index t a * S10000x1.size a ≤ (i a).val ∧ (i a).val < win1_7.index t a * S10000x1.size a + S10000x1.size a := by
  show i ∈ ((View.whole main_v61).slice (win1_7.rect t)).set ↔ _
  rw [View.set_slice_whole, Rect.mem_set_unit]
  exact Iff.rfl

/-- Every edge is in the block of the point that is its number divided by 10000. -/
theorem cover (i : S1000000x1.Idx) :
    ∃ t : Fin cfg1.N, (cfg1.win 7).flush t = true ∧ i ∈ ((cfg1.win 7).blk t).view.set := by
  have h0 : (i 0).val < 1000000 := idx2_lt0 i
  have h1 : (i 1).val < 1 := idx2_lt1 i
  have hlt : (i 0).val / 10000 < cfg1.N := by have hN : cfg1.N = 100 := N_1; omega
  refine ⟨⟨(i 0).val / 10000, hlt⟩, flush1_7 _, ?_⟩
  rw [mem_blk]
  have hf := idx_facts ⟨(i 0).val / 10000, hlt⟩
  have q0 : win1_7.index ⟨(i 0).val / 10000, hlt⟩ (0 : Fin 2) = (i 0).val / 10000 :=
    hf.2.2.2.2.2.2.2.2.2.2.2.2.2.2.1
  have q1 : win1_7.index ⟨(i 0).val / 10000, hlt⟩ (1 : Fin 2) = 0 :=
    hf.2.2.2.2.2.2.2.2.2.2.2.2.2.2.2
  intro a
  match a with
  | ⟨0, _⟩ =>
    show win1_7.index _ (0 : Fin 2) * 10000 ≤ (i 0).val ∧ (i 0).val < win1_7.index _ (0 : Fin 2) * 10000 + 10000
    rw [q0]; omega
  | ⟨1, _⟩ =>
    show win1_7.index _ (1 : Fin 2) * 1 ≤ (i 1).val ∧ (i 1).val < win1_7.index _ (1 : Fin 2) * 1 + 1
    rw [q1]; omega

/-- The result array after the second region, entered at contents `V`: edge `e`'s entry is the projected,
    rectified layer of the edge's staged features through the staged weights. -/
theorem value (c : Dev nD) :
    ((dat1 (F := Ideal) V c).arrAt 7 cfg1.N : S1000000x1.Idx → EReal)
      = Spec.outArr (fun e => Spec.finalOut
          (fun k => (V c main_v18 : S1000000x128.Idx → EReal) (ix2 e k))
          (fun k => (V c main_v19 : S1000000x4.Idx → EReal) (ix2 e k))
          (fun k j => (V c main_v51 : S128x128.Idx → EReal) (ix2 k j))
          (fun k j => (V c main_v54 : S4x128.Idx → EReal) (ix2 k j))
          (fun j => (V c main_v58 : S1x128.Idx → EReal) (ix2 (0 : Fin 1) j))
          (fun j => (V c main_v59 : S1x128.Idx → EReal) (ix2 (0 : Fin 1) j))
          ((V c main_v60 : S1x1.Idx → EReal) (ix2 (0 : Fin 1) (0 : Fin 1)))) :=
  (dat1 V c).arrAt_eq_of_cover 7 (resArr V c) (fun t _ => flushed_eq V c t) cover

end Cert.KernelIdeal.R1

end
-- ==== Proof.LibGatherRows.lean ====
/-
  `stablehlo.gather` of whole ROWS of a rank-2 table, read at an index.

  What `table[idx, :]` of a table `[N, D]` at an integer array `idx : [R, C]` lowers to: a gather with offset_dims
  `[2]`, collapsed_slice_dims `[0]`, start_index_map `[0]`, slice_sizes `[1, D]` and index_vector_dim 2 over the
  indices as `[R, C, 1]`. Result element `(t, j, e)` is the table's entry in column `e` of the row whose number is
  the start index `idx[t, j, 0]` read as a signed integer and clamped into `[0, N − 1]` (StableHLO clamps every start
  index so that the slice fits). The rank-1 case (a flat table) is the library's `gather_take_apply`; this is the same
  argument with one more operand axis, the kept one, which the result's last coordinate addresses.
-/
import Idealize.ShloMosaic.PureOps
import Idealize.ShloMosaic.Lib.ValueIdx

noncomputable section

namespace Idealize.ShloMosaic.GatherRows

open Idealize.ShloMosaic Idealize.ShloMosaic.ValueIdx

variable {α : Type}

/-- Those dimension numbers for a table `[N, D]`, start indices `[R, C, 1]` and result `[R, C, D]`; their conditions
    are decided on a program's literal shapes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The start-indices index `[t, j, 0]` of result index `(t, j, e)`. -/
abbrev rowIdx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

section Axes

variable {N D R C w : Nat}
  (wf : GatherDims.WF ⟨2, ![N, D]⟩ ⟨3, ![R, C, 1]⟩ ⟨3, ![R, C, D]⟩ [2] [0] [] [0] [] 2 ![1, D])
  (idx : IVec ⟨3, ![R, C, 1]⟩ w) (y : (⟨3, ![R, C, D]⟩ : Shape).Idx)

theorem zero_mem_map : (0 : Fin 2) ∈ (rowDims N D R C wf).startIndexMap := List.mem_singleton.mpr rfl
theorem one_not_mem_map : (1 : Fin 2) ∉ (rowDims N D R C wf).startIndexMap := by
  show (1 : Fin 2) ∉ ([0] : List (Fin 2)); decide
theorem zero_not_kept : (0 : Fin 2) ∉ (rowDims N D R C wf).sKept :=
  fun h => ((GatherDims.mem_sKept _ _).mp h).1 (List.mem_singleton.mpr rfl)
theorem one_kept : (1 : Fin 2) ∈ (rowDims N D R C wf).sKept :=
  (GatherDims.mem_sKept _ _).mpr ⟨by show (1 : Fin 2) ∉ ([0] : List (Fin 2)); decide, List.not_mem_nil⟩

/-- On the row axis the slice starts at the start index, read signed and clamped so that one row fits. -/
theorem start_axis0 : (rowDims N D R C wf).start y idx (0 : Fin 2) = min (idx (rowIdx y)).toInt.toNat (N - 1) := by
  unfold GatherDims.start
  rw [dif_pos (zero_mem_map wf)]
  have hsi : (rowDims N D R C wf).siIdx y ⟨List.idxOf (0 : Fin 2) (rowDims N D R C wf).startIndexMap,
      List.idxOf_lt_length_iff.2 (zero_mem_map wf)⟩ = rowIdx y := by
    funext b; refine Fin.ext ?_
    match b with
    | ⟨0, _⟩ => rfl
    | ⟨1, _⟩ => rfl
    | ⟨2, _⟩ => rfl
  rw [hsi]
  rfl

/-- On the column axis the slice starts at 0: the start index names no column. -/
theorem start_axis1 : (rowDims N D R C wf).start y idx (1 : Fin 2) = 0 := by
  unfold GatherDims.start
  rw [dif_neg (one_not_mem_map wf)]

/-- The row axis is collapsed: no offset on it. -/
theorem off_axis0 : (rowDims N D R C wf).offCoord y (0 : Fin 2) = 0 :=
  GatherDims.offCoord_eq_zero _ _ _ (zero_not_kept wf)

/-- The column axis is the kept one: its offset is the result's last coordinate. -/
theorem off_axis1 : (rowDims N D R C wf).offCoord y (1 : Fin 2) = (y 2).val := by
  unfold GatherDims.offCoord
  rw [dif_pos (one_kept wf)]
  rfl

end Axes

/-- THE GATHER READ AT `(t, j, e)`: the table at the row `idx[t, j, 0]`, read signed and clamped into `[0, N − 1]`,
    and column `e`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowDims N D R C wf) x idx y
      = x (ix2 ⟨min (idx (rowIdx y)).toInt.toNat (N - 1), by omega⟩ ⟨(y 2).val, idx3_lt2 y⟩) := by
  unfold Host.gather
  congr 1
  funext a
  refine Fin.ext ?_
  match a with
  | ⟨0, _⟩ =>
    show (rowDims N D R C wf).start y idx (0 : Fin 2) + (rowDims N D R C wf).batchCoord y (0 : Fin 2)
      + (rowDims N D R C wf).offCoord y (0 : Fin 2) = min (idx (rowIdx y)).toInt.toNat (N - 1)
    rw [start_axis0, GatherDims.batchCoord_eq_zero _ _ _ List.not_mem_nil, off_axis0, Nat.add_zero]
  | ⟨1, _⟩ =>
    show (rowDims N D R C wf).start y idx (1 : Fin 2) + (rowDims N D R C wf).batchCoord y (1 : Fin 2)
      + (rowDims N D R C wf).offCoord y (1 : Fin 2) = (y 2).val
    rw [start_axis1, GatherDims.batchCoord_eq_zero _ _ _ List.not_mem_nil, off_axis1, Nat.add_zero, Nat.zero_add]

end Idealize.ShloMosaic.GatherRows

end
-- ==== Proof.KHost.lean ====
/-
  The host stretches before the first region of the kernel program, read at an index: what the first region is
  entered with (the gathered features, the attributes, the two weight blocks, the bias row), each as a function
  of the argument arrays. The two row numbers of an edge are computed by eleven stretches of host operations; each
  stretch is read at an index on its own, over an arbitrary valuation before it, and the readings are then composed
  along the chain. Also named here: the two halves' column sums and sums of squares as the first region leaves them.
-/
import proofs.«416790_j18339510354271_3_alg».proof.Proof.Gen.KernelIdeal.Frame
import proofs.«416790_j18339510354271_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«416790_j18339510354271_3_alg».proof.Proof.LibGatherRows

noncomputable section

open scoped BigOperators
open Idealize.ShloMosaic Idealize.ShloMosaic.TcCoe Idealize.SL.Sem Idealize.ShloMosaic.ValueIdx
open Idealize.ShloMosaic.Pipeline (Dat)

namespace Cert.KernelIdeal.KHost

open Cert.KernelIdeal Cert.KernelIdeal.Gen

variable (m : (ℓ : Loc nD τ sig) → Buf (Elt Ideal) ℓ) (ρ : Dev nD → PrngReg)

/-! ## The argument arrays, each at its literal type -/

abbrev aZ (c : Dev nD) : Spec.SZ.Idx → EReal := m ((c : Thread nD τ).loc main_arg0)
abbrev aEA (c : Dev nD) : Spec.SEA.Idx → EReal := m ((c : Thread nD τ).loc main_arg1)
abbrev aW1 (c : Dev nD) : Spec.SW1.Idx → EReal := m ((c : Thread nD τ).loc main_arg2)
abbrev aB1 (c : Dev nD) : Spec.SV.Idx → EReal := m ((c : Thread nD τ).loc main_arg3)
abbrev aG (c : Dev nD) : Spec.SV.Idx → EReal := m ((c : Thread nD τ).loc main_arg4)
abbrev aBT (c : Dev nD) : Spec.SV.Idx → EReal := m ((c : Thread nD τ).loc main_arg5)
abbrev aW2 (c : Dev nD) : Spec.SW2.Idx → EReal := m ((c : Thread nD τ).loc main_arg6)
abbrev aB2 (c : Dev nD) : Spec.SB2.Idx → EReal := m ((c : Thread nD τ).loc main_arg7)
abbrev aEI (c : Dev nD) : Spec.SEI.Idx → BitVec 32 := m ((c : Thread nD τ).loc main_arg8)

/-! ## What each stretch of host operations writes, and that it leaves every other buffer alone -/

/-- Closes "every operation of this stretch writes one of these references": each operation writes its one result. -/
local macro "writes_in" ops:ident wr:ident : tactic =>
  `(tactic| simp only [$ops:ident, $wr:ident, List.Forall, StableHlo.nullary_writes, StableHlo.unary_writes,
    StableHlo.binary_writes, StableHlo.ternary_writes, StableHlo.reshape_writes, Finset.singleton_subset_iff,
    List.mem_toFinset, List.map_cons, List.map_nil, List.mem_cons, true_or, or_true, and_self])

def wr0 : List (Ref sig .tc) := [main_v0, main_v1, main_v2, main_v3, main_v4, main_v5, main_c]
def wr1 : List (Ref sig .tc) :=
  [main_call0_v0, main_call0_v1, main_call0_v2, main_call0_v3, main_call0_v4, main_call0_v5, main_call0_v6, main_call0_v7,
   main_call0_v8, main_call0_c, main_call0_v9, main_call0_v10, main_call0_v11, main_call0_c_0, main_call0_v12, main_call0_v13,
   main_v6]
def wr2 : List (Ref sig .tc) := [main_c_0, main_c_1]
def wr3 : List (Ref sig .tc) := [main_call1_v0, main_call1_v1, main_call1_v2, main_call1_v3, main_call1_v4, main_v7]
def wr4 : List (Ref sig .tc) := [main_c_2, main_v8, main_v9, main_c_3]
def wr5 : List (Ref sig .tc) :=
  [main_call2_v0, main_call2_c, main_call2_v1, main_call2_c_0, main_call2_v2, main_call2_v3, main_call2_v4, main_call2_c_1,
   main_call2_v5, main_call2_v6, main_call2_c_2, main_call2_v7, main_call2_v8, main_call2_c_3, main_call2_v9, main_call2_v10,
   main_call2_v11, main_call2_v12, main_call2_v13, main_call2_v14, main_v10]
def wr6 : List (Ref sig .tc) := [main_v11, main_c_4]
def wr7 : List (Ref sig .tc) :=
  [main_call3_v0, main_call3_c, main_call3_v1, main_call3_c_0, main_call3_v2, main_call3_v3, main_call3_v4, main_call3_c_1,
   main_call3_v5, main_call3_v6, main_call3_c_2, main_call3_v7, main_call3_v8, main_call3_c_3, main_call3_v9, main_call3_v10,
   main_call3_v11, main_call3_v12, main_call3_v13, main_call3_v14, main_v12]
def wr8 : List (Ref sig .tc) := [main_v13, main_v14, main_v15, main_v16]
def wr9 : List (Ref sig .tc) := [main_call4_v0, main_v17]

section Skips
variable (c : Dev nD) (r : Ref sig .tc)

theorem up0 (hr : r ∉ wr0) : W1 (F := Ideal) m ρ c (Proc.devRef .tc r) = W0 (F := Ideal) m ρ c (Proc.devRef .tc r) :=
  StableHlo.after_of_writes_sub _ _ (by writes_in hostOps0 wr0) hr
theorem up1 (hr : r ∉ wr1) : W2 (F := Ideal) m ρ c (Proc.devRef .tc r) = W1 (F := Ideal) m ρ c (Proc.devRef .tc r) :=
  StableHlo.after_of_writes_sub _ _ (by writes_in hostOps0_1 wr1) hr
theorem up2 (hr : r ∉ wr2) : W3 (F := Ideal) m ρ c (Proc.devRef .tc r) = W2 (F := Ideal) m ρ c (Proc.devRef .tc r) :=
  StableHlo.after_of_writes_sub _ _ (by writes_in hostOps0_2 wr2) hr
theorem up3 (hr : r ∉ wr3) : W4 (F := Ideal) m ρ c (Proc.devRef .tc r) = W3 (F := Ideal) m ρ c (Proc.devRef .tc r) :=
  StableHlo.after_of_writes_sub _ _ (by writes_in hostOps0_3 wr3) hr
theorem up4 (hr : r ∉ wr4) : W5 (F := Ideal) m ρ c (Proc.devRef .tc r) = W4 (F := Ideal) m ρ c (Proc.devRef .tc r) :=
  StableHlo.after_of_writes_sub _ _ (by writes_in hostOps0_4 wr4) hr
theorem up5 (hr : r ∉ wr5) : W6 (F := Ideal) m ρ c (Proc.devRef .tc r) = W5 (F := Ideal) m ρ c (Proc.devRef .tc r) :=
  StableHlo.after_of_writes_sub _ _ (by writes_in hostOps0_5 wr5) hr
theorem up6 (hr : r ∉ wr6) : W7 (F := Ideal) m ρ c (Proc.devRef .tc r) = W6 (F := Ideal) m ρ c (Proc.devRef .tc r) :=
  StableHlo.after_of_writes_sub _ _ (by writes_in hostOps0_6 wr6) hr
theorem up7 (hr : r ∉ wr7) : W8 (F := Ideal) m ρ c (Proc.devRef .tc r) = W7 (F := Ideal) m ρ c (Proc.devRef .tc r) :=
  StableHlo.after_of_writes_sub _ _ (by writes_in hostOps0_7 wr7) hr
theorem up8 (hr : r ∉ wr8) : W9 (F := Ideal) m ρ c (Proc.devRef .tc r) = W8 (F := Ideal) m ρ c (Proc.devRef .tc r) :=
  StableHlo.after_of_writes_sub _ _ (by writes_in hostOps0_8 wr8) hr
theorem up9 (hr : r ∉ wr9) : W10 (F := Ideal) m ρ c (Proc.devRef .tc r) = W9 (F := Ideal) m ρ c (Proc.devRef .tc r) :=
  StableHlo.after_of_writes_sub _ _ (by writes_in hostOps0_9 wr9) hr

/-- A buffer none of the first ten stretches writes holds at the last stretch's entry what the launch gave it. -/
theorem W10_of_unwritten
    (h : r ∉ wr0 ∧ r ∉ wr1 ∧ r ∉ wr2 ∧ r ∉ wr3 ∧ r ∉ wr4 ∧ r ∉ wr5 ∧ r ∉ wr6 ∧ r ∉ wr7 ∧ r ∉ wr8 ∧ r ∉ wr9) :
    W10 (F := Ideal) m ρ c (Proc.devRef .tc r) = m ((c : Thread nD τ).loc r) :=
  (up9 m ρ c r h.2.2.2.2.2.2.2.2.2).trans <| (up8 m ρ c r h.2.2.2.2.2.2.2.2.1).trans <|
  (up7 m ρ c r h.2.2.2.2.2.2.2.1).trans <| (up6 m ρ c r h.2.2.2.2.2.2.1).trans <| (up5 m ρ c r h.2.2.2.2.2.1).trans <|
  (up4 m ρ c r h.2.2.2.2.1).trans <| (up3 m ρ c r h.2.2.2.1).trans <| (up2 m ρ c r h.2.2.1).trans <|
  (up1 m ρ c r h.2.1).trans <| up0 m ρ c r h.1

end Skips

/-! ## The last stretch before the first region: the attributes, the two weight blocks, the bias row -/

section Stretch10
variable (V : Valuation τ sig (Elt Ideal))

theorem st10_v19 (i : S1000000x4.Idx) :
    (StableHlo.after hostOps0_10 V (Proc.devRef .tc main_v19) : S1000000x4.Idx → EReal) i
      = (V (Proc.devRef .tc main_arg1) : S1000000x4.Idx → EReal) i := by
  after_results; rfl

theorem st10_v22 (k j : Fin 128) :
    (StableHlo.after hostOps0_10 V (Proc.devRef .tc main_v22) : S128x128.Idx → EReal) (ix2 k j)
      = (V (Proc.devRef .tc main_arg2) : S132x128.Idx → EReal) (ix2 (⟨k.val, by omega⟩ : Fin 132) j) := by
  after_results
  exact slice2_axis0_apply 0 (V (Proc.devRef .tc main_arg2) : S132x128.Idx → EReal) slices_S132x128_S128x128_0_0 k j _ (Nat.zero_add _).symm

theorem st10_v23 (k : Fin 4) (j : Fin 128) :
    (StableHlo.after hostOps0_10 V (Proc.devRef .tc main_v23) : S4x128.Idx → EReal) (ix2 k j)
      = (V (Proc.devRef .tc main_arg2) : S132x128.Idx → EReal) (ix2 (⟨128 + k.val, by omega⟩ : Fin 132) j) := by
  after_results
  exact slice2_axis0_apply 128 (V (Proc.devRef .tc main_arg2) : S132x128.Idx → EReal) slices_S132x128_S4x128_128_0 k j _ rfl

theorem st10_v24 (j : Fin 128) :
    (StableHlo.after hostOps0_10 V (Proc.devRef .tc main_v24) : S1x128.Idx → EReal) (ix2 (0 : Fin 1) j)
      = (V (Proc.devRef .tc main_arg3) : S128.Idx → EReal) (ix1 j) := by
  after_results
  exact shapeCast_a_1a_apply _ _ 0 j

end Stretch10

/-! ## The stretches that compute the two row numbers, each read at an index -/

section Stretches
variable (V : Valuation τ sig (Elt Ideal))

/-- Stretch 0: the source words are row 0 of the edge words … -/
theorem st0_v3 (e : Fin 1000000) :
    (StableHlo.after hostOps0 V (Proc.devRef .tc main_v3) : S1000000.Idx → BitVec 32) (ix1 e)
      = (V (Proc.devRef .tc main_arg8) : S2x1000000.Idx → BitVec 32) (ix2 (0 : Fin 2) e) := by
  after_results
  refine (shapeCast_1a_a_apply _ _ e).trans ?_
  exact slice2_axis0_apply 0 (V (Proc.devRef .tc main_arg8) : S2x1000000.Idx → BitVec 32)
    slices_S2x1000000_S1x1000000_0_0 (0 : Fin 1) e (0 : Fin 2) rfl

/-- … the destination words row 1 … -/
theorem st0_v5 (e : Fin 1000000) :
    (StableHlo.after hostOps0 V (Proc.devRef .tc main_v5) : S1000000.Idx → BitVec 32) (ix1 e)
      = (V (Proc.devRef .tc main_arg8) : S2x1000000.Idx → BitVec 32) (ix2 (1 : Fin 2) e) := by
  after_results
  refine (shapeCast_1a_a_apply _ _ e).trans ?_
  exact slice2_axis0_apply 1 (V (Proc.devRef .tc main_arg8) : S2x1000000.Idx → BitVec 32)
    slices_S2x1000000_S1x1000000_1_0 (0 : Fin 1) e (1 : Fin 2) rfl

/-- … the divisor is 2048 … -/
theorem st0_c : (StableHlo.after hostOps0 V (Proc.devRef .tc main_c) : S_.Idx → BitVec 32) = constantI S_ 32 2048#32 := by
  after_results

/-- … and the table laid out as 65,536 rows: row `q` is row `q % 2048` of graph `q / 2048`. -/
theorem st0_v1 (q : Fin 65536) (d : Fin 64) :
    (StableHlo.after hostOps0 V (Proc.devRef .tc main_v1) : S65536x64.Idx → EReal) (ix2 q d)
      = (V (Proc.devRef .tc main_arg0) : S32x2048x64.Idx → EReal)
          (ix3 (⟨q.val / 2048, by omega⟩ : Fin 32) (⟨q.val % 2048, by omega⟩ : Fin 2048) d) := by
  after_results
  exact @shapeCast_apply S32x2048x64 S65536x64 EReal (V (Proc.devRef .tc main_arg0)) shapeCasts_S32x2048x64_S65536x64 (ix2 q d) _ (by
    rw [Shape.rowMajor_val_three, Shape.rowMajor_val_two]
    show (q.val / 2048 * 2048 + q.val % 2048) * 64 + d.val = q.val * 64 + d.val
    omega)

/-- Stretch 1: the floored quotient by 2048 of the source word. -/
theorem st1 (hc : (V (Proc.devRef .tc main_c) : S_.Idx → BitVec 32) = constantI S_ 32 2048#32) (i : S1000000.Idx) :
    (StableHlo.after hostOps0_1 V (Proc.devRef .tc main_v6) : S1000000.Idx → BitVec 32) i
      = Spec.fdiv2048 ((V (Proc.devRef .tc main_v3) : S1000000.Idx → BitVec 32) i) := by
  after_results_simp
  simp only [StableHlo.TRef.ofBuf, StableHlo.TRef.toBuf, cast_eq]
  rw [hc]
  rfl

/-- Stretch 2: the clamp's two bounds. -/
theorem st2_c0 : (StableHlo.after hostOps0_2 V (Proc.devRef .tc main_c_0) : S_.Idx → BitVec 32) = constantI S_ 32 0#32 := by
  after_results
theorem st2_c1 : (StableHlo.after hostOps0_2 V (Proc.devRef .tc main_c_1) : S_.Idx → BitVec 32) = constantI S_ 32 31#32 := by
  after_results

/-- Stretch 3: the quotient clamped to [0, 31]. -/
theorem st3 (h0 : (V (Proc.devRef .tc main_c_0) : S_.Idx → BitVec 32) = constantI S_ 32 0#32)
    (h1 : (V (Proc.devRef .tc main_c_1) : S_.Idx → BitVec 32) = constantI S_ 32 31#32) (i : S1000000.Idx) :
    (StableHlo.after hostOps0_3 V (Proc.devRef .tc main_v7) : S1000000.Idx → BitVec 32) i
      = Spec.clip31 ((V (Proc.devRef .tc main_v6) : S1000000.Idx → BitVec 32) i) := by
  after_results
  simp only [StableHlo.TRef.ofBuf, StableHlo.TRef.toBuf, cast_eq]
  rw [h0, h1]
  rfl

/-- Stretch 4: the graph's first row, 2048 times the clamped quotient; and the divisor again. -/
theorem st4_v9 (i : S1000000.Idx) :
    (StableHlo.after hostOps0_4 V (Proc.devRef .tc main_v9) : S1000000.Idx → BitVec 32) i
      = IntOp.muli ((V (Proc.devRef .tc main_v7) : S1000000.Idx → BitVec 32) i) 2048#32 := by
  after_results; rfl
theorem st4_c3 : (StableHlo.after hostOps0_4 V (Proc.devRef .tc main_c_3) : S_.Idx → BitVec 32) = constantI S_ 32 2048#32 := by
  after_results

/-- Stretch 5: the floored remainder by 2048 of the source word. -/
theorem st5 (hc : (V (Proc.devRef .tc main_c_3) : S_.Idx → BitVec 32) = constantI S_ 32 2048#32) (i : S1000000.Idx) :
    (StableHlo.after hostOps0_5 V (Proc.devRef .tc main_v10) : S1000000.Idx → BitVec 32) i
      = Spec.rem2048 ((V (Proc.devRef .tc main_v3) : S1000000.Idx → BitVec 32) i) := by
  after_results_simp
  simp only [StableHlo.TRef.ofBuf, StableHlo.TRef.toBuf, cast_eq]
  rw [hc]
  rfl

/-- Stretch 6: the source's row number; and the divisor once more. -/
theorem st6_v11 (i : S1000000.Idx) :
    (StableHlo.after hostOps0_6 V (Proc.devRef .tc main_v11) : S1000000.Idx → BitVec 32) i
      = IntOp.addi ((V (Proc.devRef .tc main_v10) : S1000000.Idx → BitVec 32) i)
          ((V (Proc.devRef .tc main_v9) : S1000000.Idx → BitVec 32) i) := by
  after_results; rfl
theorem st6_c4 : (StableHlo.after hostOps0_6 V (Proc.devRef .tc main_c_4) : S_.Idx → BitVec 32) = constantI S_ 32 2048#32 := by
  after_results

/-- Stretch 7: the floored remainder by 2048 of the destination word. -/
theorem st7 (hc : (V (Proc.devRef .tc main_c_4) : S_.Idx → BitVec 32) = constantI S_ 32 2048#32) (i : S1000000.Idx) :
    (StableHlo.after hostOps0_7 V (Proc.devRef .tc main_v12) : S1000000.Idx → BitVec 32) i
      = Spec.rem2048 ((V (Proc.devRef .tc main_v5) : S1000000.Idx → BitVec 32) i) := by
  after_results_simp
  simp only [StableHlo.TRef.ofBuf, StableHlo.TRef.toBuf, cast_eq]
  rw [hc]
  rfl

end Stretches

section Stretches2
variable (V : Valuation τ sig (Elt Ideal))

/-- Stretch 8: the two row numbers side by side — column 0 the source's … -/
theorem st8_src (e : Fin 1000000) :
    (StableHlo.after hostOps0_8 V (Proc.devRef .tc main_v16) : S1000000x2.Idx → BitVec 32) (ix2 e (0 : Fin 2))
      = (V (Proc.devRef .tc main_v11) : S1000000.Idx → BitVec 32) (ix1 e) := by
  after_results
  refine (concatenate_pair_apply_left (t := S1000000x2) (s₁ := S1000000x1) (s₂ := S1000000x1) (1 : Fin 2) _ _
    concatenates_S1000000x1_S1000000x1_S1000000x2_d1 (ix2 e (0 : Fin 2)) rfl (ix2 e (0 : Fin 1))
    (fun b => by match b with | ⟨0, _⟩ => rfl | ⟨1, _⟩ => rfl)).trans ?_
  exact broadcastInDim_apply (s := S1000000) (t := S1000000x1) _ _ _ _ (ix1 e) (fun a => by match a with | ⟨0, _⟩ => rfl)

/-- … column 1 the destination's: its remainder plus the source graph's first row. -/
theorem st8_dst (e : Fin 1000000) :
    (StableHlo.after hostOps0_8 V (Proc.devRef .tc main_v16) : S1000000x2.Idx → BitVec 32) (ix2 e (1 : Fin 2))
      = IntOp.addi ((V (Proc.devRef .tc main_v12) : S1000000.Idx → BitVec 32) (ix1 e))
          ((V (Proc.devRef .tc main_v9) : S1000000.Idx → BitVec 32) (ix1 e)) := by
  after_results
  refine (concatenate_pair_apply_right (t := S1000000x2) (s₁ := S1000000x1) (s₂ := S1000000x1) (1 : Fin 2) _ _
    concatenates_S1000000x1_S1000000x1_S1000000x2_d1 (ix2 e (1 : Fin 2)) rfl rfl (ix2 e (0 : Fin 1))
    (fun b hb => by
      match b, hb with
      | ⟨0, _⟩, _ => rfl
      | ⟨1, _⟩, hb => exact absurd rfl hb) rfl).trans ?_
  exact broadcastInDim_apply (s := S1000000) (t := S1000000x1) _ _ _ _ (ix1 e) (fun a => by match a with | ⟨0, _⟩ => rfl)

/-- Stretch 9: the gather — row `p` of edge `e` is the table's row numbered by that edge's column `p`, read signed and
    clamped into the table. -/
theorem st9 (e : Fin 1000000) (p : Fin 2) (d : Fin 64) :
    (StableHlo.after hostOps0_9 V (Proc.devRef .tc main_v17) : S1000000x2x64.Idx → EReal) (ix3 e p d)
      = (V (Proc.devRef .tc main_v1) : S65536x64.Idx → EReal)
          (ix2 (⟨min ((V (Proc.devRef .tc main_v16) : S1000000x2.Idx → BitVec 32) (ix2 e p)).toInt.toNat 65535, by omega⟩ : Fin 65536) d) := by
  after_results
  simp only [StableHlo.TRef.ofBuf, StableHlo.TRef.toBuf, cast_eq]
  refine (GatherRows.gather_rows_apply (N := 65536) (D := 64) (R := 1000000) (C := 2) (by decide)
    gather_S65536x64_S1000000x2x1_S1000000x2x64_2_0_n_n_0_2_164_wf _ _ (ix3 e p d)).trans ?_
  have hb : broadcastInDim S1000000x2x1 ![0, 1] bcast_S1000000x2_S1000000x2x1_0_1
      (V (Proc.devRef .tc main_v16) : S1000000x2.Idx → BitVec 32) (GatherRows.rowIdx (ix3 e p d))
        = (V (Proc.devRef .tc main_v16) : S1000000x2.Idx → BitVec 32) (ix2 e p) :=
    broadcastInDim_apply (s := S1000000x2) (t := S1000000x2x1) _ _ _ _ (ix2 e p)
      (fun a => by match a with | ⟨0, _⟩ => rfl | ⟨1, _⟩ => rfl)
  refine congrArg (V (Proc.devRef .tc main_v1) : S65536x64.Idx → EReal) (Shape.idx_ext₂ ?_ rfl)
  show min (BitVec.toInt (broadcastInDim S1000000x2x1 ![0, 1] bcast_S1000000x2_S1000000x2x1_0_1
      (V (Proc.devRef .tc main_v16) : S1000000x2.Idx → BitVec 32) (GatherRows.rowIdx (ix3 e p d)))).toNat (65536 - 1)
    = min (BitVec.toInt ((V (Proc.devRef .tc main_v16) : S1000000x2.Idx → BitVec 32) (ix2 e p))).toNat 65535
  rw [hb]

/-- Stretch 10: the gathered rows as 128 features — feature `k` is entry `k % 64` of row `k / 64`. -/
theorem st10_v18 (e : Fin 1000000) (k : Fin 128) :
    (StableHlo.after hostOps0_10 V (Proc.devRef .tc main_v18) : S1000000x128.Idx → EReal) (ix2 e k)
      = (V (Proc.devRef .tc main_v17) : S1000000x2x64.Idx → EReal)
          (ix3 e (⟨k.val / 64, by omega⟩ : Fin 2) (⟨k.val % 64, by omega⟩ : Fin 64)) := by
  after_results
  exact @shapeCast_apply S1000000x2x64 S1000000x128 EReal (V (Proc.devRef .tc main_v17)) shapeCasts_S1000000x2x64_S1000000x128 (ix2 e k) _ (by
    rw [Shape.rowMajor_val_three, Shape.rowMajor_val_two]
    show (e.val * 2 + k.val / 64) * 64 + k.val % 64 = e.val * 128 + k.val
    omega)

end Stretches2

/-! ## The chain composed: each buffer of the index computation at the stretch that reads it -/

section Chain
variable (c : Dev nD) (e : Fin 1000000)

theorem w1_v3 : (W1 (F := Ideal) m ρ c (Proc.devRef .tc main_v3) : S1000000.Idx → BitVec 32) (ix1 e)
    = aEI m c (ix2 (0 : Fin 2) e) := st0_v3 (W0 (F := Ideal) m ρ c) e

theorem w1_v5 : (W1 (F := Ideal) m ρ c (Proc.devRef .tc main_v5) : S1000000.Idx → BitVec 32) (ix1 e)
    = aEI m c (ix2 (1 : Fin 2) e) := st0_v5 (W0 (F := Ideal) m ρ c) e

theorem w2_v6 : (W2 (F := Ideal) m ρ c (Proc.devRef .tc main_v6) : S1000000.Idx → BitVec 32) (ix1 e)
    = Spec.fdiv2048 (aEI m c (ix2 (0 : Fin 2) e)) := by
  rw [← w1_v3 m ρ c e]
  exact st1 (W1 (F := Ideal) m ρ c) (st0_c _) (ix1 e)

theorem w4_v7 : (W4 (F := Ideal) m ρ c (Proc.devRef .tc main_v7) : S1000000.Idx → BitVec 32) (ix1 e)
    = Spec.clip31 (Spec.fdiv2048 (aEI m c (ix2 (0 : Fin 2) e))) := by
  rw [← w2_v6 m ρ c e, ← up2 m ρ c main_v6 (by decide)]
  exact st3 (W3 (F := Ideal) m ρ c) (st2_c0 _) (st2_c1 _) (ix1 e)

/-- The source graph's first row. -/
theorem w5_v9 : (W5 (F := Ideal) m ρ c (Proc.devRef .tc main_v9) : S1000000.Idx → BitVec 32) (ix1 e)
    = IntOp.muli (Spec.clip31 (Spec.fdiv2048 (aEI m c (ix2 (0 : Fin 2) e)))) 2048#32 := by
  rw [← w4_v7 m ρ c e]
  exact st4_v9 (W4 (F := Ideal) m ρ c) (ix1 e)

theorem w5_v3 : (W5 (F := Ideal) m ρ c (Proc.devRef .tc main_v3) : S1000000.Idx → BitVec 32) (ix1 e)
    = aEI m c (ix2 (0 : Fin 2) e) := by
  rw [up4 m ρ c main_v3 (by decide), up3 m ρ c main_v3 (by decide), up2 m ρ c main_v3 (by decide),
    up1 m ρ c main_v3 (by decide)]
  exact w1_v3 m ρ c e

theorem w6_v10 : (W6 (F := Ideal) m ρ c (Proc.devRef .tc main_v10) : S1000000.Idx → BitVec 32) (ix1 e)
    = Spec.rem2048 (aEI m c (ix2 (0 : Fin 2) e)) := by
  rw [← w5_v3 m ρ c e]
  exact st5 (W5 (F := Ideal) m ρ c) (st4_c3 _) (ix1 e)

/-- The source's row number. -/
theorem w7_v11 : (W7 (F := Ideal) m ρ c (Proc.devRef .tc main_v11) : S1000000.Idx → BitVec 32) (ix1 e)
    = Spec.srcW (aEI m c) e := by
  show _ = IntOp.addi (Spec.rem2048 (aEI m c (ix2 (0 : Fin 2) e)))
    (IntOp.muli (Spec.clip31 (Spec.fdiv2048 (aEI m c (ix2 (0 : Fin 2) e)))) 2048#32)
  rw [← w6_v10 m ρ c e, ← w5_v9 m ρ c e, ← up5 m ρ c main_v9 (by decide)]
  exact st6_v11 (W6 (F := Ideal) m ρ c) (ix1 e)

theorem w7_v5 : (W7 (F := Ideal) m ρ c (Proc.devRef .tc main_v5) : S1000000.Idx → BitVec 32) (ix1 e)
    = aEI m c (ix2 (1 : Fin 2) e) := by
  rw [up6 m ρ c main_v5 (by decide), up5 m ρ c main_v5 (by decide), up4 m ρ c main_v5 (by decide),
    up3 m ρ c main_v5 (by decide), up2 m ρ c main_v5 (by decide), up1 m ρ c main_v5 (by decide)]
  exact w1_v5 m ρ c e

theorem w8_v12 : (W8 (F := Ideal) m ρ c (Proc.devRef .tc main_v12) : S1000000.Idx → BitVec 32) (ix1 e)
    = Spec.rem2048 (aEI m c (ix2 (1 : Fin 2) e)) := by
  rw [← w7_v5 m ρ c e]
  exact st7 (W7 (F := Ideal) m ρ c) (st6_c4 _) (ix1 e)

/-- Column 0 of the row numbers: the source's. -/
theorem w9_src : (W9 (F := Ideal) m ρ c (Proc.devRef .tc main_v16) : S1000000x2.Idx → BitVec 32) (ix2 e (0 : Fin 2))
    = Spec.srcW (aEI m c) e := by
  rw [← w7_v11 m ρ c e, ← up7 m ρ c main_v11 (by decide)]
  exact st8_src (W8 (F := Ideal) m ρ c) e

/-- Column 1: the destination's. -/
theorem w9_dst : (W9 (F := Ideal) m ρ c (Proc.devRef .tc main_v16) : S1000000x2.Idx → BitVec 32) (ix2 e (1 : Fin 2))
    = Spec.dstW (aEI m c) e := by
  show _ = IntOp.addi (Spec.rem2048 (aEI m c (ix2 (1 : Fin 2) e)))
    (IntOp.muli (Spec.clip31 (Spec.fdiv2048 (aEI m c (ix2 (0 : Fin 2) e)))) 2048#32)
  rw [← w8_v12 m ρ c e, ← w5_v9 m ρ c e, ← up5 m ρ c main_v9 (by decide), ← up6 m ρ c main_v9 (by decide),
    ← up7 m ρ c main_v9 (by decide)]
  exact st8_dst (W8 (F := Ideal) m ρ c) e

/-- The table as 65,536 rows, at the gather. -/
theorem w9_v1 (q : Fin 65536) (d : Fin 64) :
    (W9 (F := Ideal) m ρ c (Proc.devRef .tc main_v1) : S65536x64.Idx → EReal) (ix2 q d)
      = aZ m c (ix3 (⟨q.val / 2048, by omega⟩ : Fin 32) (⟨q.val % 2048, by omega⟩ : Fin 2048) d) := by
  rw [up8 m ρ c main_v1 (by decide), up7 m ρ c main_v1 (by decide), up6 m ρ c main_v1 (by decide),
    up5 m ρ c main_v1 (by decide), up4 m ρ c main_v1 (by decide), up3 m ρ c main_v1 (by decide),
    up2 m ρ c main_v1 (by decide), up1 m ρ c main_v1 (by decide)]
  exact st0_v1 (W0 (F := Ideal) m ρ c) q d

/-- A gathered row: the table's row numbered `w`, when `w` is what that edge's column holds. -/
theorem w10_v17 (p : Fin 2) (d : Fin 64) (w : BitVec 32)
    (hw : (W9 (F := Ideal) m ρ c (Proc.devRef .tc main_v16) : S1000000x2.Idx → BitVec 32) (ix2 e p) = w) :
    (W10 (F := Ideal) m ρ c (Proc.devRef .tc main_v17) : S1000000x2x64.Idx → EReal) (ix3 e p d)
      = Spec.zsel (aZ m c) w d := by
  subst hw
  exact (st9 (W9 (F := Ideal) m ρ c) e p d).trans (w9_v1 m ρ c _ d)

end Chain

/-! ## Entering the first region -/

theorem v18 (c : Dev nD) (e : Fin 1000000) (k : Fin 128) :
    (V11 (F := Ideal) m ρ c main_v18 : S1000000x128.Idx → EReal) (ix2 e k)
      = Spec.zabK (aZ m c) (aEI m c) e k := by
  refine (st10_v18 (W10 (F := Ideal) m ρ c) e k).trans ?_
  unfold Spec.zabK
  by_cases hk : k.val < 64
  · rw [if_pos hk]
    refine w10_v17 m ρ c e _ _ _ ?_
    rw [show (⟨k.val / 64, by omega⟩ : Fin 2) = 0 from Fin.ext (Nat.div_eq_of_lt hk)]
    exact w9_src m ρ c e
  · rw [if_neg hk]
    refine w10_v17 m ρ c e _ _ _ ?_
    rw [show (⟨k.val / 64, by omega⟩ : Fin 2) = 1 from Fin.ext (by show k.val / 64 = 1; omega)]
    exact w9_dst m ρ c e

theorem v19 (c : Dev nD) (e : Fin 1000000) (k : Fin 4) :
    (V11 (F := Ideal) m ρ c main_v19 : S1000000x4.Idx → EReal) (ix2 e k)
      = aEA m c (ix2 e k) := by
  refine (st10_v19 (W10 (F := Ideal) m ρ c) (ix2 e k)).trans ?_
  rw [W10_of_unwritten m ρ c main_arg1 (by decide)]

theorem v22 (c : Dev nD) (k j : Fin 128) :
    (V11 (F := Ideal) m ρ c main_v22 : S128x128.Idx → EReal) (ix2 k j)
      = aW1 m c (ix2 (⟨k.val, by omega⟩ : Fin 132) j) := by
  refine (st10_v22 (W10 (F := Ideal) m ρ c) k j).trans ?_
  rw [W10_of_unwritten m ρ c main_arg2 (by decide)]

theorem v23 (c : Dev nD) (k : Fin 4) (j : Fin 128) :
    (V11 (F := Ideal) m ρ c main_v23 : S4x128.Idx → EReal) (ix2 k j)
      = aW1 m c (ix2 (⟨128 + k.val, by omega⟩ : Fin 132) j) := by
  refine (st10_v23 (W10 (F := Ideal) m ρ c) k j).trans ?_
  rw [W10_of_unwritten m ρ c main_arg2 (by decide)]

theorem v24 (c : Dev nD) (j : Fin 128) :
    (V11 (F := Ideal) m ρ c main_v24 : S1x128.Idx → EReal) (ix2 (0 : Fin 1) j)
      = aB1 m c (ix1 j) := by
  refine (st10_v24 (W10 (F := Ideal) m ρ c) j).trans ?_
  rw [W10_of_unwritten m ρ c main_arg3 (by decide)]

/-! ## Entering the second region -/

/-- The two halves' sums of column `j` as the first region left them … -/
def s1 (c : Dev nD) (j : Fin 128) (cc : Fin 2) : EReal :=
  (V12 (F := Ideal) m ρ c main_v25_0 : S2x8x128.Idx → EReal) (ix3 cc (0 : Fin 8) j)
/-- … and the sums of squares. -/
def s2 (c : Dev nD) (j : Fin 128) (cc : Fin 2) : EReal :=
  (V12 (F := Ideal) m ρ c main_v25_1 : S2x8x128.Idx → EReal) (ix3 cc (0 : Fin 8) j)

end Cert.KernelIdeal.KHost

end
-- ==== Proof.KHost2.lean ====
/-
  The host stretch between the two kernels, read at an index: the second kernel is entered with the same
  gathered features and attributes as the first, with the first layer's weights scaled column by column by
  γ / √(var + ε), with the folded bias b1 · s + β − μ · s, and with the projection's row and bias; mean and
  variance come from the two halves' sums the first kernel left in row 0 of its two result arrays.
-/
import proofs.«416790_j18339510354271_3_alg».proof.Proof.Gen.KernelIdeal.Frame
import proofs.«416790_j18339510354271_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«416790_j18339510354271_3_alg».proof.Proof.KHost

noncomputable section

open scoped BigOperators
open Idealize.ShloMosaic Idealize.ShloMosaic.TcCoe Idealize.SL.Sem Idealize.ShloMosaic.ValueIdx
open Idealize.ShloMosaic.Pipeline (Dat)

namespace Cert.KernelIdeal.KHost2

open Cert.KernelIdeal Cert.KernelIdeal.Gen Cert.KernelIdeal.KHost

variable (m : (ℓ : Loc nD τ sig) → Buf (Elt Ideal) ℓ) (ρ : Dev nD → PrngReg)

/-! ## What the stretch between the two kernels leaves alone -/

/-- The references the host stretch between the two kernels writes: its 41 results. -/
private def wr1 : List (Ref sig .tc) :=
  [main_v26, main_v27, main_cst, main_v28, main_v29, main_v30, main_v31, main_cst_5, main_v32, main_v33, main_cst_6,
   main_v34, main_v35, main_cst_7, main_v36, main_v37, main_v38, main_v39, main_cst_8, main_v40, main_v41, main_v42,
   main_v43, main_v44, main_cst_9, main_v45, main_v46, main_v47, main_v48, main_v49, main_v50, main_v51, main_v52,
   main_v53, main_v54, main_v55, main_v56, main_v57, main_v58, main_v59, main_v60]

/-- Every operation of the stretch writes one of those references. -/
private theorem wr1_sub : (hostOps1 : List (HloOp τ sig (Elt Ideal))).Forall fun op =>
    op.writes ⊆ (wr1.map (Proc.devRef (τ := τ) .tc)).toFinset := by
  simp only [hostOps1, List.Forall, StableHlo.nullary_writes, StableHlo.unary_writes, StableHlo.binary_writes,
    StableHlo.reshape_writes, Finset.singleton_subset_iff, List.mem_toFinset, List.mem_map]
  repeat' apply And.intro
  all_goals (refine ⟨_, ?_, rfl⟩; decide)

/-- A reference the stretch does not write holds after it what it held before. -/
private theorem keep1 (c : Dev nD) (r : Ref sig .tc) (hr : r ∉ wr1) :
    W13 (F := Ideal) m ρ c (Proc.devRef .tc r) = W12 (F := Ideal) m ρ c (Proc.devRef .tc r) :=
  StableHlo.after_of_writes_sub _ _ wr1_sub hr

/-! ## The argument arrays are what was launched -/

private theorem arg2 (c : Dev nD) : W12 (F := Ideal) m ρ c (Proc.devRef .tc main_arg2) = m ((c : Thread nD τ).loc main_arg2) :=
  (keep1 m ρ c main_arg2 (by decide)).symm.trans ((W14_of_ne m ρ c main_arg2 (by decide)).symm.trans (W14_main_arg2 m ρ c))
private theorem arg3 (c : Dev nD) : W12 (F := Ideal) m ρ c (Proc.devRef .tc main_arg3) = m ((c : Thread nD τ).loc main_arg3) :=
  (keep1 m ρ c main_arg3 (by decide)).symm.trans ((W14_of_ne m ρ c main_arg3 (by decide)).symm.trans (W14_main_arg3 m ρ c))
private theorem arg4 (c : Dev nD) : W12 (F := Ideal) m ρ c (Proc.devRef .tc main_arg4) = m ((c : Thread nD τ).loc main_arg4) :=
  (keep1 m ρ c main_arg4 (by decide)).symm.trans ((W14_of_ne m ρ c main_arg4 (by decide)).symm.trans (W14_main_arg4 m ρ c))
private theorem arg5 (c : Dev nD) : W12 (F := Ideal) m ρ c (Proc.devRef .tc main_arg5) = m ((c : Thread nD τ).loc main_arg5) :=
  (keep1 m ρ c main_arg5 (by decide)).symm.trans ((W14_of_ne m ρ c main_arg5 (by decide)).symm.trans (W14_main_arg5 m ρ c))
private theorem arg6 (c : Dev nD) : W12 (F := Ideal) m ρ c (Proc.devRef .tc main_arg6) = m ((c : Thread nD τ).loc main_arg6) :=
  (keep1 m ρ c main_arg6 (by decide)).symm.trans ((W14_of_ne m ρ c main_arg6 (by decide)).symm.trans (W14_main_arg6 m ρ c))
private theorem arg7 (c : Dev nD) : W12 (F := Ideal) m ρ c (Proc.devRef .tc main_arg7) = m ((c : Thread nD τ).loc main_arg7) :=
  (keep1 m ρ c main_arg7 (by decide)).symm.trans ((W14_of_ne m ρ c main_arg7 (by decide)).symm.trans (W14_main_arg7 m ρ c))

/-! ## The stretch's arithmetic over arbitrary arrays, read at an index -/

section Terms

/-- Row 0 of a [2, 8, 128] array summed over its two halves, as a row of 128 columns: the slice, the reshape,
    the host's sum over the leading axis from the word 0, the new leading unit axis. -/
private def halves (A : FVec Ideal S2x8x128 .f32) : FVec Ideal S1x128 .f32 :=
  broadcastInDim S1x128 ![1] bcast_S128_S1x128_1
    (Host.reduceAdd
      (shapeCast S2x128 (extractStridedSlice S2x1x128 ![0, 0, 0] A slices_S2x8x128_S2x1x128_0_0_0) shapeCasts_S2x1x128_S2x128)
      (constant S_ .f32 0x00000000#32) reducesTo_S2x128_S128_d0 h_S_)

/-- A word spread over a row of 128 columns. -/
private def spread (w : BitVec 32) : FVec Ideal S1x128 .f32 :=
  broadcastInDim S1x128 ![] bcast_S_S1x128 (constant S_ .f32 w)

private theorem spread_apply (w : BitVec 32) (i : S1x128.Idx) : spread w i = Ideal.ofBits .f32 w := rfl

/-- Column j of the summed halves is the sum over the two halves of row 0's entry in column j. -/
private theorem halves_apply (A : FVec Ideal S2x8x128 .f32) (u : Fin 1) (j : Fin 128) :
    halves A (ix2 u j) = ∑ cc : Fin 2, A (ix3 cc (0 : Fin 8) j) := by
  unfold halves
  rw [broadcastInDim_apply _ _ _ _ (ix1 j) (fun a => match a with | ⟨0, _⟩ => rfl)]
  have hR : S2x128.Reduces [0] S128 := by decide
  show Ideal.hostReduceAdd reducesTo_S2x128_S128_d0 _ (Ideal.ofBits .f32 0x00000000#32) (ix1 j) = _
  rw [Ideal.hostReduceAdd_single reducesTo_S2x128_S128_d0 hR, Ideal.ofBits_zero_f32, zero_add]
  show ∑ cc : Fin 2, shapeCast S2x128 _ _ (hR.lift (ix1 j) cc) = ∑ cc : Fin 2, A (ix3 cc (0 : Fin 8) j)
  refine Finset.sum_congr rfl fun cc _ => ?_
  refine (shapeCast_apply _ _ _ (ix3 cc (0 : Fin 1) j : S2x1x128.Idx) ?_).trans ?_
  · rw [Shape.rowMajor_val_three, Shape.rowMajor_val_two]
    show (cc.val * 1 + 0) * 128 + j.val = cc.val * 128 + j.val
    omega
  exact extractStridedSlice_apply _ _ _ _ (ix3 cc (0 : Fin 8) j) (fun a => match a with
    | ⟨0, _⟩ => by show cc.val = 0 + cc.val; omega
    | ⟨1, _⟩ => by show 0 = 0 + 0; omega
    | ⟨2, _⟩ => by show j.val = 0 + j.val; omega)

/-- The mean row: the first array's summed halves over the number of edges. -/
private def tMean (A : FVec Ideal S2x8x128 .f32) : FVec Ideal S1x128 .f32 :=
  Host.divf (halves A) (spread 0x49742400#32)

/-- The variance row: the second array's summed halves over the number of edges, less the squared mean, not below 0. -/
private def tVar (A B : FVec Ideal S2x8x128 .f32) : FVec Ideal S1x128 .f32 :=
  maximumf (subf (Host.divf (halves B) (spread 0x49742400#32)) (mulf (tMean A) (tMean A))) (spread 0x00000000#32)

/-- The scale row: γ as a row times the reciprocal root of variance plus ε. -/
private def tScale (A B : FVec Ideal S2x8x128 .f32) (G : FVec Ideal S128 .f32) : FVec Ideal S1x128 .f32 :=
  mulf (shapeCast S1x128 G shapeCasts_S128_S1x128) (Host.rsqrt (addf (tVar A B) (spread 0x3727C5AC#32)))

/-- The folded bias row: b1 · scale + β − mean · scale. -/
private def tBias (A B : FVec Ideal S2x8x128 .f32) (G B1 BT : FVec Ideal S128 .f32) : FVec Ideal S1x128 .f32 :=
  subf (addf (mulf (shapeCast S1x128 B1 shapeCasts_S128_S1x128) (tScale A B G)) (shapeCast S1x128 BT shapeCasts_S128_S1x128))
    (mulf (tMean A) (tScale A B G))

private theorem tMean_apply (A : FVec Ideal S2x8x128 .f32) (u : Fin 1) (j : Fin 128) :
    tMean A (ix2 u j) = Spec.muOf (fun cc => A (ix3 cc (0 : Fin 8) j)) := by
  show Ideal.div (halves A (ix2 u j)) (spread 0x49742400#32 (ix2 u j)) = _
  rw [halves_apply, spread_apply]
  rfl

private theorem tVar_apply (A B : FVec Ideal S2x8x128 .f32) (u : Fin 1) (j : Fin 128) :
    tVar A B (ix2 u j) = Spec.varOf (fun cc => A (ix3 cc (0 : Fin 8) j)) (fun cc => B (ix3 cc (0 : Fin 8) j)) := by
  show max (Ideal.div (halves B (ix2 u j)) (spread 0x49742400#32 (ix2 u j)) - tMean A (ix2 u j) * tMean A (ix2 u j))
      (spread 0x00000000#32 (ix2 u j)) = _
  rw [halves_apply, tMean_apply, spread_apply, spread_apply, Ideal.ofBits_zero_f32]
  rfl

private theorem tScale_apply (A B : FVec Ideal S2x8x128 .f32) (G : FVec Ideal S128 .f32) (u : Fin 1) (j : Fin 128) :
    tScale A B G (ix2 u j)
      = Spec.scaleOf (fun cc => A (ix3 cc (0 : Fin 8) j)) (fun cc => B (ix3 cc (0 : Fin 8) j)) (G (ix1 j)) := by
  show shapeCast S1x128 G shapeCasts_S128_S1x128 (ix2 u j)
      * Ideal.rsqrt (tVar A B (ix2 u j) + spread 0x3727C5AC#32 (ix2 u j)) = _
  rw [shapeCast_a_1a_apply, tVar_apply, spread_apply]
  rfl

private theorem tBias_apply (A B : FVec Ideal S2x8x128 .f32) (G B1 BT : FVec Ideal S128 .f32) (u : Fin 1) (j : Fin 128) :
    tBias A B G B1 BT (ix2 u j)
      = Spec.biasOf (fun cc => A (ix3 cc (0 : Fin 8) j)) (fun cc => B (ix3 cc (0 : Fin 8) j)) (G (ix1 j)) (B1 (ix1 j))
          (BT (ix1 j)) := by
  show (shapeCast S1x128 B1 shapeCasts_S128_S1x128 (ix2 u j) * tScale A B G (ix2 u j)
        + shapeCast S1x128 BT shapeCasts_S128_S1x128 (ix2 u j))
      - tMean A (ix2 u j) * tScale A B G (ix2 u j) = _
  rw [shapeCast_a_1a_apply, shapeCast_a_1a_apply, tScale_apply, tMean_apply]
  rfl

end Terms

/-! ## The two weight blocks the stretch multiplies: slices of the first layer's weights -/

/-- The last stretch before the first kernel does not write the weights … -/
private theorem w1_entry (c : Dev nD) :
    W10 (F := Ideal) m ρ c (Proc.devRef .tc main_arg2) = m ((c : Thread nD τ).loc main_arg2) := by
  have e : W11 (F := Ideal) m ρ c (Proc.devRef .tc main_arg2) = W10 (F := Ideal) m ρ c (Proc.devRef .tc main_arg2) := by
    show StableHlo.after hostOps0_10 (W10 m ρ c) (Proc.devRef .tc main_arg2) = _
    after_results_simp
  rw [← e, ← W12_of_ne m ρ c main_arg2 (by decide)]
  exact arg2 m ρ c

/-- … and cuts rows 0 … 127 out of them, which neither the first kernel nor the stretch after it touches. -/
private theorem w20 (c : Dev nD) (k j : Fin 128) :
    (W12 (F := Ideal) m ρ c (Proc.devRef .tc main_v20) : S128x128.Idx → EReal) (ix2 k j)
      = aW1 m c (ix2 (⟨k.val, by omega⟩ : Fin 132) j) := by
  have e : (W11 (F := Ideal) m ρ c (Proc.devRef .tc main_v20) : S128x128.Idx → EReal)
      = extractStridedSlice S128x128 ![0, 0] (W10 (F := Ideal) m ρ c (Proc.devRef .tc main_arg2) : S132x128.Idx → EReal)
          slices_S132x128_S128x128_0_0 := by
    show StableHlo.after hostOps0_10 (W10 m ρ c) (Proc.devRef .tc main_v20) = _
    after_results_simp
  rw [W12_of_ne m ρ c main_v20 (by decide), e, w1_entry]
  exact extractStridedSlice_apply _ _ _ _ (ix2 (⟨k.val, by omega⟩ : Fin 132) j) (fun a => match a with
    | ⟨0, _⟩ => by show k.val = 0 + k.val; omega
    | ⟨1, _⟩ => by show j.val = 0 + j.val; omega)

/-- Likewise rows 128 … 131. -/
private theorem w21 (c : Dev nD) (k : Fin 4) (j : Fin 128) :
    (W12 (F := Ideal) m ρ c (Proc.devRef .tc main_v21) : S4x128.Idx → EReal) (ix2 k j)
      = aW1 m c (ix2 (⟨128 + k.val, by omega⟩ : Fin 132) j) := by
  have e : (W11 (F := Ideal) m ρ c (Proc.devRef .tc main_v21) : S4x128.Idx → EReal)
      = extractStridedSlice S4x128 ![128, 0] (W10 (F := Ideal) m ρ c (Proc.devRef .tc main_arg2) : S132x128.Idx → EReal)
          slices_S132x128_S4x128_128_0 := by
    show StableHlo.after hostOps0_10 (W10 m ρ c) (Proc.devRef .tc main_v21) = _
    after_results_simp
  rw [W12_of_ne m ρ c main_v21 (by decide), e, w1_entry]
  exact extractStridedSlice_apply _ _ _ _ (ix2 (⟨128 + k.val, by omega⟩ : Fin 132) j) (fun a => match a with
    | ⟨0, _⟩ => by show 128 + k.val = 128 + k.val; rfl
    | ⟨1, _⟩ => by show j.val = 0 + j.val; omega)

/-! ## The second kernel's arrays -/

theorem v18' (c : Dev nD) : (V13 (F := Ideal) m ρ c main_v18 : S1000000x128.Idx → EReal) = V11 (F := Ideal) m ρ c main_v18 := by
  -- the stretch does not write the gathered features, and they are an input array of the first kernel, which
  -- an input window never changes
  show W13 (F := Ideal) m ρ c (Proc.devRef .tc main_v18) = W11 (F := Ideal) m ρ c (Proc.devRef .tc main_v18)
  rw [keep1 m ρ c main_v18 (by decide)]
  exact (W12_arr m ρ c 0).trans (((dat0 (V11 m ρ) c).arrAt_in 0 rfl _).trans (A_eq0 (V11 m ρ) c 0))

theorem v19' (c : Dev nD) : (V13 (F := Ideal) m ρ c main_v19 : S1000000x4.Idx → EReal) = V11 (F := Ideal) m ρ c main_v19 := by
  -- likewise the edge attributes, the first kernel's second input array
  show W13 (F := Ideal) m ρ c (Proc.devRef .tc main_v19) = W11 (F := Ideal) m ρ c (Proc.devRef .tc main_v19)
  rw [keep1 m ρ c main_v19 (by decide)]
  exact (W12_arr m ρ c 1).trans (((dat0 (V11 m ρ) c).arrAt_in 1 rfl _).trans (A_eq0 (V11 m ρ) c 1))

theorem v51 (c : Dev nD) (k j : Fin 128) :
    (V13 (F := Ideal) m ρ c main_v51 : S128x128.Idx → EReal) (ix2 k j)
      = aW1 m c (ix2 (⟨k.val, by omega⟩ : Fin 132) j)
        * Spec.scaleOf (s1 m ρ c j) (s2 m ρ c j) (aG m c (ix1 j)) := by
  -- the weights' first 128 rows, each column scaled: the product with the scale row spread over the rows
  have e : (V13 (F := Ideal) m ρ c main_v51 : S128x128.Idx → EReal)
      = truncf .bf16 (mulf (W12 (F := Ideal) m ρ c (Proc.devRef .tc main_v20) : S128x128.Idx → EReal)
          (broadcastInDim S128x128 ![0, 1] bcast_S1x128_S128x128_0_1
            (tScale (W12 (F := Ideal) m ρ c (Proc.devRef .tc main_v25_0)) (W12 (F := Ideal) m ρ c (Proc.devRef .tc main_v25_1))
              (W12 (F := Ideal) m ρ c (Proc.devRef .tc main_arg4))))) bitsLt_bf16_f32 := by
    show StableHlo.after hostOps1 (W12 m ρ c) (Proc.devRef .tc main_v51) = _
    after_results_simp
    rfl
  rw [e, arg4, truncf_apply, mulf_apply, w20, broadcastInDim_apply _ _ _ _ (ix2 (0 : Fin 1) j) (fun a => match a with | ⟨0, _⟩ => rfl | ⟨1, _⟩ => rfl),
    tScale_apply]
  rfl

theorem v54 (c : Dev nD) (k : Fin 4) (j : Fin 128) :
    (V13 (F := Ideal) m ρ c main_v54 : S4x128.Idx → EReal) (ix2 k j)
      = aW1 m c (ix2 (⟨128 + k.val, by omega⟩ : Fin 132) j)
        * Spec.scaleOf (s1 m ρ c j) (s2 m ρ c j) (aG m c (ix1 j)) := by
  -- the weights' last 4 rows, likewise
  have e : (V13 (F := Ideal) m ρ c main_v54 : S4x128.Idx → EReal)
      = truncf .bf16 (mulf (W12 (F := Ideal) m ρ c (Proc.devRef .tc main_v21) : S4x128.Idx → EReal)
          (broadcastInDim S4x128 ![0, 1] bcast_S1x128_S4x128_0_1
            (tScale (W12 (F := Ideal) m ρ c (Proc.devRef .tc main_v25_0)) (W12 (F := Ideal) m ρ c (Proc.devRef .tc main_v25_1))
              (W12 (F := Ideal) m ρ c (Proc.devRef .tc main_arg4))))) bitsLt_bf16_f32 := by
    show StableHlo.after hostOps1 (W12 m ρ c) (Proc.devRef .tc main_v54) = _
    after_results_simp
    rfl
  rw [e, arg4, truncf_apply, mulf_apply, w21, broadcastInDim_apply _ _ _ _ (ix2 (0 : Fin 1) j) (fun a => match a with | ⟨0, _⟩ => rfl | ⟨1, _⟩ => rfl),
    tScale_apply]
  rfl

theorem v58 (c : Dev nD) (j : Fin 128) :
    (V13 (F := Ideal) m ρ c main_v58 : S1x128.Idx → EReal) (ix2 (0 : Fin 1) j)
      = Spec.biasOf (s1 m ρ c j) (s2 m ρ c j) (aG m c (ix1 j)) (aB1 m c (ix1 j)) (aBT m c (ix1 j)) := by
  -- the bias row with the normalisation folded in
  have e : (V13 (F := Ideal) m ρ c main_v58 : S1x128.Idx → EReal)
      = tBias (W12 (F := Ideal) m ρ c (Proc.devRef .tc main_v25_0)) (W12 (F := Ideal) m ρ c (Proc.devRef .tc main_v25_1))
          (W12 (F := Ideal) m ρ c (Proc.devRef .tc main_arg4)) (W12 (F := Ideal) m ρ c (Proc.devRef .tc main_arg3))
          (W12 (F := Ideal) m ρ c (Proc.devRef .tc main_arg5)) := by
    show StableHlo.after hostOps1 (W12 m ρ c) (Proc.devRef .tc main_v58) = _
    after_results_simp
    rfl
  rw [e, arg4, arg3, arg5, tBias_apply]
  rfl

theorem v59 (c : Dev nD) (j : Fin 128) :
    (V13 (F := Ideal) m ρ c main_v59 : S1x128.Idx → EReal) (ix2 (0 : Fin 1) j)
      = aW2 m c (ix2 j (0 : Fin 1)) := by
  -- the projection's column of 128 weights laid out as a row: both have the same row-major position j
  have e : (V13 (F := Ideal) m ρ c main_v59 : S1x128.Idx → EReal)
      = shapeCast S1x128 (W12 (F := Ideal) m ρ c (Proc.devRef .tc main_arg6) : S128x1.Idx → EReal) shapeCasts_S128x1_S1x128 := by
    show StableHlo.after hostOps1 (W12 m ρ c) (Proc.devRef .tc main_v59) = _
    after_results_simp
    rfl
  rw [e, arg6]
  refine shapeCast_apply _ _ _ (ix2 j (0 : Fin 1)) ?_
  rw [Shape.rowMajor_val_two, Shape.rowMajor_val_two]
  show j.val * 1 + 0 = 0 * 128 + j.val
  omega

theorem v60 (c : Dev nD) :
    (V13 (F := Ideal) m ρ c main_v60 : S1x1.Idx → EReal) (ix2 (0 : Fin 1) (0 : Fin 1))
      = aB2 m c (ix1 (0 : Fin 1)) := by
  -- the last operation of the stretch: the projection's bias, one word, given a leading unit axis
  have e : (V13 (F := Ideal) m ρ c main_v60 : S1x1.Idx → EReal)
      = shapeCast S1x1 (W12 (F := Ideal) m ρ c (Proc.devRef .tc main_arg7) : S1.Idx → EReal) shapeCasts_S1_S1x1 := by
    show StableHlo.after hostOps1 (W12 m ρ c) (Proc.devRef .tc main_v60) = _
    after_results_simp
    rfl
  rw [e, arg7]
  exact shapeCast_a_1a_apply _ _ _ _

end Cert.KernelIdeal.KHost2

end
-- ==== Proof.KValue.lean ====
/-
  The kernel program's run, read: its result array is the kernel formula of the argument arrays. The second
  region's result is the projected, rectified layer of what it was entered with; that is the gathered features,
  the attributes and the first layer's weights and bias with the normalisation folded in; the folding's scale
  and bias come from the two halves' sums the first region left, which are the block sums of the hidden layer
  of what the first region was entered with.
-/
import proofs.«416790_j18339510354271_3_alg».proof.Proof.KRun
import proofs.«416790_j18339510354271_3_alg».proof.Proof.KRegion0
import proofs.«416790_j18339510354271_3_alg».proof.Proof.KRegion1
import proofs.«416790_j18339510354271_3_alg».proof.Proof.KHost
import proofs.«416790_j18339510354271_3_alg».proof.Proof.KHost2

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.KernelIdeal.KHost

variable (m : (ℓ : Loc nD τ sig) → Buf (Elt Ideal) ℓ) (ρ : Dev nD → PrngReg)

/-- The first layer's two weight blocks and bias as the first region stages them. -/
abbrev wab (c : Dev nD) : Fin 128 → Fin 128 → EReal := fun k j => aW1 m c (ix2 (⟨k.val, by omega⟩ : Fin 132) j)
abbrev wc (c : Dev nD) : Fin 4 → Fin 128 → EReal := fun k j => aW1 m c (ix2 (⟨128 + k.val, by omega⟩ : Fin 132) j)
abbrev eaF (c : Dev nD) : Fin 1000000 → Fin 4 → EReal := fun e k => aEA m c (ix2 e k)
abbrev b1F (c : Dev nD) : Fin 128 → EReal := fun j => aB1 m c (ix1 j)

/-- The layer's row depends only on the values of its five operands. -/
theorem pre1_congr {zab zab' : Fin 128 → EReal} {ea ea' : Fin 4 → EReal} {wa wa' : Fin 128 → Fin 128 → EReal}
    {wb wb' : Fin 4 → Fin 128 → EReal} {b b' : Fin 128 → EReal} (h1 : zab = zab') (h2 : ea = ea') (h3 : wa = wa')
    (h4 : wb = wb') (h5 : b = b') (j : Fin 128) : Spec.pre1 zab ea wa wb b j = Spec.pre1 zab' ea' wa' wb' b' j := by
  subst h1 h2 h3 h4 h5; rfl

/-- An edge's output depends only on the values of its seven operands. -/
theorem finalOut_congr {zab zab' : Fin 128 → EReal} {ea ea' : Fin 4 → EReal} {wa wa' : Fin 128 → Fin 128 → EReal}
    {wb wb' : Fin 4 → Fin 128 → EReal} {b b' w2 w2' : Fin 128 → EReal} {b2 b2' : EReal} (h1 : zab = zab') (h2 : ea = ea')
    (h3 : wa = wa') (h4 : wb = wb') (h5 : b = b') (h6 : w2 = w2') (h7 : b2 = b2') :
    Spec.finalOut zab ea wa wb b w2 b2 = Spec.finalOut zab' ea' wa' wb' b' w2' b2' := by
  subst h1 h2 h3 h4 h5 h6 h7; rfl

/-- The hidden layer the first region sums is the layer of the gathered features. -/
theorem hid_eq (c : Dev nD) (e : Fin 1000000) (j : Fin 128) :
    R0.hid (V11 (F := Ideal) m ρ) c e j
      = Spec.pre1 (Spec.zabK (aZ m c) (aEI m c) e) (eaF m c e) (wab m c) (wc m c) (b1F m c) j := by
  unfold R0.hid
  exact pre1_congr (funext fun k => KHost.v18 m ρ c e k) (funext fun k => KHost.v19 m ρ c e k)
    (funext fun k => funext fun j => KHost.v22 m ρ c k j) (funext fun k => funext fun j => KHost.v23 m ρ c k j)
    (funext fun j => KHost.v24 m ρ c j) j

/-- The halves' sums the first region leaves are the block sums of that layer … -/
theorem s1_eq (c : Dev nD) (j : Fin 128) :
    KHost.s1 m ρ c j = Spec.kS1 (Spec.zabK (aZ m c) (aEI m c)) (eaF m c) (wab m c) (wc m c) (b1F m c) j := by
  funext cc
  unfold KHost.s1 Spec.kS1
  refine (congrFun (hF0 (F := Ideal) m ρ c 5) (ix3 cc (0 : Fin 8) j)).symm.trans ?_
  refine (R0.sum (V11 (F := Ideal) m ρ) c cc j).trans ?_
  exact congrArg (fun f => Spec.blockSum f cc) (funext fun e => hid_eq m ρ c e j)

/-- … and of its squares. -/
theorem s2_eq (c : Dev nD) (j : Fin 128) :
    KHost.s2 m ρ c j = Spec.kS2 (Spec.zabK (aZ m c) (aEI m c)) (eaF m c) (wab m c) (wc m c) (b1F m c) j := by
  funext cc
  unfold KHost.s2 Spec.kS2
  refine (congrFun (hF0 (F := Ideal) m ρ c 6) (ix3 cc (0 : Fin 8) j)).symm.trans ?_
  refine (R0.sumsq (V11 (F := Ideal) m ρ) c cc j).trans ?_
  exact congrArg (fun f => Spec.blockSum f cc) (funext fun e => by rw [hid_eq m ρ c e j])

/-- The second region's result array is its eighth window's array. -/
theorem arr7 : Pipeline.arrRef spec1 7 = main_v61 := rfl

/-- The result array at the last boundary is the kernel formula of the argument arrays. -/
theorem v61_eq (c : Dev nD) :
    W14 (F := Ideal) m ρ c (Proc.devRef .tc (Pipeline.arrRef spec1 7))
      = Spec.kernelResult (aZ m c) (aEA m c) (aW1 m c) (aB1 m c) (aG m c) (aBT m c) (aW2 m c) (aB2 m c) (aEI m c) := by
  rw [W14_arr (F := Ideal) m ρ c 7]
  refine (R1.value (V13 (F := Ideal) m ρ) c).trans ?_
  unfold Spec.kernelResult Spec.kOut
  refine congrArg Spec.outArr (funext fun e => ?_)
  refine finalOut_congr ?_ ?_ ?_ ?_ ?_ ?_ ?_
  · funext k; rw [KHost2.v18' m ρ c]; exact KHost.v18 m ρ c e k
  · funext k; rw [KHost2.v19' m ρ c]; exact KHost.v19 m ρ c e k
  · funext k j; rw [KHost2.v51 m ρ c k j, s1_eq m ρ c j, s2_eq m ρ c j]
  · funext k j; rw [KHost2.v54 m ρ c k j, s1_eq m ρ c j, s2_eq m ρ c j]
  · funext j; rw [KHost2.v58 m ρ c j, s1_eq m ρ c j, s2_eq m ρ c j]
  · funext j; exact KHost2.v59 m ρ c j
  · exact KHost2.v60 m ρ c

/-- The run: every weakly fair execution terminates with the result array at the kernel formula of the argument
    arrays, and the argument arrays as launched. -/
theorem run : θ_run defs (onTc (τ := τ) (main (F := Ideal))) ⟨m, fun _ => 0, ρ⟩ (fun r => ∀ c : Dev nD,
      r.2.mem ((c.tc : Thread nD τ).loc main_v61)
        = Spec.kernelResult (aZ m c) (aEA m c) (aW1 m c) (aB1 m c) (aG m c) (aBT m c) (aW2 m c) (aB2 m c) (aEI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (v61_eq m ρ c), (h c).2⟩) (KRun.run_out (F := Ideal) m ρ)

end Cert.KernelIdeal.KValue

end
-- ==== Proof.RefTermDense.lean ====
/-
  The reference's dense part as one function of the feature array and the layers' parameters: its host
  operations from the first linear layer to the result composed, in program order. The chain is cut into six
  stages (the linear layer; the column means; the centred variances; the normalised layer scaled and shifted;
  the leaky rectifier; the projection), each a short sequence of the program's operations under the names of
  the buffers they write, and the whole is their composition.
-/
import proofs.«416790_j18339510354271_3_alg».proof.ReferenceIdeal

noncomputable section

namespace Cert.ReferenceIdeal.RefTerm

open Idealize.ShloMosaic Cert.ReferenceIdeal Cert.ReferenceIdeal.Facts₀

variable {F : FTy → Type} [FloatOps F] [Cert.ReferenceIdeal.Facts]

/-- The linear layer and its bias: operations %28 … %31. -/
def Tpre (x : FVec F S1000000x132 .f32) (w1 : FVec F S132x128 .f32) (b1 : FVec F S128 .f32) : FVec F S1000000x128 .f32 :=
  let main_v28 : FVec F S1000000x128 .f32 := Host.dotGeneral dot_S1000000x132_S132x128_S1000000x128_1_0_0_1_n_n none x w1
  let main_v29 : FVec F S1x128 .f32 := broadcastInDim S1x128 ![1] bcast_S128_S1x128_1 b1
  let main_v30 : FVec F S1000000x128 .f32 := broadcastInDim S1000000x128 ![0, 1] bcast_S1x128_S1000000x128_0_1 main_v29
  let main_v31 : FVec F S1000000x128 .f32 := addf main_v28 main_v30
  main_v31

/-- The column means of the hidden layer: operations %cst … %34. -/
def Tmean (main_v31 : FVec F S1000000x128 .f32) : FVec F S128 .f32 :=
  let main_cst : FVec F S_ .f32 := constant S_ .f32 0x00000000#32
  let main_v32 : FVec F S128 .f32 := Host.reduceAdd main_v31 main_cst reducesTo_S1000000x128_S128_d0 h_S_
  let main_cst_9 : FVec F S_ .f32 := constant S_ .f32 0x49742400#32
  let main_v33 : FVec F S128 .f32 := broadcastInDim S128 ![] bcast_S_S128 main_cst_9
  let main_v34 : FVec F S128 .f32 := Host.divf main_v32 main_v33
  main_v34

/-- The centred variances: operations %35 … %41. -/
def Tvar (main_v31 : FVec F S1000000x128 .f32) (main_v34 : FVec F S128 .f32) : FVec F S128 .f32 :=
  let main_v35 : FVec F S1x128 .f32 := broadcastInDim S1x128 ![1] bcast_S128_S1x128_1 main_v34
  let main_v36 : FVec F S1000000x128 .f32 := broadcastInDim S1000000x128 ![0, 1] bcast_S1x128_S1000000x128_0_1 main_v35
  let main_v37 : FVec F S1000000x128 .f32 := subf main_v31 main_v36
  let main_v38 : FVec F S1000000x128 .f32 := mulf main_v37 main_v37
  let main_cst_10 : FVec F S_ .f32 := constant S_ .f32 0x00000000#32
  let main_v39 : FVec F S128 .f32 := Host.reduceAdd main_v38 main_cst_10 reducesTo_S1000000x128_S128_d0 h_S_
  let main_cst_11 : FVec F S_ .f32 := constant S_ .f32 0x49742400#32
  let main_v40 : FVec F S128 .f32 := broadcastInDim S128 ![] bcast_S_S128 main_cst_11
  let main_v41 : FVec F S128 .f32 := Host.divf main_v39 main_v40
  main_v41

/-- The layer centred, times the inverse root of variance plus epsilon, scaled and shifted: operations %42 … %56. -/
def Tnorm (main_v31 : FVec F S1000000x128 .f32) (main_v34 main_v41 g bt : FVec F S128 .f32) : FVec F S1000000x128 .f32 :=
  let main_v42 : FVec F S1x128 .f32 := broadcastInDim S1x128 ![1] bcast_S128_S1x128_1 main_v34
  let main_v43 : FVec F S1000000x128 .f32 := broadcastInDim S1000000x128 ![0, 1] bcast_S1x128_S1000000x128_0_1 main_v42
  let main_v44 : FVec F S1000000x128 .f32 := subf main_v31 main_v43
  let main_cst_12 : FVec F S_ .f32 := constant S_ .f32 0x3727C5AC#32
  let main_v45 : FVec F S128 .f32 := broadcastInDim S128 ![] bcast_S_S128 main_cst_12
  let main_v46 : FVec F S128 .f32 := addf main_v41 main_v45
  let main_v47 : FVec F S128 .f32 := Host.rsqrt main_v46
  let main_v48 : FVec F S1x128 .f32 := broadcastInDim S1x128 ![1] bcast_S128_S1x128_1 main_v47
  let main_v49 : FVec F S1000000x128 .f32 := broadcastInDim S1000000x128 ![0, 1] bcast_S1x128_S1000000x128_0_1 main_v48
  let main_v50 : FVec F S1000000x128 .f32 := mulf main_v44 main_v49
  let main_v51 : FVec F S1x128 .f32 := broadcastInDim S1x128 ![1] bcast_S128_S1x128_1 g
  let main_v52 : FVec F S1000000x128 .f32 := broadcastInDim S1000000x128 ![0, 1] bcast_S1x128_S1000000x128_0_1 main_v51
  let main_v53 : FVec F S1000000x128 .f32 := mulf main_v50 main_v52
  let main_v54 : FVec F S1x128 .f32 := broadcastInDim S1x128 ![1] bcast_S128_S1x128_1 bt
  let main_v55 : FVec F S1000000x128 .f32 := broadcastInDim S1000000x128 ![0, 1] bcast_S1x128_S1000000x128_0_1 main_v54
  let main_v56 : FVec F S1000000x128 .f32 := addf main_v53 main_v55
  main_v56

/-- The leaky rectifier: operations %cst_13 … %61 (the call's one select in place of the call). -/
def Tact (main_v56 : FVec F S1000000x128 .f32) : FVec F S1000000x128 .f32 :=
  let main_cst_13 : FVec F S_ .f32 := constant S_ .f32 0x00000000#32
  let main_v57 : FVec F S1000000x128 .f32 := broadcastInDim S1000000x128 ![] bcast_S_S1000000x128 main_cst_13
  let main_v58 : IVec S1000000x128 1 := cmpf .oge main_v56 main_v57
  let main_cst_14 : FVec F S_ .f32 := constant S_ .f32 0x3E4CCCCD#32
  let main_v59 : FVec F S1000000x128 .f32 := broadcastInDim S1000000x128 ![] bcast_S_S1000000x128 main_cst_14
  let main_v60 : FVec F S1000000x128 .f32 := mulf main_v59 main_v56
  let main_v61 : FVec F S1000000x128 .f32 := select main_v58 main_v56 main_v60
  main_v61

/-- The projection and its bias: operations %62 … %65. -/
def Tproj (main_v61 : FVec F S1000000x128 .f32) (w2 : FVec F S128x1 .f32) (b2 : FVec F S1 .f32) : FVec F S1000000x1 .f32 :=
  let main_v62 : FVec F S1000000x1 .f32 := Host.dotGeneral dot_S1000000x128_S128x1_S1000000x1_1_0_0_1_n_n none main_v61 w2
  let main_v63 : FVec F S1x1 .f32 := broadcastInDim S1x1 ![1] bcast_S1_S1x1_1 b2
  let main_v64 : FVec F S1000000x1 .f32 := broadcastInDim S1000000x1 ![0, 1] bcast_S1x1_S1000000x1_0_1 main_v63
  let main_v65 : FVec F S1000000x1 .f32 := addf main_v62 main_v64
  main_v65

/-- From the 132 features of every edge to the result: the six stages composed. -/
def Tdense (x : FVec F S1000000x132 .f32) (w1 : FVec F S132x128 .f32) (b1 g bt : FVec F S128 .f32)
    (w2 : FVec F S128x1 .f32) (b2 : FVec F S1 .f32) : FVec F S1000000x1 .f32 :=
  let main_v31 : FVec F S1000000x128 .f32 := Tpre x w1 b1
  let main_v34 : FVec F S128 .f32 := Tmean main_v31
  let main_v41 : FVec F S128 .f32 := Tvar main_v31 main_v34
  let main_v56 : FVec F S1000000x128 .f32 := Tnorm main_v31 main_v34 main_v41 g bt
  let main_v61 : FVec F S1000000x128 .f32 := Tact main_v56
  Tproj main_v61 w2 b2

end Cert.ReferenceIdeal.RefTerm

end
-- ==== Proof.RefTerm.lean ====
/-
  The reference as one function of its argument arrays: its host operations composed, in program order. The 132
  features of every edge first (the row numbers from the edge words, the two gathers, the join with the attributes),
  then the dense layers applied to them.
-/
import proofs.«416790_j18339510354271_3_alg».proof.ReferenceIdeal
import proofs.«416790_j18339510354271_3_alg».proof.Proof.RefTermDense

noncomputable section

namespace Cert.ReferenceIdeal.RefTerm

open Idealize.ShloMosaic Cert.ReferenceIdeal Cert.ReferenceIdeal.Facts₀

variable {F : FTy → Type} [FloatOps F] [Cert.ReferenceIdeal.Facts]

/-- The floored quotient of every word of `x` by the scalar `c` (the outlined `floor_divide`): the truncated quotient,
    less one where the signs of word and divisor differ and the remainder is not zero. -/
def floorDivide (x : IVec S1000000 32) (c : IVec S_ 32) : IVec S1000000 32 :=
  let v0 : IVec S_ 32 := id c
  let v1 : IVec S1000000 32 := broadcastInDim S1000000 ![] bcast_S_S1000000 v0
  let v2 : IVec S1000000 32 := Host.divsi x v1
  let v3 : IVec S1000000 32 := signi x
  let v4 : IVec S_ 32 := signi v0
  let v5 : IVec S1000000 32 := broadcastInDim S1000000 ![] bcast_S_S1000000 v4
  let v6 : IVec S1000000 1 := cmpi .ne v3 v5
  let v7 : IVec S1000000 32 := broadcastInDim S1000000 ![] bcast_S_S1000000 v0
  let v8 : IVec S1000000 32 := Host.remsi x v7
  let c0 : IVec S_ 32 := constantI S_ 32 0#32
  let v9 : IVec S1000000 32 := broadcastInDim S1000000 ![] bcast_S_S1000000 c0
  let v10 : IVec S1000000 1 := cmpi .ne v8 v9
  let v11 : IVec S1000000 1 := andi v6 v10
  let c_0 : IVec S_ 32 := constantI S_ 32 1#32
  let v12 : IVec S1000000 32 := broadcastInDim S1000000 ![] bcast_S_S1000000 c_0
  let v13 : IVec S1000000 32 := subi v2 v12
  select v11 v13 v2

/-- Every word of `x` clamped between the scalars `lo` and `hi` (the outlined `clip`). -/
def clip (x : IVec S1000000 32) (lo hi : IVec S_ 32) : IVec S1000000 32 :=
  let v0 : IVec S_ 32 := id lo
  let v1 : IVec S1000000 32 := broadcastInDim S1000000 ![] bcast_S_S1000000 v0
  let v2 : IVec S1000000 32 := maxsi v1 x
  let v3 : IVec S_ 32 := id hi
  let v4 : IVec S1000000 32 := broadcastInDim S1000000 ![] bcast_S_S1000000 v3
  minsi v4 v2

/-- The floored remainder of every word of `x` by the scalar `c` (the outlined `remainder`): the divisor replaced by one
    when it is zero, the truncated remainder, moved up by the divisor where it is not zero and its sign differs from
    the divisor's. -/
def remainder (x : IVec S1000000 32) (c : IVec S_ 32) : IVec S1000000 32 :=
  let v0 : IVec S_ 32 := id c
  let c0 : IVec S_ 32 := constantI S_ 32 0#32
  let v1 : IVec S_ 1 := cmpi .eq v0 c0
  let c_0 : IVec S_ 32 := constantI S_ 32 1#32
  let v2 : IVec S_ 32 := select v1 c_0 v0
  let v3 : IVec S1000000 32 := broadcastInDim S1000000 ![] bcast_S_S1000000 v2
  let v4 : IVec S1000000 32 := Host.remsi x v3
  let c_1 : IVec S_ 32 := constantI S_ 32 0#32
  let v5 : IVec S1000000 32 := broadcastInDim S1000000 ![] bcast_S_S1000000 c_1
  let v6 : IVec S1000000 1 := cmpi .ne v4 v5
  let c_2 : IVec S_ 32 := constantI S_ 32 0#32
  let v7 : IVec S1000000 32 := broadcastInDim S1000000 ![] bcast_S_S1000000 c_2
  let v8 : IVec S1000000 1 := cmpi .slt v4 v7
  let c_3 : IVec S_ 32 := constantI S_ 32 0#32
  let v9 : IVec S_ 1 := cmpi .slt v2 c_3
  let v10 : IVec S1000000 1 := broadcastInDim S1000000 ![] bcast_S_S1000000 v9
  let v11 : IVec S1000000 1 := cmpi .ne v8 v10
  let v12 : IVec S1000000 1 := andi v11 v6
  let v13 : IVec S1000000 32 := broadcastInDim S1000000 ![] bcast_S_S1000000 v2
  let v14 : IVec S1000000 32 := addi v4 v13
  select v12 v14 v4

/-- Row numbers as start indices of a gather: a negative one counted from the table's end (65536 added), then laid
    out as a column. -/
def startIdx (w : IVec S1000000 32) : IVec S1000000x1 32 :=
  let c0 : IVec S_ 32 := constantI S_ 32 0#32
  let v13 : IVec S1000000 32 := broadcastInDim S1000000 ![] bcast_S_S1000000 c0
  let v14 : IVec S1000000 1 := cmpi .slt w v13
  let c6 : IVec S_ 32 := constantI S_ 32 65536#32
  let v15 : IVec S1000000 32 := broadcastInDim S1000000 ![] bcast_S_S1000000 c6
  let v16 : IVec S1000000 32 := addi w v15
  let v17 : IVec S1000000 32 := select v14 v16 w
  broadcastInDim S1000000x1 ![0] bcast_S1000000_S1000000x1_0 v17

/-- The source endpoint's and the destination endpoint's row number of every edge, from the two rows of edge words:
    the word's floored remainder by 2048 plus 2048 times the source word's floored quotient clamped to [0, 31]. -/
def rowNumbers (ei : IVec S2x1000000 32) : IVec S1000000 32 × IVec S1000000 32 :=
  let main_v1 : IVec S1x1000000 32 := extractStridedSlice S1x1000000 ![0, 0] ei slices_S2x1000000_S1x1000000_0_0
  let main_v2 : IVec S1000000 32 := shapeCast S1000000 main_v1 shapeCasts_S1x1000000_S1000000
  let main_v3 : IVec S1x1000000 32 := extractStridedSlice S1x1000000 ![1, 0] ei slices_S2x1000000_S1x1000000_1_0
  let main_v4 : IVec S1000000 32 := shapeCast S1000000 main_v3 shapeCasts_S1x1000000_S1000000
  let main_c : IVec S_ 32 := constantI S_ 32 2048#32
  let main_v5 : IVec S1000000 32 := floorDivide main_v2 main_c
  let main_c_0 : IVec S_ 32 := constantI S_ 32 0#32
  let main_c_1 : IVec S_ 32 := constantI S_ 32 31#32
  let main_v6 : IVec S1000000 32 := clip main_v5 main_c_0 main_c_1
  let main_c_2 : IVec S_ 32 := constantI S_ 32 2048#32
  let main_v7 : IVec S1000000 32 := broadcastInDim S1000000 ![] bcast_S_S1000000 main_c_2
  let main_v8 : IVec S1000000 32 := muli main_v6 main_v7
  let main_c_3 : IVec S_ 32 := constantI S_ 32 2048#32
  let main_v9 : IVec S1000000 32 := remainder main_v2 main_c_3
  let main_v10 : IVec S1000000 32 := addi main_v9 main_v8
  let main_c_4 : IVec S_ 32 := constantI S_ 32 2048#32
  let main_v11 : IVec S1000000 32 := remainder main_v4 main_c_4
  let main_v12 : IVec S1000000 32 := addi main_v11 main_v8
  (main_v10, main_v12)

/-- The reference's 132 features of every edge (its values `%0` … `%27`): the table as 65536 rows, the source and the
    destination endpoint's rows gathered from it, joined with the 4 edge attributes. -/
def Tfeat (z : FVec F S32x2048x64 .f32) (ea : FVec F S1000000x4 .f32) (ei : IVec S2x1000000 32) : FVec F S1000000x132 .f32 :=
  let main_v0 : FVec F S65536x64 .f32 := shapeCast S65536x64 z shapeCasts_S32x2048x64_S65536x64
  let main_v10 : IVec S1000000 32 := (rowNumbers ei).1
  let main_v12 : IVec S1000000 32 := (rowNumbers ei).2
  let main_v18 : IVec S1000000x1 32 := startIdx main_v10
  let main_v19 : FVec F S1000000x64 .f32 := Host.gather gather_S65536x64_S1000000x1_S1000000x64_1_0_n_n_0_1_164 main_v0 main_v18
  let main_v25 : IVec S1000000x1 32 := startIdx main_v12
  let main_v26 : FVec F S1000000x64 .f32 := Host.gather gather_S65536x64_S1000000x1_S1000000x64_1_0_n_n_0_1_164 main_v0 main_v25
  concatenate S1000000x132 1 [⟨S1000000x64, main_v19⟩, ⟨S1000000x64, main_v26⟩, ⟨S1000000x4, ea⟩] concatenates_S1000000x64_S1000000x64_S1000000x4_S1000000x132_d1

/-- The reference's result as the composed term of its operations over the nine argument arrays. -/
def T (z : FVec F S32x2048x64 .f32) (ea : FVec F S1000000x4 .f32) (w1 : FVec F S132x128 .f32) (b1 g bt : FVec F S128 .f32)
    (w2 : FVec F S128x1 .f32) (b2 : FVec F S1 .f32) (ei : IVec S2x1000000 32) : FVec F S1000000x1 .f32 :=
  Tdense (Tfeat z ea ei) w1 b1 g bt w2 b2

end Cert.ReferenceIdeal.RefTerm

end
-- ==== Proof.RefRun.lean ====
/-
  The reference program's run. Its @main is a straight line of host operations: the calls it makes are to
  functions that are themselves straight lines, so with each callee's operations written at its call site, over
  that call's own buffers, the whole program is one list. Running the list from any memory ends with every buffer
  at the fold of the operations' results over what the device held at launch; at an argument's buffer that fold is
  what was there (no operation writes an argument), and at the result's buffer it is the operations composed.
-/
import proofs.«416790_j18339510354271_3_alg».proof.ReferenceIdeal
import proofs.«416790_j18339510354271_3_alg».proof.Proof.Gen.ReferenceIdeal
import proofs.«416790_j18339510354271_3_alg».proof.Proof.RefTerm
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀

variable {F : FTy → Type} [FloatOps F] [Cert.ReferenceIdeal.Facts]

/-- @main's operations in order, each call replaced by its callee's operations over the call's buffers.
    The floored quotient by 2048 is sixteen operations and the select that ends it; the clamp to [0, 31] six; each
    floored remainder by 2048 twenty-one (the divisor with 1 in place of 0, the truncated remainder, the test of
    its sign against the divisor's, the corrected value, the select); the leaky rectifier's select one. Around them
    @main's own seventy-eight: the table laid out as 65,536 rows, the two rows of words, the row numbers and their
    wrap from the end, the two gathers, the join with the attributes, the layer, the two reductions of the batch
    normalisation, the rectifier's two branches, the projection. -/
abbrev ops : List (HloOp τ sig (Elt F)) :=
  [ StableHlo.reshape main_arg0 main_v0 rfl shapeCasts_S32x2048x64_S65536x64,
    StableHlo.unary main_arg8 main_v1 (extractStridedSlice S1x1000000 ![0, 0] · slices_S2x1000000_S1x1000000_0_0),
    StableHlo.reshape main_v1 main_v2 rfl shapeCasts_S1x1000000_S1000000,
    StableHlo.unary main_arg8 main_v3 (extractStridedSlice S1x1000000 ![1, 0] · slices_S2x1000000_S1x1000000_1_0),
    StableHlo.reshape main_v3 main_v4 rfl shapeCasts_S1x1000000_S1000000,
    StableHlo.nullary main_c (constantI S_ 32 2048#32),
    -- the floored quotient of the source words by 2048
    TRef.unary (.of main_c) main_call0.v0 id,
    TRef.unary main_call0.v0 main_call0.v1 (broadcastInDim S1000000 ![] bcast_S_S1000000),
    TRef.binary (.of main_v2) main_call0.v1 main_call0.v2 Host.divsi,
    TRef.unary (.of main_v2) main_call0.v3 signi,
    TRef.unary main_call0.v0 main_call0.v4 signi,
    TRef.unary main_call0.v4 main_call0.v5 (broadcastInDim S1000000 ![] bcast_S_S1000000),
    TRef.binary main_call0.v3 main_call0.v5 main_call0.v6 (cmpi .ne),
    TRef.unary main_call0.v0 main_call0.v7 (broadcastInDim S1000000 ![] bcast_S_S1000000),
    TRef.binary (.of main_v2) main_call0.v7 main_call0.v8 Host.remsi,
    TRef.nullary main_call0.c (constantI S_ 32 0#32),
    TRef.unary main_call0.c main_call0.v9 (broadcastInDim S1000000 ![] bcast_S_S1000000),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1000000 ![] bcast_S_S1000000),
    TRef.binary main_call0.v2 main_call0.v12 main_call0.v13 subi,
    TRef.ternary main_call0.v11 main_call0.v13 main_call0.v2 main_call0.call0.v0 select,
    StableHlo.nullary main_c_0 (constantI S_ 32 0#32),
    StableHlo.nullary main_c_1 (constantI S_ 32 31#32),
    -- the quotient clamped to [0, 31]
    TRef.unary (.of main_c_0) main_call1.v0 id,
    TRef.unary main_call1.v0 main_call1.v1 (broadcastInDim S1000000 ![] bcast_S_S1000000),
    TRef.binary main_call1.v1 (.of main_v5) main_call1.v2 maxsi,
    TRef.unary (.of main_c_1) main_call1.v3 id,
    TRef.unary main_call1.v3 main_call1.v4 (broadcastInDim S1000000 ![] bcast_S_S1000000),
    TRef.binary main_call1.v4 main_call1.v2 main_call1.v5 minsi,
    StableHlo.nullary main_c_2 (constantI S_ 32 2048#32),
    StableHlo.unary main_c_2 main_v7 (broadcastInDim S1000000 ![] bcast_S_S1000000),
    StableHlo.binary main_v6 main_v7 main_v8 muli,
    StableHlo.nullary main_c_3 (constantI S_ 32 2048#32),
    -- the floored remainder of the source words by 2048
    TRef.unary (.of main_c_3) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S1000000 ![] bcast_S_S1000000),
    TRef.binary (.of main_v2) main_call2.v3 main_call2.v4 Host.remsi,
    TRef.nullary main_call2.c_1 (constantI S_ 32 0#32),
    TRef.unary main_call2.c_1 main_call2.v5 (broadcastInDim S1000000 ![] bcast_S_S1000000),
    TRef.binary main_call2.v4 main_call2.v5 main_call2.v6 (cmpi .ne),
    TRef.nullary main_call2.c_2 (constantI S_ 32 0#32),
    TRef.unary main_call2.c_2 main_call2.v7 (broadcastInDim S1000000 ![] bcast_S_S1000000),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S1000000 ![] bcast_S_S1000000),
    TRef.binary main_call2.v8 main_call2.v10 main_call2.v11 (cmpi .ne),
    TRef.binary main_call2.v11 main_call2.v6 main_call2.v12 andi,
    TRef.unary main_call2.call0.v0 main_call2.v13 (broadcastInDim S1000000 ![] bcast_S_S1000000),
    TRef.binary main_call2.v4 main_call2.v13 main_call2.v14 addi,
    TRef.ternary main_call2.v12 main_call2.v14 main_call2.v4 main_call2.v15 select,
    StableHlo.binary main_v9 main_v8 main_v10 addi,
    StableHlo.nullary main_c_4 (constantI S_ 32 2048#32),
    -- the floored remainder of the destination words by 2048
    TRef.unary (.of main_c_4) main_call3.v0 id,
    TRef.nullary main_call3.c (constantI S_ 32 0#32),
    TRef.binary main_call3.v0 main_call3.c main_call3.v1 (cmpi .eq),
    TRef.nullary main_call3.c_0 (constantI S_ 32 1#32),
    TRef.ternary main_call3.v1 main_call3.c_0 main_call3.v0 main_call3.call0.v0 select,
    TRef.unary main_call3.call0.v0 main_call3.v3 (broadcastInDim S1000000 ![] bcast_S_S1000000),
    TRef.binary (.of main_v4) main_call3.v3 main_call3.v4 Host.remsi,
    TRef.nullary main_call3.c_1 (constantI S_ 32 0#32),
    TRef.unary main_call3.c_1 main_call3.v5 (broadcastInDim S1000000 ![] bcast_S_S1000000),
    TRef.binary main_call3.v4 main_call3.v5 main_call3.v6 (cmpi .ne),
    TRef.nullary main_call3.c_2 (constantI S_ 32 0#32),
    TRef.unary main_call3.c_2 main_call3.v7 (broadcastInDim S1000000 ![] bcast_S_S1000000),
    TRef.binary main_call3.v4 main_call3.v7 main_call3.v8 (cmpi .slt),
    TRef.nullary main_call3.c_3 (constantI S_ 32 0#32),
    TRef.binary main_call3.call0.v0 main_call3.c_3 main_call3.v9 (cmpi .slt),
    TRef.unary main_call3.v9 main_call3.v10 (broadcastInDim S1000000 ![] bcast_S_S1000000),
    TRef.binary main_call3.v8 main_call3.v10 main_call3.v11 (cmpi .ne),
    TRef.binary main_call3.v11 main_call3.v6 main_call3.v12 andi,
    TRef.unary main_call3.call0.v0 main_call3.v13 (broadcastInDim S1000000 ![] bcast_S_S1000000),
    TRef.binary main_call3.v4 main_call3.v13 main_call3.v14 addi,
    TRef.ternary main_call3.v12 main_call3.v14 main_call3.v4 main_call3.v15 select,
    StableHlo.binary main_v11 main_v8 main_v12 addi,
    -- the source row number, counted from the table's end when negative, and its row
    StableHlo.nullary main_c_5 (constantI S_ 32 0#32),
    StableHlo.unary main_c_5 main_v13 (broadcastInDim S1000000 ![] bcast_S_S1000000),
    StableHlo.binary main_v10 main_v13 main_v14 (cmpi .slt),
    StableHlo.nullary main_c_6 (constantI S_ 32 65536#32),
    StableHlo.unary main_c_6 main_v15 (broadcastInDim S1000000 ![] bcast_S_S1000000),
    StableHlo.binary main_v10 main_v15 main_v16 addi,
    StableHlo.ternary main_v14 main_v16 main_v10 main_v17 select,
    StableHlo.unary main_v17 main_v18 (broadcastInDim S1000000x1 ![0] bcast_S1000000_S1000000x1_0),
    StableHlo.binary main_v0 main_v18 main_v19 (fun x i => Host.gather gather_S65536x64_S1000000x1_S1000000x64_1_0_n_n_0_1_164 x i),
    -- the destination row number likewise, and its row
    StableHlo.nullary main_c_7 (constantI S_ 32 0#32),
    StableHlo.unary main_c_7 main_v20 (broadcastInDim S1000000 ![] bcast_S_S1000000),
    StableHlo.binary main_v12 main_v20 main_v21 (cmpi .slt),
    StableHlo.nullary main_c_8 (constantI S_ 32 65536#32),
    StableHlo.unary main_c_8 main_v22 (broadcastInDim S1000000 ![] bcast_S_S1000000),
    StableHlo.binary main_v12 main_v22 main_v23 addi,
    StableHlo.ternary main_v21 main_v23 main_v12 main_v24 select,
    StableHlo.unary main_v24 main_v25 (broadcastInDim S1000000x1 ![0] bcast_S1000000_S1000000x1_0),
    StableHlo.binary main_v0 main_v25 main_v26 (fun x i => Host.gather gather_S65536x64_S1000000x1_S1000000x64_1_0_n_n_0_1_164 x i),
    -- the 132 features, the layer and its bias
    StableHlo.nary ![main_v19, main_v26, main_arg1] main_v27 (fun u => concatenate S1000000x132 1 [⟨S1000000x64, u 0⟩, ⟨S1000000x64, u 1⟩, ⟨S1000000x4, u 2⟩] concatenates_S1000000x64_S1000000x64_S1000000x4_S1000000x132_d1),
    StableHlo.binary main_v27 main_arg2 main_v28 (fun l r => Host.dotGeneral dot_S1000000x132_S132x128_S1000000x128_1_0_0_1_n_n none l r),
    StableHlo.unary main_arg3 main_v29 (broadcastInDim S1x128 ![1] bcast_S128_S1x128_1),
    StableHlo.unary main_v29 main_v30 (broadcastInDim S1000000x128 ![0, 1] bcast_S1x128_S1000000x128_0_1),
    StableHlo.binary main_v28 main_v30 main_v31 addf,
    -- the column means
    StableHlo.nullary main_cst (constant (F := F) S_ .f32 0x00000000#32),
    StableHlo.binary main_v31 main_cst main_v32 (fun x v => Host.reduceAdd x v reducesTo_S1000000x128_S128_d0 h_S_),
    StableHlo.nullary main_cst_9 (constant (F := F) S_ .f32 0x49742400#32),
    StableHlo.unary main_cst_9 main_v33 (broadcastInDim S128 ![] bcast_S_S128),
    StableHlo.binary main_v32 main_v33 main_v34 Host.divf,
    -- the centred squares and the column variances
    StableHlo.unary main_v34 main_v35 (broadcastInDim S1x128 ![1] bcast_S128_S1x128_1),
    StableHlo.unary main_v35 main_v36 (broadcastInDim S1000000x128 ![0, 1] bcast_S1x128_S1000000x128_0_1),
    StableHlo.binary main_v31 main_v36 main_v37 subf,
    StableHlo.binary main_v37 main_v37 main_v38 mulf,
    StableHlo.nullary main_cst_10 (constant (F := F) S_ .f32 0x00000000#32),
    StableHlo.binary main_v38 main_cst_10 main_v39 (fun x v => Host.reduceAdd x v reducesTo_S1000000x128_S128_d0 h_S_),
    StableHlo.nullary main_cst_11 (constant (F := F) S_ .f32 0x49742400#32),
    StableHlo.unary main_cst_11 main_v40 (broadcastInDim S128 ![] bcast_S_S128),
    StableHlo.binary main_v39 main_v40 main_v41 Host.divf,
    -- the normalised layer: centred, scaled by the inverse root, by the gain, moved by the offset
    StableHlo.unary main_v34 main_v42 (broadcastInDim S1x128 ![1] bcast_S128_S1x128_1),
    StableHlo.unary main_v42 main_v43 (broadcastInDim S1000000x128 ![0, 1] bcast_S1x128_S1000000x128_0_1),
    StableHlo.binary main_v31 main_v43 main_v44 subf,
    StableHlo.nullary main_cst_12 (constant (F := F) S_ .f32 0x3727C5AC#32),
    StableHlo.unary main_cst_12 main_v45 (broadcastInDim S128 ![] bcast_S_S128),
    StableHlo.binary main_v41 main_v45 main_v46 addf,
    StableHlo.unary main_v46 main_v47 Host.rsqrt,
    StableHlo.unary main_v47 main_v48 (broadcastInDim S1x128 ![1] bcast_S128_S1x128_1),
    StableHlo.unary main_v48 main_v49 (broadcastInDim S1000000x128 ![0, 1] bcast_S1x128_S1000000x128_0_1),
    StableHlo.binary main_v44 main_v49 main_v50 mulf,
    StableHlo.unary main_arg4 main_v51 (broadcastInDim S1x128 ![1] bcast_S128_S1x128_1),
    StableHlo.unary main_v51 main_v52 (broadcastInDim S1000000x128 ![0, 1] bcast_S1x128_S1000000x128_0_1),
    StableHlo.binary main_v50 main_v52 main_v53 mulf,
    StableHlo.unary main_arg5 main_v54 (broadcastInDim S1x128 ![1] bcast_S128_S1x128_1),
    StableHlo.unary main_v54 main_v55 (broadcastInDim S1000000x128 ![0, 1] bcast_S1x128_S1000000x128_0_1),
    StableHlo.binary main_v53 main_v55 main_v56 addf,
    -- the leaky rectifier
    StableHlo.nullary main_cst_13 (constant (F := F) S_ .f32 0x00000000#32),
    StableHlo.unary main_cst_13 main_v57 (broadcastInDim S1000000x128 ![] bcast_S_S1000000x128),
    StableHlo.binary main_v56 main_v57 main_v58 (cmpf .oge),
    StableHlo.nullary main_cst_14 (constant (F := F) S_ .f32 0x3E4CCCCD#32),
    StableHlo.unary main_cst_14 main_v59 (broadcastInDim S1000000x128 ![] bcast_S_S1000000x128),
    StableHlo.binary main_v59 main_v56 main_v60 mulf,
    TRef.ternary (.of main_v58) (.of main_v56) (.of main_v60) main_call4.v0 select,
    -- the projection and its bias
    StableHlo.binary main_v61 main_arg6 main_v62 (fun l r => Host.dotGeneral dot_S1000000x128_S128x1_S1000000x1_1_0_0_1_n_n none l r),
    StableHlo.unary main_arg7 main_v63 (broadcastInDim S1x1 ![1] bcast_S1_S1x1_1),
    StableHlo.unary main_v63 main_v64 (broadcastInDim S1000000x1 ![0, 1] bcast_S1x1_S1000000x1_0_1),
    StableHlo.binary main_v62 main_v64 main_v65 addf ]

-- a hundred and forty-four binds re-associated: the rewrite under the chain recurses once per statement
set_option maxRecDepth 8192 in
set_option maxHeartbeats 4000000 in
/-- @main is that straight line: its two windows in order, each function's definition unfolded at its call and
    each record at its fields; once sequencing is re-associated both sides are one chain of steps. -/
theorem main_eq (c : Dev nD) : main (F := F) c = seq ops := by
  simp only [main, main_part0, main_part1, fn_floor_divide.body, fn_clip.body, fn_remainder.body, fn_where.body,
    fn_where_0.body, fn_where_1.body, seq, bind_assoc, pure_bind]
  rfl

/-- The signature scopes no TensorCore buffer … -/
theorem scopedRefs_eq : (Finset.univ.filter fun b : Ref sig .tc => b.isScoped) = ∅ := by decide
/-- … and no semaphore: every buffer is a tensor value of @main. -/
theorem scopedSems_eq : (Finset.univ.filter fun sm : SemLoc sig => sm.isScoped .tc) = ∅ := by decide

/-- Every operation touches TensorCore references only: one fact per operation, by its operand count. -/
theorem ops_sub : (ops : List (HloOp τ sig (Elt F))).Forall fun op => op.bufs ⊆ tcRefs τ sig :=
  ⟨reshape_bufs_sub .., unary_bufs_sub .., reshape_bufs_sub .., unary_bufs_sub .., reshape_bufs_sub .., nullary_bufs_sub ..,
    -- the floored quotient
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., nullary_bufs_sub ..,
    -- the clamp
    unary_bufs_sub .., unary_bufs_sub .., binary_bufs_sub .., unary_bufs_sub .., unary_bufs_sub .., binary_bufs_sub ..,
    nullary_bufs_sub .., unary_bufs_sub .., binary_bufs_sub .., nullary_bufs_sub ..,
    -- the source words' remainder
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    binary_bufs_sub .., nullary_bufs_sub ..,
    -- the destination words' remainder
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    binary_bufs_sub ..,
    -- the two row numbers and their rows
    nullary_bufs_sub .., unary_bufs_sub .., binary_bufs_sub .., nullary_bufs_sub .., unary_bufs_sub .., binary_bufs_sub ..,
    ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub ..,
    -- the features, the layer, its bias
    nary_bufs_sub .., binary_bufs_sub .., unary_bufs_sub .., unary_bufs_sub .., binary_bufs_sub ..,
    -- the means
    nullary_bufs_sub .., binary_bufs_sub .., nullary_bufs_sub .., unary_bufs_sub .., binary_bufs_sub ..,
    -- the variances
    unary_bufs_sub .., unary_bufs_sub .., binary_bufs_sub .., binary_bufs_sub .., nullary_bufs_sub .., binary_bufs_sub ..,
    nullary_bufs_sub .., unary_bufs_sub .., binary_bufs_sub ..,
    -- the normalised layer
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..,
    -- the rectifier
    nullary_bufs_sub .., unary_bufs_sub .., binary_bufs_sub .., nullary_bufs_sub .., unary_bufs_sub .., binary_bufs_sub ..,
    ternary_bufs_sub ..,
    -- the projection
    binary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument's buffer: the fold there is what was there. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-! ## The result: the operations composed -/

/-- A concatenation of three pieces is a function of the pieces. Stated as a rule for rewriting inside it: an
    entry of the list carries its own shape, so its contents' type depends on the entry, and a rewriting pass does
    not enter the list by itself. -/
theorem concatenate3_congr {α : Type} {t : Shape} {a : Fin t.rank} {s₁ s₂ s₃ : Shape}
    {x x' : s₁.Idx → α} {y y' : s₂.Idx → α} {z z' : s₃.Idx → α} (h : Shape.Concatenates [s₁, s₂, s₃] t a)
    (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz; rfl

/-- The join of the two gathered rows and the attributes leaves, at its result, the concatenation of the three
    operands' contents, each read at its own reference. -/
theorem v27_result (G : Valuation τ sig (Elt F)) :
    (StableHlo.nary (τ := τ) ![main_v19, main_v26, main_arg1] main_v27 (fun u => concatenate S1000000x132 1 [⟨S1000000x64, u 0⟩, ⟨S1000000x64, u 1⟩, ⟨S1000000x4, u 2⟩] concatenates_S1000000x64_S1000000x64_S1000000x4_S1000000x132_d1)).result G (no_index (Proc.devRef .tc main_v27))
      = concatenate S1000000x132 1 [⟨S1000000x64, G (Proc.devRef .tc main_v19)⟩, ⟨S1000000x64, G (Proc.devRef .tc main_v26)⟩, ⟨S1000000x4, G (Proc.devRef .tc main_arg1)⟩] concatenates_S1000000x64_S1000000x64_S1000000x4_S1000000x132_d1 :=
  (nary_result _ _ _ _ _ G).trans rfl

attribute [local congr] concatenate3_congr in
attribute [local irreducible] Host.gather Host.reduceAdd concatenate in
set_option maxRecDepth 8192 in
set_option maxHeartbeats 4000000 in
/-- At the result's buffer the fold is the operations composed: each operation's result read at its own buffer is
    its function of its operands' contents, and at any other buffer what was there, back to the arguments. What is
    left differs from the composed term only in how it is spelled (a callee's value carried to and from its
    buffer's own type, the identity at these literal buffers), so the two are equal by computation. The gathers,
    the reductions and the join stay folded meanwhile: the equation never looks inside them. -/
theorem out_eq (V : Valuation τ sig (Elt F)) :
    after ops V (main_v65 : DevRef τ sig)
      = RefTerm.T (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp (disch := decide) only [after_cons, after_nil,
    nullary_result', unary_result', binary_result', ternary_result', reshape_result', v27_result,
    nullary_result_ne', unary_result_ne', binary_result_ne', ternary_result_ne', reshape_result_ne', nary_result_ne']
  simp only [TRef.ofBuf, TRef.toBuf, cast_eq]
  rfl

end Cert.ReferenceIdeal.RefRun

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.RefDense.lean ====
/-
  The reference's dense part read at an index: at the ideal values each of its six stages is, entry by entry,
  the formula of the specification — the linear layer a sum over the 132 features plus the bias; a column's
  mean and centred variance the sums over the 1,000,000 edges divided by their number; the normalised layer
  the centred entry times the inverse root of variance plus epsilon, scaled and shifted; the rectifier the
  specification's; the projection a sum over the 128 columns plus the bias.
-/
import proofs.«416790_j18339510354271_3_alg».proof.Proof.RefTermDense
import proofs.«416790_j18339510354271_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.ReferenceIdeal.RefDense

open Idealize.ShloMosaic Idealize.ShloMosaic.ValueIdx Cert.ReferenceIdeal Cert.ReferenceIdeal.Facts₀

variable [Cert.ReferenceIdeal.Facts]

/-! ## Broadcasts -/

/-- A 128-vector made a row and broadcast down the 1,000,000 rows reads, at row `e` and column `j`, its entry `j`. -/
theorem bcastCol_apply {α : Type} (v : S128.Idx → α) (e : Fin 1000000) (j : Fin 128) :
    broadcastInDim S1000000x128 ![0, 1] bcast_S1x128_S1000000x128_0_1 (broadcastInDim S1x128 ![1] bcast_S128_S1x128_1 v) (ix2 e j)
      = v (ix1 j) := by
  rw [broadcastInDim_oneRow_apply bcast_S1x128_S1000000x128_0_1]
  refine broadcastInDim_apply ![1] bcast_S128_S1x128_1 v (ix2 (0 : Fin 1) j) (ix1 j) ?_
  intro a
  match a with
  | ⟨0, _⟩ => rfl

/-- The one-entry bias made a 1 × 1 matrix and broadcast down the rows reads that entry everywhere. -/
theorem bcastOne_apply {α : Type} (v : S1.Idx → α) (e : Fin 1000000) (q : Fin 1) :
    broadcastInDim S1000000x1 ![0, 1] bcast_S1x1_S1000000x1_0_1 (broadcastInDim S1x1 ![1] bcast_S1_S1x1_1 v) (ix2 e q)
      = v (ix1 (0 : Fin 1)) := by
  rw [broadcastInDim_oneRow_apply bcast_S1x1_S1000000x1_0_1]
  refine broadcastInDim_apply ![1] bcast_S1_S1x1_1 v (ix2 (0 : Fin 1) q) (ix1 (0 : Fin 1)) ?_
  intro a
  match a with
  | ⟨0, _⟩ => rfl

/-! ## The host's operations on columns, read at an index -/

/-- The host's inverse root at an index is the ideal instance's inverse root of the entry. -/
theorem hostRsqrt_apply {s : Shape} {φ : FTy} (a : FVec Ideal s φ) (i : s.Idx) : Host.rsqrt a i = Ideal.rsqrt (a i) := rfl

/-- The host's sum over the rows of a 1,000,000 × 128 array, started from the zero word, read at column `j`: the sum
    of that column's entries. -/
theorem colSum_apply (h : FVec Ideal S1000000x128 .f32) (j : Fin 128) :
    Host.reduceAdd (F := Ideal) h (constant (F := Ideal) S_ .f32 0x00000000#32) reducesTo_S1000000x128_S128_d0 h_S_ (ix1 j)
      = ∑ e : Fin 1000000, h (ix2 e j) := by
  rw [hostReduceAdd_apply, Ideal.hostReduceAdd_single reducesTo_S1000000x128_S128_d0 (by decide), constant_apply,
    Ideal.ofBits_zero_f32, zero_add]
  refine Finset.sum_congr rfl fun k _ => ?_
  exact congrArg h (funext fun a => Fin.ext (by match a with | ⟨0, _⟩ => rfl | ⟨1, _⟩ => rfl))

/-- Two sums over the edges with equal terms have equal quotients by a common divisor. -/
theorem div_sum_congr {f g : Fin 1000000 → EReal} (c : EReal) (h : ∀ e, f e = g e) :
    Ideal.div (∑ e, f e) c = Ideal.div (∑ e, g e) c := by
  rw [show f = g from funext h]

/-- A column's mean: its sum divided by the edge count's word. -/
theorem Tmean_apply (h : FVec Ideal S1000000x128 .f32) (j : Fin 128) :
    RefTerm.Tmean (F := Ideal) h (ix1 j) = Ideal.div (∑ e : Fin 1000000, h (ix2 e j)) Spec.nE := by
  simp only [RefTerm.Tmean]
  rw [hostDivf_apply, colSum_apply, broadcastInDim_scalar_apply, constant_apply]

/-- A column's centred variance: the sum of the squared differences from `m`'s entry, divided by the edge count's word. -/
theorem Tvar_apply (h : FVec Ideal S1000000x128 .f32) (m : FVec Ideal S128 .f32) (j : Fin 128) :
    RefTerm.Tvar (F := Ideal) h m (ix1 j)
      = Ideal.div (∑ e : Fin 1000000, (h (ix2 e j) - m (ix1 j)) * (h (ix2 e j) - m (ix1 j))) Spec.nE := by
  simp only [RefTerm.Tvar]
  rw [hostDivf_apply, colSum_apply, broadcastInDim_scalar_apply, constant_apply]
  exact div_sum_congr _ fun e => by rw [mulf_apply, subf_apply, bcastCol_apply]

/-- The normalised layer: the entry less the mean, times the inverse root of variance plus the epsilon's word, times
    the scale, plus the shift. -/
theorem Tnorm_apply (h : FVec Ideal S1000000x128 .f32) (m v g bt : FVec Ideal S128 .f32) (e : Fin 1000000) (j : Fin 128) :
    RefTerm.Tnorm (F := Ideal) h m v g bt (ix2 e j)
      = (h (ix2 e j) - m (ix1 j)) * Ideal.rsqrt (v (ix1 j) + Spec.eps) * g (ix1 j) + bt (ix1 j) := by
  simp only [RefTerm.Tnorm]
  rw [addf_apply, mulf_apply, mulf_apply, subf_apply, bcastCol_apply, bcastCol_apply, bcastCol_apply, bcastCol_apply,
    hostRsqrt_apply, addf_apply, broadcastInDim_scalar_apply, constant_apply]

/-- The rectifier: the specification's, the zero word read as zero. -/
theorem Tact_apply (a : FVec Ideal S1000000x128 .f32) (e : Fin 1000000) (j : Fin 128) :
    RefTerm.Tact (F := Ideal) a (ix2 e j) = Spec.act (a (ix2 e j)) := by
  simp only [RefTerm.Tact]
  rw [select_apply, cmpf_apply, mulf_apply, broadcastInDim_scalar_apply, broadcastInDim_scalar_apply, constant_apply,
    constant_apply, Ideal.ofBits_zero_f32]
  rfl

/-! ## The two products with a weight matrix, read at an index -/

/-- The first layer's left operand is read at the result's row … -/
theorem lhs_pre_0 (i : S1000000x128.Idx) (q : dot_S1000000x132_S132x128_S1000000x128_1_0_0_1_n_n.contr.Idx) :
    (dot_S1000000x132_S132x128_S1000000x128_1_0_0_1_n_n.lhsIdx i q 0).val = (i 0).val := by
  unfold DotDims.lhsIdx
  rw [dif_neg (show ¬(0 : Fin S1000000x132.rank) ∈ dot_S1000000x132_S132x128_S1000000x128_1_0_0_1_n_n.lhsBatch from List.not_mem_nil),
    dif_pos (show (0 : Fin S1000000x132.rank) ∈ dot_S1000000x132_S132x128_S1000000x128_1_0_0_1_n_n.lhsNonContracting from List.mem_singleton.mpr rfl)]
  rfl
/-- … and the summed feature; … -/
theorem lhs_pre_1 (i : S1000000x128.Idx) (q : dot_S1000000x132_S132x128_S1000000x128_1_0_0_1_n_n.contr.Idx) :
    (dot_S1000000x132_S132x128_S1000000x128_1_0_0_1_n_n.lhsIdx i q 1).val = (q ⟨0, Nat.one_pos⟩).val :=
  dot_S1000000x132_S132x128_S1000000x128_1_0_0_1_n_n.lhsIdx_val_of_single rfl i q
/-- … its right operand at the summed feature … -/
theorem rhs_pre_0 (i : S1000000x128.Idx) (q : dot_S1000000x132_S132x128_S1000000x128_1_0_0_1_n_n.contr.Idx) :
    (dot_S1000000x132_S132x128_S1000000x128_1_0_0_1_n_n.rhsIdx i q 0).val = (q ⟨0, Nat.one_pos⟩).val :=
  dot_S1000000x132_S132x128_S1000000x128_1_0_0_1_n_n.rhsIdx_val_of_single rfl i q
/-- … and the result's column. -/
theorem rhs_pre_1 (i : S1000000x128.Idx) (q : dot_S1000000x132_S132x128_S1000000x128_1_0_0_1_n_n.contr.Idx) :
    (dot_S1000000x132_S132x128_S1000000x128_1_0_0_1_n_n.rhsIdx i q 1).val = (i 1).val := by
  unfold DotDims.rhsIdx
  rw [dif_neg (show ¬(1 : Fin S132x128.rank) ∈ dot_S1000000x132_S132x128_S1000000x128_1_0_0_1_n_n.rhsBatch from List.not_mem_nil),
    dif_pos (show (1 : Fin S132x128.rank) ∈ dot_S1000000x132_S132x128_S1000000x128_1_0_0_1_n_n.rhsNonContracting from List.mem_singleton.mpr rfl)]
  rfl

/-- The first layer's product at row `e`, column `j`: the sum over the 132 features. -/
theorem dotPre_apply (x : FVec Ideal S1000000x132 .f32) (w1 : FVec Ideal S132x128 .f32) (e : Fin 1000000) (j : Fin 128) :
    Host.dotGeneral (F := Ideal) dot_S1000000x132_S132x128_S1000000x128_1_0_0_1_n_n none x w1 (ix2 e j)
      = ∑ k : Fin 132, x (ix2 e k) * w1 (ix2 k j) := by
  simp only [Host.dotGeneral]
  rw [Ideal.dotGeneral_apply,
    ← Equiv.sum_comp (contrEquiv1 dot_S1000000x132_S132x128_S1000000x128_1_0_0_1_n_n 132 rfl rfl).symm]
  refine Finset.sum_congr rfl fun k _ => ?_
  have hk := contrEquiv1_symm_val dot_S1000000x132_S132x128_S1000000x128_1_0_0_1_n_n 132 rfl rfl k
  have el : dot_S1000000x132_S132x128_S1000000x128_1_0_0_1_n_n.lhsIdx (ix2 e j)
      ((contrEquiv1 dot_S1000000x132_S132x128_S1000000x128_1_0_0_1_n_n 132 rfl rfl).symm k) = ix2 e k :=
    funext fun a => Fin.ext (by
      match a with
      | ⟨0, _⟩ => exact lhs_pre_0 _ _
      | ⟨1, _⟩ => exact (lhs_pre_1 _ _).trans hk)
  have er : dot_S1000000x132_S132x128_S1000000x128_1_0_0_1_n_n.rhsIdx (ix2 e j)
      ((contrEquiv1 dot_S1000000x132_S132x128_S1000000x128_1_0_0_1_n_n 132 rfl rfl).symm k) = ix2 k j :=
    funext fun a => Fin.ext (by
      match a with
      | ⟨0, _⟩ => exact (rhs_pre_0 _ _).trans hk
      | ⟨1, _⟩ => exact rhs_pre_1 _ _)
  rw [el, er]

/-- The projection's left operand is read at the result's row … -/
theorem lhs_proj_0 (i : S1000000x1.Idx) (q : dot_S1000000x128_S128x1_S1000000x1_1_0_0_1_n_n.contr.Idx) :
    (dot_S1000000x128_S128x1_S1000000x1_1_0_0_1_n_n.lhsIdx i q 0).val = (i 0).val := by
  unfold DotDims.lhsIdx
  rw [dif_neg (show ¬(0 : Fin S1000000x128.rank) ∈ dot_S1000000x128_S128x1_S1000000x1_1_0_0_1_n_n.lhsBatch from List.not_mem_nil),
    dif_pos (show (0 : Fin S1000000x128.rank) ∈ dot_S1000000x128_S128x1_S1000000x1_1_0_0_1_n_n.lhsNonContracting from List.mem_singleton.mpr rfl)]
  rfl
/-- … and the summed column; … -/
theorem lhs_proj_1 (i : S1000000x1.Idx) (q : dot_S1000000x128_S128x1_S1000000x1_1_0_0_1_n_n.contr.Idx) :
    (dot_S1000000x128_S128x1_S1000000x1_1_0_0_1_n_n.lhsIdx i q 1).val = (q ⟨0, Nat.one_pos⟩).val :=
  dot_S1000000x128_S128x1_S1000000x1_1_0_0_1_n_n.lhsIdx_val_of_single rfl i q
/-- … its right operand at the summed column … -/
theorem rhs_proj_0 (i : S1000000x1.Idx) (q : dot_S1000000x128_S128x1_S1000000x1_1_0_0_1_n_n.contr.Idx) :
    (dot_S1000000x128_S128x1_S1000000x1_1_0_0_1_n_n.rhsIdx i q 0).val = (q ⟨0, Nat.one_pos⟩).val :=
  dot_S1000000x128_S128x1_S1000000x1_1_0_0_1_n_n.rhsIdx_val_of_single rfl i q
/-- … and the result's one column. -/
theorem rhs_proj_1 (i : S1000000x1.Idx) (q : dot_S1000000x128_S128x1_S1000000x1_1_0_0_1_n_n.contr.Idx) :
    (dot_S1000000x128_S128x1_S1000000x1_1_0_0_1_n_n.rhsIdx i q 1).val = (i 1).val := by
  unfold DotDims.rhsIdx
  rw [dif_neg (show ¬(1 : Fin S128x1.rank) ∈ dot_S1000000x128_S128x1_S1000000x1_1_0_0_1_n_n.rhsBatch from List.not_mem_nil),
    dif_pos (show (1 : Fin S128x1.rank) ∈ dot_S1000000x128_S128x1_S1000000x1_1_0_0_1_n_n.rhsNonContracting from List.mem_singleton.mpr rfl)]
  rfl

/-- The projection's product at row `e`: the sum over the 128 columns. -/
theorem dotProj_apply (a : FVec Ideal S1000000x128 .f32) (w2 : FVec Ideal S128x1 .f32) (e : Fin 1000000) (q : Fin 1) :
    Host.dotGeneral (F := Ideal) dot_S1000000x128_S128x1_S1000000x1_1_0_0_1_n_n none a w2 (ix2 e q)
      = ∑ k : Fin 128, a (ix2 e k) * w2 (ix2 k q) := by
  simp only [Host.dotGeneral]
  rw [Ideal.dotGeneral_apply,
    ← Equiv.sum_comp (contrEquiv1 dot_S1000000x128_S128x1_S1000000x1_1_0_0_1_n_n 128 rfl rfl).symm]
  refine Finset.sum_congr rfl fun k _ => ?_
  have hk := contrEquiv1_symm_val dot_S1000000x128_S128x1_S1000000x1_1_0_0_1_n_n 128 rfl rfl k
  have el : dot_S1000000x128_S128x1_S1000000x1_1_0_0_1_n_n.lhsIdx (ix2 e q)
      ((contrEquiv1 dot_S1000000x128_S128x1_S1000000x1_1_0_0_1_n_n 128 rfl rfl).symm k) = ix2 e k :=
    funext fun a => Fin.ext (by
      match a with
      | ⟨0, _⟩ => exact lhs_proj_0 _ _
      | ⟨1, _⟩ => exact (lhs_proj_1 _ _).trans hk)
  have er : dot_S1000000x128_S128x1_S1000000x1_1_0_0_1_n_n.rhsIdx (ix2 e q)
      ((contrEquiv1 dot_S1000000x128_S128x1_S1000000x1_1_0_0_1_n_n 128 rfl rfl).symm k) = ix2 k q :=
    funext fun a => Fin.ext (by
      match a with
      | ⟨0, _⟩ => exact (rhs_proj_0 _ _).trans hk
      | ⟨1, _⟩ => exact rhs_proj_1 _ _)
  rw [el, er]

/-! ## The stages with a product, and the whole -/

/-- The hidden layer: the specification's. -/
theorem Tpre_apply (x : FVec Ideal S1000000x132 .f32) (w1 : FVec Ideal S132x128 .f32) (b1 : FVec Ideal S128 .f32)
    (e : Fin 1000000) (j : Fin 128) :
    RefTerm.Tpre (F := Ideal) x w1 b1 (ix2 e j)
      = Spec.rPre (fun e k => x (ix2 e k)) (fun k j => w1 (ix2 k j)) (fun j => b1 (ix1 j)) e j := by
  simp only [RefTerm.Tpre]
  rw [addf_apply, dotPre_apply, bcastCol_apply]
  rfl

/-- The projection: the sum over the 128 columns plus the bias. -/
theorem Tproj_apply (a : FVec Ideal S1000000x128 .f32) (w2 : FVec Ideal S128x1 .f32) (b2 : FVec Ideal S1 .f32)
    (e : Fin 1000000) (q : Fin 1) :
    RefTerm.Tproj (F := Ideal) a w2 b2 (ix2 e q)
      = (∑ j : Fin 128, a (ix2 e j) * w2 (ix2 j (0 : Fin 1))) + b2 (ix1 (0 : Fin 1)) := by
  obtain rfl : q = 0 := Subsingleton.elim _ _
  simp only [RefTerm.Tproj]
  rw [addf_apply, dotProj_apply, bcastOne_apply]

/-- The reference's dense part is the specification's reference formula of its feature array. -/
theorem Tdense_eq (x : FVec Ideal S1000000x132 .f32) (w1 : FVec Ideal S132x128 .f32) (b1 g bt : FVec Ideal S128 .f32)
    (w2 : FVec Ideal S128x1 .f32) (b2 : FVec Ideal S1 .f32) :
    RefTerm.Tdense (F := Ideal) x w1 b1 g bt w2 b2
      = Spec.outArr (Spec.rOut (fun e k => x (ix2 e k)) (fun k j => w1 (ix2 k j)) (fun j => b1 (ix1 j))
          (fun j => g (ix1 j)) (fun j => bt (ix1 j)) (fun j => w2 (ix2 j (0 : Fin 1))) (b2 (ix1 (0 : Fin 1)))) := by
  funext i
  obtain ⟨e, q, rfl⟩ : ∃ (e : Fin 1000000) (q : Fin 1), i = ix2 e q := ⟨i 0, i 1, eq_ix2 i⟩
  simp only [RefTerm.Tdense]
  rw [Tproj_apply]
  show _ = Spec.rOut _ _ _ _ _ _ _ e
  unfold Spec.rOut
  refine congrArg (· + b2 (ix1 (0 : Fin 1))) (Finset.sum_congr rfl fun j _ => ?_)
  rw [Tact_apply, Tnorm_apply, Tvar_apply, Tmean_apply]
  have hp : ∀ e', RefTerm.Tpre (F := Ideal) x w1 b1 (ix2 e' j)
      = Spec.rPre (fun e k => x (ix2 e k)) (fun k j => w1 (ix2 k j)) (fun j => b1 (ix1 j)) e' j :=
    fun e' => Tpre_apply x w1 b1 e' j
  simp only [hp]
  unfold Spec.rMu Spec.rVar
  rfl

end Cert.ReferenceIdeal.RefDense

end
-- ==== Proof.RefValue.lean ====
/-
  The reference's composed term read index by index: it is the reference formula of the argument arrays.

  The features first. Every integer stage of the row-number chain acts word by word, with the scalar divisor 2048
  already evaluated, so at an edge it is the scalar function of that edge's words; a gather of table rows reads the
  table at the clamped start index; the table as 65536 rows reads the three-axis table at (row / 2048, row % 2048);
  and the join of the two gathered rows with the attributes reads one of its three pieces, by the column. The dense
  layers applied to the features are read in their own module; the two readings compose to the reference formula.
-/
import proofs.«416790_j18339510354271_3_alg».proof.Proof.RefTerm
import proofs.«416790_j18339510354271_3_alg».proof.Proof.Spec
import proofs.«416790_j18339510354271_3_alg».proof.Proof.LibGatherRow
import proofs.«416790_j18339510354271_3_alg».proof.Proof.RefDense
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx Cert.ReferenceIdeal

variable [Cert.ReferenceIdeal.Facts]

/-! ## The integer stages at an edge -/

/-- The floored quotient by the scalar 2048, at an index: the scalar floored quotient of that word. -/
theorem floorDivide_apply (x : IVec S1000000 32) (i : S1000000.Idx) :
    RefTerm.floorDivide x (constantI S_ 32 2048#32) i = Spec.fdiv2048 (x i) := rfl

/-- The clamp between the scalars 0 and 31, at an index. -/
theorem clip_apply (x : IVec S1000000 32) (i : S1000000.Idx) :
    RefTerm.clip x (constantI S_ 32 0#32) (constantI S_ 32 31#32) i = Spec.clip31 (x i) := rfl

/-- The divisor the remainder divides by — one in place of a zero divisor — is 2048 itself. -/
theorem divisor_2048 : Scalar.select (IntOp.cmpi .eq 2048#32 0#32) 1#32 2048#32 = 2048#32 := by decide

/-- The floored remainder by the scalar 2048, at an index: the scalar floored remainder of that word. -/
theorem remainder_apply (x : IVec S1000000 32) (i : S1000000.Idx) :
    RefTerm.remainder x (constantI S_ 32 2048#32) i = Spec.rem2048 (x i) := by
  show Scalar.select
      (IntOp.andi
        (IntOp.cmpi .ne
          (IntOp.cmpi .slt (IntOp.remsi .host (x i) (Scalar.select (IntOp.cmpi .eq 2048#32 0#32) 1#32 2048#32)) 0#32)
          (IntOp.cmpi .slt (Scalar.select (IntOp.cmpi .eq 2048#32 0#32) 1#32 2048#32) 0#32))
        (IntOp.cmpi .ne (IntOp.remsi .host (x i) (Scalar.select (IntOp.cmpi .eq 2048#32 0#32) 1#32 2048#32)) 0#32))
      (IntOp.addi (IntOp.remsi .host (x i) (Scalar.select (IntOp.cmpi .eq 2048#32 0#32) 1#32 2048#32))
        (Scalar.select (IntOp.cmpi .eq 2048#32 0#32) 1#32 2048#32))
      (IntOp.remsi .host (x i) (Scalar.select (IntOp.cmpi .eq 2048#32 0#32) 1#32 2048#32)) = _
  rw [divisor_2048]
  rfl

/-- Row `o` of the two rows of edge words, as a vector over the edges, at edge `e`. -/
theorem wordRow_apply (ei : IVec S2x1000000 32) (o : Nat) (ho : o < 2) (h : S2x1000000.Slices ![o, 0] S1x1000000)
    (h' : S1x1000000.ShapeCasts S1000000) (e : Fin 1000000) :
    shapeCast S1000000 (extractStridedSlice S1x1000000 ![o, 0] ei h) h' (ix1 e) = ei (ix2 (⟨o, ho⟩ : Fin 2) e) := by
  refine (shapeCast_apply _ h' (ix1 e) (ix2 (0 : Fin 1) e) ?_).trans ?_
  · rw [Shape.rowMajor_val_two, Shape.rowMajor_val_one]
    show 0 * 1000000 + e.val = e.val
    omega
  · exact extractStridedSlice_apply _ ei h _ _ fun a => match a with
      | ⟨0, _⟩ => by show o = o + 0; omega
      | ⟨1, _⟩ => by show e.val = 0 + e.val; omega

/-- The source endpoint's row number of edge `e`. -/
theorem rowNumbers_fst (ei : IVec S2x1000000 32) (e : Fin 1000000) :
    (RefTerm.rowNumbers ei).1 (ix1 e) = Spec.srcW ei e := by
  show IntOp.addi (RefTerm.remainder _ (constantI S_ 32 2048#32) (ix1 e))
      (IntOp.muli (RefTerm.clip (RefTerm.floorDivide _ (constantI S_ 32 2048#32)) (constantI S_ 32 0#32) (constantI S_ 32 31#32) (ix1 e))
        2048#32) = _
  rw [remainder_apply, clip_apply, floorDivide_apply, wordRow_apply ei 0 (by decide)]
  rfl

/-- The destination endpoint's row number of edge `e`: its own word's remainder, the source word's quotient. -/
theorem rowNumbers_snd (ei : IVec S2x1000000 32) (e : Fin 1000000) :
    (RefTerm.rowNumbers ei).2 (ix1 e) = Spec.dstW ei e := by
  show IntOp.addi (RefTerm.remainder _ (constantI S_ 32 2048#32) (ix1 e))
      (IntOp.muli (RefTerm.clip (RefTerm.floorDivide _ (constantI S_ 32 2048#32)) (constantI S_ 32 0#32) (constantI S_ 32 31#32) (ix1 e))
        2048#32) = _
  rw [remainder_apply, clip_apply, floorDivide_apply, wordRow_apply ei 1 (by decide), wordRow_apply ei 0 (by decide)]
  rfl

/-- The start index of edge `e`: its row number, counted from the table's end when negative. -/
theorem startIdx_apply (w : IVec S1000000 32) (e : Fin 1000000) :
    RefTerm.startIdx w (ix2 e (0 : Fin 1)) = Spec.norm (w (ix1 e)) := by
  unfold RefTerm.startIdx
  dsimp only
  refine (broadcastInDim_apply _ _ _ (ix2 e (0 : Fin 1)) (ix1 e) fun a => ?_).trans rfl
  match a with
  | ⟨0, _⟩ => rfl

/-! ## The gathered rows and their join -/

/-- The table laid out as 65536 rows, at row `r` and column `d`. -/
theorem table_apply (z : FVec Ideal S32x2048x64 .f32) (h : S32x2048x64.ShapeCasts S65536x64) (r : Fin 65536) (d : Fin 64) :
    shapeCast S65536x64 z h (ix2 r d)
      = z (ix3 (⟨r.val / 2048, by omega⟩ : Fin 32) (⟨r.val % 2048, Nat.mod_lt _ (by decide)⟩ : Fin 2048) d) := by
  refine shapeCast_apply z h _ _ ?_
  rw [Shape.rowMajor_val_three, Shape.rowMajor_val_two]
  show (r.val / 2048 * 2048 + r.val % 2048) * 64 + d.val = r.val * 64 + d.val
  omega

/-- The gather of table rows at the start indices `idx`, at edge `e` and column `d`. -/
theorem gather_apply (x : FVec Ideal S65536x64 .f32) (idx : IVec S1000000x1 32) (e : Fin 1000000) (d : Fin 64) :
    Host.gather gather_S65536x64_S1000000x1_S1000000x64_1_0_n_n_0_1_164 x idx (ix2 e d)
      = x (ix2 (⟨min (idx (ix2 e (0 : Fin 1))).toInt.toNat 65535, by omega⟩ : Fin 65536) d) :=
  GatherRow.gather_row_apply (by decide) Facts₀.gather_S65536x64_S1000000x1_S1000000x64_1_0_n_n_0_1_164_wf x idx (ix2 e d)

/-- A gathered row of the table laid out as 65536 rows, where edge `e`'s start index is the word `v`. -/
theorem gathered_of_eq (z : FVec Ideal S32x2048x64 .f32) (h : S32x2048x64.ShapeCasts S65536x64) (idx : IVec S1000000x1 32)
    (e : Fin 1000000) (d : Fin 64) (v : BitVec 32) (hv : idx (ix2 e (0 : Fin 1)) = v) :
    Host.gather gather_S65536x64_S1000000x1_S1000000x64_1_0_n_n_0_1_164 (shapeCast S65536x64 z h) idx (ix2 e d)
      = Spec.zsel z v d := by
  subst hv
  rw [gather_apply, table_apply]
  rfl

/-- A gathered row of the table at the start indices made from the row numbers `w`. -/
theorem gathered_apply (z : FVec Ideal S32x2048x64 .f32) (h : S32x2048x64.ShapeCasts S65536x64) (w : IVec S1000000 32)
    (e : Fin 1000000) (d : Fin 64) :
    Host.gather gather_S65536x64_S1000000x1_S1000000x64_1_0_n_n_0_1_164 (shapeCast S65536x64 z h) (RefTerm.startIdx w) (ix2 e d)
      = Spec.zsel z (Spec.norm (w (ix1 e))) d :=
  gathered_of_eq z h _ e d _ (startIdx_apply w e)

/-- The join of two 64-column arrays and a 4-column array along the columns, at row `e` and column `k`. -/
theorem join_apply {α : Type} (a b : S1000000x64.Idx → α) (c : S1000000x4.Idx → α)
    (h : Shape.Concatenates [S1000000x64, S1000000x64, S1000000x4] S1000000x132 1) (e : Fin 1000000) (k : Fin 132) :
    concatenate S1000000x132 1 [⟨S1000000x64, a⟩, ⟨S1000000x64, b⟩, ⟨S1000000x4, c⟩] h (ix2 e k)
      = if h1 : k.val < 64 then a (ix2 e (⟨k.val, h1⟩ : Fin 64))
        else if h2 : k.val < 128 then b (ix2 e (⟨k.val - 64, by omega⟩ : Fin 64))
        else c (ix2 e (⟨k.val - 128, by omega⟩ : Fin 4)) := by
  have hk := k.isLt
  by_cases h1 : k.val < 64
  · rw [dif_pos h1]
    exact concatenate_apply_piece 1 [⟨S1000000x64, a⟩, ⟨S1000000x64, b⟩, ⟨S1000000x4, c⟩] h (ix2 e k) 0 (by show 0 < 3; omega) S1000000x64 a rfl rfl 0 rfl
      (ix2 e ⟨k.val, h1⟩)
      (fun b hb => match b with | ⟨0, _⟩ => rfl | ⟨1, _⟩ => absurd rfl hb) (by show 0 + k.val = k.val; omega)
  · rw [dif_neg h1]
    by_cases h2 : k.val < 128
    · rw [dif_pos h2]
      exact concatenate_apply_piece 1 [⟨S1000000x64, a⟩, ⟨S1000000x64, b⟩, ⟨S1000000x4, c⟩] h (ix2 e k) 1 (by show 1 < 3; omega) S1000000x64 b rfl rfl 64 rfl
        (ix2 e ⟨k.val - 64, by omega⟩)
        (fun b hb => match b with | ⟨0, _⟩ => rfl | ⟨1, _⟩ => absurd rfl hb) (by show 64 + (k.val - 64) = k.val; omega)
    · rw [dif_neg h2]
      exact concatenate_apply_piece 1 [⟨S1000000x64, a⟩, ⟨S1000000x64, b⟩, ⟨S1000000x4, c⟩] h (ix2 e k) 2 (by show 2 < 3; omega) S1000000x4 c rfl rfl 128 rfl
        (ix2 e ⟨k.val - 128, by omega⟩)
        (fun b hb => match b with | ⟨0, _⟩ => rfl | ⟨1, _⟩ => absurd rfl hb) (by show 128 + (k.val - 128) = k.val; omega)

/-- The reference's features of edge `e`, column `k`. -/
theorem Tfeat_apply (z : FVec Ideal S32x2048x64 .f32) (ea : FVec Ideal S1000000x4 .f32) (ei : IVec S2x1000000 32)
    (e : Fin 1000000) (k : Fin 132) :
    RefTerm.Tfeat (F := Ideal) z ea ei (ix2 e k) = Spec.xR z ea ei e k := by
  unfold Spec.xR
  refine (join_apply _ _ _ Facts₀.concatenates_S1000000x64_S1000000x64_S1000000x4_S1000000x132_d1 e k).trans ?_
  by_cases h1 : k.val < 64
  · rw [dif_pos h1, dif_pos h1, gathered_apply, rowNumbers_fst]
  · rw [dif_neg h1, dif_neg h1]
    by_cases h2 : k.val < 128
    · rw [dif_pos h2, dif_pos h2, gathered_apply, rowNumbers_snd]
    · rw [dif_neg h2, dif_neg h2]

/-- The composed term of the reference's operations is the reference formula, index by index. -/
theorem T_eq (z : FVec Ideal S32x2048x64 .f32) (ea : FVec Ideal S1000000x4 .f32) (w1 : FVec Ideal S132x128 .f32)
    (b1 g bt : FVec Ideal S128 .f32) (w2 : FVec Ideal S128x1 .f32) (b2 : FVec Ideal S1 .f32) (ei : IVec S2x1000000 32) :
    RefTerm.T (F := Ideal) z ea w1 b1 g bt w2 b2 ei = Spec.referenceResult z ea w1 b1 g bt w2 b2 ei := by
  have hx : (fun e k => RefTerm.Tfeat (F := Ideal) z ea ei (ix2 e k)) = Spec.xR z ea ei :=
    funext fun e => funext fun k => Tfeat_apply z ea ei e k
  show RefTerm.Tdense (RefTerm.Tfeat z ea ei) w1 b1 g bt w2 b2 = _
  rw [RefDense.Tdense_eq, hx]
  rfl

end Cert.ReferenceIdeal.RefValue

end
-- ==== Proof.RefFinal.lean ====
/-
  The reference's run, read: every weakly fair execution of its host program terminates with the result array at
  the reference formula of the argument arrays, and the argument arrays as launched.
-/
import proofs.«416790_j18339510354271_3_alg».proof.Proof.RefRun
import proofs.«416790_j18339510354271_3_alg».proof.Proof.RefValue
import proofs.«416790_j18339510354271_3_alg».proof.Proof.Gen.ReferenceIdeal

noncomputable section

open Idealize.ShloMosaic Idealize.ShloMosaic.TcCoe Idealize.SL.Sem

namespace Cert.ReferenceIdeal.RefFinal

open Cert.ReferenceIdeal

variable (m : (ℓ : Loc nD τ sig) → Buf (Elt Ideal) ℓ) (ρ : Dev nD → PrngReg)

/-! ## The argument arrays, each at its literal type -/

abbrev aZ (c : Dev nD) : Spec.SZ.Idx → EReal := m ((c.tc : Thread nD τ).loc main_arg0)
abbrev aEA (c : Dev nD) : Spec.SEA.Idx → EReal := m ((c.tc : Thread nD τ).loc main_arg1)
abbrev aW1 (c : Dev nD) : Spec.SW1.Idx → EReal := m ((c.tc : Thread nD τ).loc main_arg2)
abbrev aB1 (c : Dev nD) : Spec.SV.Idx → EReal := m ((c.tc : Thread nD τ).loc main_arg3)
abbrev aG (c : Dev nD) : Spec.SV.Idx → EReal := m ((c.tc : Thread nD τ).loc main_arg4)
abbrev aBT (c : Dev nD) : Spec.SV.Idx → EReal := m ((c.tc : Thread nD τ).loc main_arg5)
abbrev aW2 (c : Dev nD) : Spec.SW2.Idx → EReal := m ((c.tc : Thread nD τ).loc main_arg6)
abbrev aB2 (c : Dev nD) : Spec.SB2.Idx → EReal := m ((c.tc : Thread nD τ).loc main_arg7)
abbrev aEI (c : Dev nD) : Spec.SEI.Idx → BitVec 32 := m ((c.tc : Thread nD τ).loc main_arg8)

/-- The run, read. -/
theorem run : θ_run defs (onTc (τ := τ) (main (F := Ideal))) ⟨m, fun _ => 0, ρ⟩ (fun r => ∀ c : Dev nD,
      r.2.mem ((c.tc : Thread nD τ).loc main_v65)
        = Spec.referenceResult (aZ m c) (aEA m c) (aW1 m c) (aB1 m c) (aG m c) (aBT m c) (aW2 m c) (aB2 m c) (aEI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c main_v65).trans ((RefRun.out_eq (F := Ideal) _).trans (RefValue.T_eq _ _ _ _ _ _ _ _ _)),
     (h c main_arg0).trans (RefRun.arg0_eq (F := Ideal) _), (h c main_arg1).trans (RefRun.arg1_eq (F := Ideal) _),
     (h c main_arg2).trans (RefRun.arg2_eq (F := Ideal) _), (h c main_arg3).trans (RefRun.arg3_eq (F := Ideal) _),
     (h c main_arg4).trans (RefRun.arg4_eq (F := Ideal) _), (h c main_arg5).trans (RefRun.arg5_eq (F := Ideal) _),
     (h c main_arg6).trans (RefRun.arg6_eq (F := Ideal) _), (h c main_arg7).trans (RefRun.arg7_eq (F := Ideal) _),
     (h c main_arg8).trans (RefRun.arg8_eq (F := Ideal) _)⟩)
    (RefRun.run_main (F := Ideal) m ρ)

end Cert.ReferenceIdeal.RefFinal

end
-- ==== Proof.Words.lean ====
/-
  The row number is never negative: a floored remainder by 2048 lies in [0, 2048), a word clamped to [0, 31]
  times 2048 lies in [0, 63488], and their sum is below 65,536. So counting a negative row number from the end
  of the table changes nothing.
-/
import proofs.«416790_j18339510354271_3_alg».proof.Proof.Spec

namespace Cert.Spec

open Idealize.ShloMosaic

/-- The signed value of a sum of two words whose signed values add up inside [0, 2³¹) is that sum. -/
private theorem toInt_add_small (x y : BitVec 32) (h0 : 0 ≤ x.toInt + y.toInt) (h1 : x.toInt + y.toInt < 2 ^ 31) :
    (x + y).toInt = x.toInt + y.toInt := by
  rw [BitVec.toInt_add]
  exact Int.bmod_eq_of_le (by omega) (by omega)

/-- The same for a product. -/
private theorem toInt_mul_small (x y : BitVec 32) (h0 : 0 ≤ x.toInt * y.toInt) (h1 : x.toInt * y.toInt < 2 ^ 31) :
    (x * y).toInt = x.toInt * y.toInt := by
  rw [BitVec.toInt_mul]
  exact Int.bmod_eq_of_le (by omega) (by omega)

/-- The truncated remainder by 2048 lies strictly between -2048 and 2048 (the divisor is neither zero nor -1,
    so the operation is the plain signed remainder). -/
private theorem remsi_2048 (x : BitVec 32) :
    -2048 < (IntOp.remsi .host x 2048#32).toInt ∧ (IntOp.remsi .host x 2048#32).toInt < 2048 := by
  have hc : ¬ IntOp.SDivCorner x 2048#32 := by
    intro h
    rcases h with h | ⟨_, h⟩
    · exact absurd h (by decide)
    · exact absurd h (by decide)
  have h2048 : (2048#32 : BitVec 32).toInt = 2048 := by decide
  unfold IntOp.remsi
  rw [if_neg hc, BitVec.toInt_srem, h2048]
  exact ⟨Int.lt_tmod_of_pos _ (by decide), Int.tmod_lt_of_pos _ (by decide)⟩

/-- The floored remainder by 2048 lies in [0, 2048): a negative truncated remainder is moved up by 2048. -/
theorem rem2048_range (x : BitVec 32) : 0 ≤ (rem2048 x).toInt ∧ (rem2048 x).toInt < 2048 := by
  obtain ⟨hlo, hhi⟩ := remsi_2048 x
  unfold rem2048
  generalize IntOp.remsi .host x 2048#32 = r at hlo hhi ⊢
  have h2048 : (2048#32 : BitVec 32).toInt = 2048 := by decide
  have h0 : (0#32 : BitVec 32).toInt = 0 := by decide
  by_cases hneg : r.toInt < 0
  · -- the remainder is negative, hence not zero: the condition holds and 2048 is added
    have hs : r.slt 0#32 = true := by rw [BitVec.slt_iff_toInt_lt, h0]; exact hneg
    have hne : (r != 0#32) = true := by
      rw [bne_iff_ne]; intro h; rw [h, h0] at hneg; exact absurd hneg (by decide)
    have hc : IntOp.andi (IntOp.cmpi .ne (IntOp.cmpi .slt r 0#32) (IntOp.cmpi .slt (2048#32 : BitVec 32) 0#32))
        (IntOp.cmpi .ne r 0#32) = 1#1 := by
      simp only [IntOp.andi, IntOp.cmpi, hs, hne]; decide
    rw [hc]
    simp only [Scalar.select, IntOp.addi]
    rw [if_pos (by decide)]
    rw [toInt_add_small r 2048#32 (by rw [h2048]; omega) (by rw [h2048]; omega), h2048]
    omega
  · -- the remainder is not negative: the condition fails and the remainder is kept
    have hs : r.slt 0#32 = false := by
      rw [Bool.eq_false_iff]; intro h; rw [BitVec.slt_iff_toInt_lt, h0] at h; exact hneg h
    have hc : IntOp.andi (IntOp.cmpi .ne (IntOp.cmpi .slt r 0#32) (IntOp.cmpi .slt (2048#32 : BitVec 32) 0#32))
        (IntOp.cmpi .ne r 0#32) = 0#1 := by
      simp only [IntOp.andi, IntOp.cmpi, hs]
      cases (r != 0#32) <;> decide
    rw [hc]
    simp only [Scalar.select]
    rw [if_neg (by decide)]
    omega

/-- A word clamped to [0, 31] lies in [0, 31]. -/
theorem clip31_range (y : BitVec 32) : 0 ≤ (clip31 y).toInt ∧ (clip31 y).toInt ≤ 31 := by
  have h31 : (31#32 : BitVec 32).toInt = 31 := by decide
  have h0 : (0#32 : BitVec 32).toInt = 0 := by decide
  unfold clip31 IntOp.minsi IntOp.maxsi
  by_cases hy : y.slt 0#32 = true
  · rw [if_pos hy]
    have : ¬ ((31#32 : BitVec 32).slt 0#32 = true) := by decide
    rw [if_neg this, h0]; omega
  · rw [if_neg hy]
    have hy0 : 0 ≤ y.toInt := by
      rw [BitVec.slt_iff_toInt_lt, h0] at hy; omega
    by_cases hm : (31#32 : BitVec 32).slt y = true
    · rw [if_pos hm, h31]; omega
    · rw [if_neg hm]
      rw [BitVec.slt_iff_toInt_lt, h31] at hm
      omega

/-- The row number lies in [0, 65536): nothing wraps around. -/
theorem gidx_range (a s : BitVec 32) : 0 ≤ (gidx a s).toInt ∧ (gidx a s).toInt < 65536 := by
  obtain ⟨hr0, hr1⟩ := rem2048_range a
  obtain ⟨hc0, hc1⟩ := clip31_range (fdiv2048 s)
  have h2048 : (2048#32 : BitVec 32).toInt = 2048 := by decide
  unfold gidx IntOp.addi IntOp.muli
  generalize rem2048 a = r at hr0 hr1 ⊢
  generalize clip31 (fdiv2048 s) = c at hc0 hc1 ⊢
  have hm : (c * 2048#32).toInt = c.toInt * 2048 := by
    rw [toInt_mul_small c 2048#32 (by rw [h2048]; omega) (by rw [h2048]; omega), h2048]
  rw [toInt_add_small r (c * 2048#32) (by rw [hm]; omega) (by rw [hm]; omega), hm]
  omega

/-- The reference's treatment of negative row numbers is the identity on the row numbers both programs form. -/
theorem norm_gidx (a s : BitVec 32) : norm (gidx a s) = gidx a s := by
  obtain ⟨h0, _⟩ := gidx_range a s
  have hz : (0#32 : BitVec 32).toInt = 0 := by decide
  have hs : (gidx a s).slt 0#32 = false := by
    rw [Bool.eq_false_iff]; intro h; rw [BitVec.slt_iff_toInt_lt, hz] at h; omega
  unfold norm
  simp only [IntOp.cmpi, hs, Scalar.select]
  rw [if_neg (by decide)]

end Cert.Spec
-- ==== Proof.Finite.lean ====
/-
  The precondition read: where "every float input is finite" evaluates to true, each entry of the table, the
  attributes, the first layer's weights and bias and the normalisation's scale and shift is a real number.
-/
import proofs.«416790_j18339510354271_3_alg».proof.Pre_finite_inputs
import proofs.«416790_j18339510354271_3_alg».proof.Proof.Spec
import Idealize.ShloMosaic.Lib.ReduceAll

noncomputable section

namespace Cert.Finite

open Idealize.ShloMosaic Cert.Pre_finite_inputs

/-- The shape of a single scalar has exactly one index. -/
instance : Subsingleton S_.Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value (the larger of it and its negative) lies below +∞ is a real:
    of the two infinities one is +∞ itself and the other's negative is. -/
private theorem real_of_abs_lt_top (x : EReal) (h : Ideal.cmp .olt (max x (-x)) ⊤ = 1#1) :
    ∃ r : ℝ, x = (r : EReal) := by
  induction x using EReal.rec with
  | bot => exfalso; revert h; simp [Ideal.cmp]
  | coe r => exact ⟨r, rfl⟩
  | top => exfalso; revert h; simp [Ideal.cmp]

/-- One conjunct of the precondition: where "|x| < +∞ everywhere", reduced by "and" to a single word, is 1,
    every entry of x is a real. -/
private theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant S_ .f32 0x7F800000#32))) init hr hu j = 1#1)
    (i : s.Idx) : ∃ r : ℝ, x i = (r : EReal) := by
  have h := Host.reduce_andi_all _ init hr hu j e i
  have h' : Ideal.cmp .olt (max (x i) (-(x i))) (Ideal.ofBits .f32 0x7F800000#32) = 1#1 := h
  rw [inf_word] at h'
  exact real_of_abs_lt_top _ h'

/-- All ones from the precondition means every entry of the first six float arrays is the coercion of a real. -/
theorem of_fn [Cert.Pre_finite_inputs.Facts] (z : FVec Ideal S32x2048x64 .f32) (ea : FVec Ideal S1000000x4 .f32)
    (w1 : FVec Ideal S132x128 .f32) (b1 g bt : FVec Ideal S128 .f32) (w2 : FVec Ideal S128x1 .f32) (b2 : FVec Ideal S1 .f32)
    (ei : IVec S2x1000000 32)
    (h : Cert.Pre_finite_inputs.fn (F := Ideal) z ea w1 b1 g bt w2 b2 ei = fun _ => 1#1) :
    (∀ i, ∃ r : ℝ, z i = (r : EReal)) ∧ (∀ i, ∃ r : ℝ, ea i = (r : EReal)) ∧ (∀ i, ∃ r : ℝ, w1 i = (r : EReal))
      ∧ (∀ i, ∃ r : ℝ, b1 i = (r : EReal)) ∧ (∀ i, ∃ r : ℝ, g i = (r : EReal)) ∧ (∀ i, ∃ r : ℝ, bt i = (r : EReal)) := by
  -- the precondition's value at the one index of the scalar shape: a conjunction of eight words
  have h0 := congrFun h ValueIdx.ix0
  dsimp only [fn, fn_part1, fn_part2, andi] at h0
  -- such a conjunction is 1 only if each word is; the first six words speak of the six arrays in question
  obtain ⟨h7, _⟩ := IntOp.andi_eq_one.1 h0
  obtain ⟨h6, _⟩ := IntOp.andi_eq_one.1 h7
  obtain ⟨h5, ebt⟩ := IntOp.andi_eq_one.1 h6
  obtain ⟨h4, eg⟩ := IntOp.andi_eq_one.1 h5
  obtain ⟨h3, eb1⟩ := IntOp.andi_eq_one.1 h4
  obtain ⟨h2, ew1⟩ := IntOp.andi_eq_one.1 h3
  obtain ⟨ez, eea⟩ := IntOp.andi_eq_one.1 h2
  exact ⟨real_of_all z _ _ _ _ _ ez, real_of_all ea _ _ _ _ _ eea, real_of_all w1 _ _ _ _ _ ew1,
    real_of_all b1 _ _ _ _ _ eb1, real_of_all g _ _ _ _ _ eg, real_of_all bt _ _ _ _ _ ebt⟩

end Cert.Finite

end
-- ==== Proof.LibFinite.lean ====
/-
  Finiteness in the extended reals: which operations keep a value the coercion of a real.

  The extended reals `[-∞, +∞]` are not a ring (distributivity fails at the infinities), so
  an algebraic identity is proved over the reals and transported along the coercion. This
  file collects what the transport needs: a value clamped between two reals is a real in
  that interval; sums, differences, products, minima and maxima of coerced reals are the
  coerced ones; the ideal quotient by a nonzero real and the ideal power of two reals are
  coerced reals; zero annihilates every extended real; and the ideal floor and the
  conversions between reals and 32-bit words are exact on the integers that fit.
-/
import Mathlib.Data.EReal.Operations
import Mathlib.Data.EReal.Inv
import Mathlib.Algebra.Order.Floor.Ring
import Mathlib.Analysis.SpecialFunctions.Pow.Real
import Mathlib.Algebra.BigOperators.Group.Finset.Basic
import Idealize.ShloMosaic.PureOps.Ideal
import Idealize.ShloMosaic.PureOps.Ideal.Laws

namespace Cert.Lib

open Idealize.ShloMosaic

/-! ### Clamping -/

/-- Clamping any extended real `z` between two reals `lo ≤ hi` gives the coercion of a real
    in `[lo, hi]`: `-∞` goes to `lo`, `+∞` to `hi`, and a real to its real clamp. -/
theorem clamp_coe (lo hi : ℝ) (h : lo ≤ hi) (z : EReal) :
    ∃ r : ℝ, lo ≤ r ∧ r ≤ hi ∧ min (hi : EReal) (max (lo : EReal) z) = (r : EReal) := by
  induction z using EReal.rec with
  | bot =>
    refine ⟨lo, le_refl lo, h, ?_⟩
    rw [max_eq_left bot_le, min_eq_right (EReal.coe_le_coe_iff.mpr h)]
  | coe x =>
    refine ⟨min hi (max lo x), le_min h (le_max_left lo x), min_le_left _ _, ?_⟩
    rw [EReal.coe_strictMono.monotone.map_min, EReal.coe_strictMono.monotone.map_max]
  | top =>
    refine ⟨hi, h, le_refl hi, ?_⟩
    rw [max_eq_right le_top, min_eq_left le_top]

/-! ### Arithmetic of coerced reals -/

/-- The sum of two coerced reals is the coerced sum. -/
theorem coe_add_coe (a b : ℝ) : (a : EReal) + (b : EReal) = ((a + b : ℝ) : EReal) :=
  (EReal.coe_add a b).symm

/-- The difference of two coerced reals is the coerced difference. -/
theorem coe_sub_coe (a b : ℝ) : (a : EReal) - (b : EReal) = ((a - b : ℝ) : EReal) :=
  (EReal.coe_sub a b).symm

/-- The product of two coerced reals is the coerced product. -/
theorem coe_mul_coe (a b : ℝ) : (a : EReal) * (b : EReal) = ((a * b : ℝ) : EReal) :=
  (EReal.coe_mul a b).symm

/-- The negation of a coerced real is the coerced negation. -/
theorem neg_coe (a : ℝ) : -(a : EReal) = ((-a : ℝ) : EReal) :=
  (EReal.coe_neg a).symm

/-- The minimum of two coerced reals is the coerced minimum. -/
theorem coe_min_coe (a b : ℝ) : min (a : EReal) (b : EReal) = ((min a b : ℝ) : EReal) :=
  (EReal.coe_strictMono.monotone.map_min).symm

/-- The maximum of two coerced reals is the coerced maximum. -/
theorem coe_max_coe (a b : ℝ) : max (a : EReal) (b : EReal) = ((max a b : ℝ) : EReal) :=
  (EReal.coe_strictMono.monotone.map_max).symm

/-- Zero times any extended real, infinite or not, is zero. -/
theorem zero_mul_ereal (z : EReal) : 0 * z = 0 := zero_mul z

/-- Any extended real, infinite or not, times zero is zero. -/
theorem mul_zero_ereal (z : EReal) : z * 0 = 0 := mul_zero z

/-! ### The ideal quotient and power -/

/-- The ideal quotient of a coerced real by a nonzero coerced real is the coerced quotient. -/
theorem div_coe_coe (a b : ℝ) (hb : b ≠ 0) :
    Ideal.div (a : EReal) (b : EReal) = ((a / b : ℝ) : EReal) := by
  rw [Ideal.div_coe hb, ← EReal.coe_mul, mul_one_div]

/-- The same, for the quotient as a kernel's float operation. -/
theorem divf_coe_coe {φ : FTy} (a b : ℝ) (hb : b ≠ 0) :
    FloatOps.divf (F := Ideal) (φ := φ) (a : EReal) (b : EReal) = ((a / b : ℝ) : EReal) :=
  div_coe_coe a b hb

/-- The same, for the quotient as the host's float operation. -/
theorem hostDivf_coe_coe {φ : FTy} (a b : ℝ) (hb : b ≠ 0) :
    FloatOps.hostDivf (F := Ideal) (φ := φ) (a : EReal) (b : EReal) = ((a / b : ℝ) : EReal) :=
  div_coe_coe a b hb

/-- The ideal power of two coerced reals is the coerced real power. -/
theorem pow_coe_coe (a b : ℝ) : Ideal.pow (a : EReal) (b : EReal) = ((a ^ b : ℝ) : EReal) := rfl

/-- The same, for the power as a kernel's float operation. -/
theorem powf_coe_coe {φ : FTy} (a b : ℝ) :
    FloatOps.powf (F := Ideal) (φ := φ) (a : EReal) (b : EReal) = ((a ^ b : ℝ) : EReal) := rfl

/-- The same, for the power as the host's float operation. -/
theorem hostPowf_coe_coe {φ : FTy} (a b : ℝ) :
    FloatOps.hostPowf (F := Ideal) (φ := φ) (a : EReal) (b : EReal) = ((a ^ b : ℝ) : EReal) := rfl

/-! ### Floor -/

/-- The ideal floor of a coerced real `r` is the coercion of the integer `⌊r⌋`. -/
theorem floor_coe (r : ℝ) :
    Ideal.liftRound Int.floor (r : EReal) = (((⌊r⌋ : ℤ) : ℝ) : EReal) := rfl

/-- The same, for the floor as a kernel's float operation. -/
theorem floorf_coe {φ : FTy} (r : ℝ) :
    FloatOps.floor (F := Ideal) (φ := φ) (r : EReal) = (((⌊r⌋ : ℤ) : ℝ) : EReal) := rfl

/-- The same, for the floor as the host's float operation. -/
theorem hostFloor_coe {φ : FTy} (r : ℝ) :
    FloatOps.hostUnary (F := Ideal) (φ := φ) .floor (r : EReal) = (((⌊r⌋ : ℤ) : ℝ) : EReal) := rfl

/-- The floor of a real in `[lo, hi]`, for integers `lo` and `hi`, is an integer in `[lo, hi]`. -/
theorem floor_mem_Icc (lo hi : ℤ) (r : ℝ) (h0 : (lo : ℝ) ≤ r) (h1 : r ≤ (hi : ℝ)) :
    lo ≤ ⌊r⌋ ∧ ⌊r⌋ ≤ hi :=
  ⟨Int.le_floor.mpr h0, Int.cast_le.mp ((Int.floor_le r).trans h1)⟩

/-! ### Conversions between reals and 32-bit words -/

/-- The conversion of a coerced integer that fits a signed 32-bit word is the word of that
    integer: the rounding toward zero fixes an integer and the clamp does not bind. -/
theorem fptosi32_coe_int (n : ℤ) (hlo : -(2 : ℤ) ^ 31 ≤ n) (hhi : n ≤ 2 ^ 31 - 1) :
    Ideal.fptosi 32 (((n : ℤ) : ℝ) : EReal) = BitVec.ofInt 32 n := by
  unfold Ideal.fptosi
  rw [Ideal.toIntClamped_coe]
  congr 1
  simp only [Int.floor_intCast, Int.ceil_intCast, ite_self]
  rw [min_eq_right (by norm_num; omega), max_eq_right (by norm_num; omega)]

/-- In particular for an integer `0 ≤ n ≤ 19999`. -/
theorem fptosi32_coe_int_small (n : ℤ) (h0 : 0 ≤ n) (h1 : n ≤ 19999) :
    Ideal.fptosi 32 (((n : ℤ) : ℝ) : EReal) = BitVec.ofInt 32 n :=
  fptosi32_coe_int n (by omega) (by omega)

/-- The same, for the conversion as a float operation (kernel's or host's: one field). -/
theorem fptosi32_field_coe_int {φ : FTy} (n : ℤ) (hlo : -(2 : ℤ) ^ 31 ≤ n) (hhi : n ≤ 2 ^ 31 - 1) :
    FloatOps.fptosi (F := Ideal) (φ := φ) 32 (((n : ℤ) : ℝ) : EReal) = BitVec.ofInt 32 n :=
  fptosi32_coe_int n hlo hhi

/-- The conversion of a word to a float is the coercion of the word read as a signed integer. -/
theorem sitofp_coe {φ : FTy} {w : ℕ} (b : BitVec w) :
    FloatOps.sitofp (F := Ideal) φ b = ((b.toInt : ℝ) : EReal) := rfl

/-- The 32-bit word of an integer that fits reads back, signed, as that integer. -/
theorem toInt_ofInt32 (n : ℤ) (hlo : -(2 : ℤ) ^ 31 ≤ n) (hhi : n ≤ 2 ^ 31 - 1) :
    (BitVec.ofInt 32 n).toInt = n :=
  BitVec.toInt_ofInt_eq_self (by norm_num) (by norm_num; omega) (by norm_num; omega)

/-- The 32-bit word of an integer `0 ≤ n < 2 ^ 31` reads, unsigned, as that number. -/
theorem toNat_ofInt32 (n : ℤ) (h0 : 0 ≤ n) (hhi : n ≤ 2 ^ 31 - 1) :
    ((BitVec.ofInt 32 n).toNat : ℤ) = n := by
  rw [BitVec.toNat_ofInt]
  omega

/-- Converting a coerced integer that fits to a word and back is the identity. -/
theorem sitofp_fptosi32_coe_int {φ : FTy} (n : ℤ) (hlo : -(2 : ℤ) ^ 31 ≤ n) (hhi : n ≤ 2 ^ 31 - 1) :
    FloatOps.sitofp (F := Ideal) φ (Ideal.fptosi 32 (((n : ℤ) : ℝ) : EReal))
      = (((n : ℤ) : ℝ) : EReal) := by
  rw [sitofp_coe, fptosi32_coe_int n hlo hhi, toInt_ofInt32 n hlo hhi]

/-! ### Finite values as a predicate, and its closure properties -/

/-- An extended real is *finite* when it is the coercion of a real. -/
def IsReal (z : EReal) : Prop := ∃ r : ℝ, z = (r : EReal)

/-- A coerced real is finite. -/
theorem isReal_coe (r : ℝ) : IsReal (r : EReal) := ⟨r, rfl⟩

/-- Zero is finite. -/
theorem isReal_zero : IsReal 0 := ⟨0, EReal.coe_zero.symm⟩

/-- One is finite. -/
theorem isReal_one : IsReal 1 := ⟨1, EReal.coe_one.symm⟩

/-- Finite means neither of the two infinities. -/
theorem isReal_iff (z : EReal) : IsReal z ↔ z ≠ ⊥ ∧ z ≠ ⊤ := by
  constructor
  · rintro ⟨r, rfl⟩
    exact ⟨EReal.coe_ne_bot r, EReal.coe_ne_top r⟩
  · rintro ⟨hb, ht⟩
    exact ⟨z.toReal, (EReal.coe_toReal ht hb).symm⟩

/-- A finite value is the coercion of its real part. -/
theorem IsReal.coe_toReal {z : EReal} (h : IsReal z) : ((z.toReal : ℝ) : EReal) = z :=
  EReal.coe_toReal ((isReal_iff z).mp h).2 ((isReal_iff z).mp h).1

/-- A sum of two finite values is finite. -/
theorem IsReal.add {x y : EReal} (hx : IsReal x) (hy : IsReal y) : IsReal (x + y) := by
  obtain ⟨a, rfl⟩ := hx
  obtain ⟨b, rfl⟩ := hy
  exact ⟨a + b, coe_add_coe a b⟩

/-- A difference of two finite values is finite. -/
theorem IsReal.sub {x y : EReal} (hx : IsReal x) (hy : IsReal y) : IsReal (x - y) := by
  obtain ⟨a, rfl⟩ := hx
  obtain ⟨b, rfl⟩ := hy
  exact ⟨a - b, coe_sub_coe a b⟩

/-- A product of two finite values is finite. -/
theorem IsReal.mul {x y : EReal} (hx : IsReal x) (hy : IsReal y) : IsReal (x * y) := by
  obtain ⟨a, rfl⟩ := hx
  obtain ⟨b, rfl⟩ := hy
  exact ⟨a * b, coe_mul_coe a b⟩

/-- The negation of a finite value is finite. -/
theorem IsReal.neg {x : EReal} (hx : IsReal x) : IsReal (-x) := by
  obtain ⟨a, rfl⟩ := hx
  exact ⟨-a, neg_coe a⟩

/-- The minimum of two finite values is finite. -/
theorem IsReal.min {x y : EReal} (hx : IsReal x) (hy : IsReal y) : IsReal (min x y) := by
  obtain ⟨a, rfl⟩ := hx
  obtain ⟨b, rfl⟩ := hy
  exact ⟨Min.min a b, coe_min_coe a b⟩

/-- The maximum of two finite values is finite. -/
theorem IsReal.max {x y : EReal} (hx : IsReal x) (hy : IsReal y) : IsReal (max x y) := by
  obtain ⟨a, rfl⟩ := hx
  obtain ⟨b, rfl⟩ := hy
  exact ⟨Max.max a b, coe_max_coe a b⟩

/-- A finite sum of finite values is finite. -/
theorem IsReal.sum {ι : Type*} (s : Finset ι) (f : ι → EReal) (h : ∀ i ∈ s, IsReal (f i)) :
    IsReal (∑ i ∈ s, f i) :=
  Finset.sum_induction f IsReal (fun _ _ hx hy => hx.add hy) isReal_zero h

/-- A value clamped between two reals `lo ≤ hi` is finite, whatever it was. -/
theorem isReal_clamp (lo hi : ℝ) (h : lo ≤ hi) (z : EReal) :
    IsReal (Min.min (hi : EReal) (Max.max (lo : EReal) z)) := by
  obtain ⟨r, _, _, hr⟩ := clamp_coe lo hi h z
  exact ⟨r, hr⟩

/-- The ideal quotient of a finite value by a finite nonzero value is finite. -/
theorem IsReal.div {x y : EReal} (hx : IsReal x) (hy : IsReal y) (h0 : y ≠ 0) :
    IsReal (Ideal.div x y) := by
  obtain ⟨a, rfl⟩ := hx
  obtain ⟨b, rfl⟩ := hy
  exact ⟨a / b, div_coe_coe a b (fun e => h0 (by rw [e, EReal.coe_zero]))⟩

/-- The ideal power of two finite values is finite. -/
theorem IsReal.pow {x y : EReal} (hx : IsReal x) (hy : IsReal y) : IsReal (Ideal.pow x y) := by
  obtain ⟨a, rfl⟩ := hx
  obtain ⟨b, rfl⟩ := hy
  exact ⟨a ^ b, pow_coe_coe a b⟩

/-- The ideal floor of a finite value is finite. -/
theorem IsReal.floor {x : EReal} (hx : IsReal x) : IsReal (Ideal.liftRound Int.floor x) := by
  obtain ⟨a, rfl⟩ := hx
  exact ⟨((⌊a⌋ : ℤ) : ℝ), floor_coe a⟩

end Cert.Lib
-- ==== Proof.Algebra.lean ====
/-
  The two programs' formulas are one function of real inputs. Over the reals: the mean of squares less the
  squared mean is the centred variance, which is not negative; a sum over 2 halves × 50 blocks × 10,000 rows is
  the sum over all edges; a product with a column's scale moves inside the layer's sums; and the folded bias
  is what centring, scaling and shifting make of the layer's bias. Extended reals that are coercions of reals
  follow the reals' laws, and the variance plus a positive epsilon is positive, so its inverse root is real.
-/
import proofs.«416790_j18339510354271_3_alg».proof.Proof.Spec
import proofs.«416790_j18339510354271_3_alg».proof.Proof.LibFinite

noncomputable section

open scoped BigOperators

namespace Cert.Spec

open Idealize.ShloMosaic Idealize.ShloMosaic.ValueIdx

/-! ## The two shared constants -/

/-- The edge count's word denotes the real 1,000,000. -/
theorem nE_eq : nE = ((1000000 : ℝ) : EReal) := by
  simp [Ideal.ofBits, Ideal.ieee, -EReal.coe_mul]; norm_num

/-- The epsilon's word denotes the real 10995116 · 2⁻⁴⁰. -/
theorem eps_eq : eps = ((10995116 * (2:ℝ) ^ (-40 : Int) : ℝ) : EReal) := by
  simp [Ideal.ofBits, Ideal.ieee, -EReal.coe_mul]

/-! ## Sums -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 132 features is the sum over the first 128 plus the sum over the last 4. -/
theorem sum_split132 (f : Fin 132 → EReal) :
    ∑ k, f k = (∑ k : Fin 128, f (Fin.castAdd 4 k)) + ∑ k : Fin 4, f (Fin.natAdd 128 k) :=
  Fin.sum_univ_add (M := EReal) (a := 128) (b := 4) f

/-- Half, block and row number of an edge: `row` is a bijection. -/
def rowEquiv : (Fin 2 × Fin 50) × Fin 10000 ≃ Fin 1000000 where
  toFun p := row p.1.1 p.1.2 p.2
  invFun e := ((⟨e.val / 500000, by have := e.isLt; omega⟩, ⟨e.val / 10000 % 50, Nat.mod_lt _ (by decide)⟩),
    ⟨e.val % 10000, Nat.mod_lt _ (by decide)⟩)
  left_inv := by
    rintro ⟨⟨c, i⟩, r⟩
    have := c.isLt; have := i.isLt; have := r.isLt
    simp only [row, Prod.mk.injEq, Fin.ext_iff]
    omega
  right_inv := by
    intro e
    have := e.isLt
    simp only [row, Fin.ext_iff]
    omega

/-- The two halves' block-by-block sums add up to the sum over all edges. -/
theorem blockSum_total (f : Fin 1000000 → EReal) : ∑ c, blockSum f c = ∑ e, f e := by
  unfold blockSum
  rw [← Equiv.sum_comp rowEquiv f, Fintype.sum_prod_type, Fintype.sum_prod_type]
  rfl

/-! ## The reference's features are the kernel's -/

section Features
variable (z : SZ.Idx → EReal) (ea : SEA.Idx → EReal) (ei : SEI.Idx → BitVec 32)
  (hnorm : ∀ a s : BitVec 32, norm (gidx a s) = gidx a s)
include hnorm

/-- The first 128 features: the source row for columns below 64, then the destination row. -/
theorem xR_castAdd (e : Fin 1000000) (k : Fin 128) : xR z ea ei e (Fin.castAdd 4 k) = zabK z ei e k := by
  have hs : norm (srcW ei e) = srcW ei e := hnorm _ _
  have hd : norm (dstW ei e) = dstW ei e := hnorm _ _
  have hk := k.isLt
  unfold xR zabK
  by_cases h : k.val < 64
  · have h' : (Fin.castAdd 4 k).val < 64 := h
    rw [dif_pos h', if_pos h, hs]
    exact congrArg (zsel z (srcW ei e)) (Fin.ext (Nat.mod_eq_of_lt h).symm)
  · have h' : ¬ (Fin.castAdd 4 k).val < 64 := h
    have h'' : (Fin.castAdd 4 k).val < 128 := hk
    rw [dif_neg h', dif_pos h'', if_neg h, hd]
    refine congrArg (zsel z (dstW ei e)) (Fin.ext ?_)
    show k.val - 64 = k.val % 64
    omega

omit hnorm in
/-- The last 4 features: the edge's attributes. -/
theorem xR_natAdd (e : Fin 1000000) (k : Fin 4) : xR z ea ei e (Fin.natAdd 128 k) = ea (ix2 e k) := by
  have hk := k.isLt
  have h1 : ¬ (Fin.natAdd 128 k).val < 64 := by show ¬ 128 + k.val < 64; omega
  have h2 : ¬ (Fin.natAdd 128 k).val < 128 := by show ¬ 128 + k.val < 128; omega
  unfold xR
  rw [dif_neg h1, dif_neg h2]
  refine congrArg (fun q => ea (ix2 e q)) (Fin.ext ?_)
  show 128 + k.val - 128 = k.val
  omega

/-- So the reference's hidden layer is the kernels' layer of the gathered features and the attributes, with the
    first layer's rows split 128 + 4. -/
theorem rPre_eq_pre1 (w1 : SW1.Idx → EReal) (b1 : Fin 128 → EReal) (e : Fin 1000000) (j : Fin 128) :
    rPre (xR z ea ei) (fun k j => w1 (ix2 k j)) b1 e j
      = pre1 (zabK z ei e) (fun k => ea (ix2 e k))
          (fun k j => w1 (ix2 (⟨k.val, by omega⟩ : Fin 132) j)) (fun k j => w1 (ix2 (⟨128 + k.val, by omega⟩ : Fin 132) j)) b1 j := by
  unfold rPre pre1
  rw [sum_split132]
  have h1 : ∀ k : Fin 128, xR z ea ei e (Fin.castAdd 4 k) * w1 (ix2 (Fin.castAdd 4 k) j)
      = zabK z ei e k * w1 (ix2 (⟨k.val, by omega⟩ : Fin 132) j) := fun k => by
    rw [xR_castAdd z ea ei hnorm]; rfl
  have h2 : ∀ k : Fin 4, xR z ea ei e (Fin.natAdd 128 k) * w1 (ix2 (Fin.natAdd 128 k) j)
      = ea (ix2 e k) * w1 (ix2 (⟨128 + k.val, by omega⟩ : Fin 132) j) := fun k => by
    rw [xR_natAdd z ea ei]; rfl
  simp only [h1, h2]

end Features

/-! ## One column's statistics over the reals -/

/-- The epsilon as a real. -/
def epsR : ℝ := 10995116 * (2:ℝ) ^ (-40 : Int)

theorem epsR_pos : 0 < epsR := by unfold epsR; positivity

/-- The mean of a real column over the 1,000,000 edges. -/
def muR (p : Fin 1000000 → ℝ) : ℝ := (∑ e, p e) / 1000000

/-- Its centred variance. -/
def varR (p : Fin 1000000 → ℝ) : ℝ := (∑ e, (p e - muR p) * (p e - muR p)) / 1000000

/-- The inverse root of the variance plus epsilon. -/
def rsR (p : Fin 1000000 → ℝ) : ℝ := (Real.sqrt (varR p + epsR))⁻¹

/-- A mean of squares is not negative. -/
theorem varR_nonneg (p : Fin 1000000 → ℝ) : 0 ≤ varR p :=
  div_nonneg (Finset.sum_nonneg fun _ _ => mul_self_nonneg _) (by norm_num)

/-- The mean of squares less the squared mean is the centred variance: expand the square, and the mixed term
    is twice the squared mean times the count. -/
theorem meansq_sub_sqmean (p : Fin 1000000 → ℝ) :
    (∑ e, p e * p e) / 1000000 - muR p * muR p = varR p := by
  unfold varR
  have hS : ∑ e, p e = muR p * 1000000 := by unfold muR; field_simp
  have h1 : ∀ e, (p e - muR p) * (p e - muR p) = p e * p e - 2 * muR p * p e + muR p * muR p := fun e => by ring
  simp only [h1]
  rw [Finset.sum_add_distrib, Finset.sum_sub_distrib, ← Finset.mul_sum, Finset.sum_const, Finset.card_univ,
    Fintype.card_fin, nsmul_eq_mul, hS]
  push_cast
  field_simp
  ring

/-! ## One column's statistics in the extended reals -/

/-- The quotient of a real by the edge count. -/
theorem div_nE (a : ℝ) : Ideal.div (a : EReal) nE = ((a / 1000000 : ℝ) : EReal) := by
  rw [nE_eq]; exact Cert.Lib.div_coe_coe a 1000000 (by norm_num)

section Column
variable (p : Fin 1000000 → ℝ)

/-- The reference's mean of a real column. -/
theorem rmu_col : Ideal.div (∑ e, (p e : EReal)) nE = (muR p : EReal) := by
  rw [← coe_sum, div_nE]; rfl

/-- The reference's centred variance of a real column. -/
theorem rvar_col :
    Ideal.div (∑ e, ((p e : EReal) - (muR p : EReal)) * ((p e : EReal) - (muR p : EReal))) nE = (varR p : EReal) := by
  have h : ∀ e, ((p e : EReal) - (muR p : EReal)) * ((p e : EReal) - (muR p : EReal))
      = (((p e - muR p) * (p e - muR p) : ℝ) : EReal) := fun e => by
    rw [← EReal.coe_sub, ← EReal.coe_mul]
  simp only [h]
  rw [← coe_sum, div_nE]; rfl

/-- The host's mean from the two halves' sums. -/
theorem muOf_col : muOf (fun c => blockSum (fun e => (p e : EReal)) c) = (muR p : EReal) := by
  simp only [muOf, blockSum_total]
  exact rmu_col p

/-- The host's variance from the two halves' sums and sums of squares: the clamp at zero does nothing. -/
theorem varOf_col :
    varOf (fun c => blockSum (fun e => (p e : EReal)) c) (fun c => blockSum (fun e => (p e : EReal) * (p e : EReal)) c)
      = (varR p : EReal) := by
  unfold varOf
  rw [muOf_col]
  simp only [blockSum_total]
  have h : ∀ e, (p e : EReal) * (p e : EReal) = ((p e * p e : ℝ) : EReal) := fun e => (EReal.coe_mul _ _).symm
  simp only [h]
  rw [← coe_sum, div_nE, ← EReal.coe_mul, ← EReal.coe_sub, meansq_sub_sqmean,
    max_eq_left (EReal.coe_nonneg.mpr (varR_nonneg p))]

/-- The variance plus epsilon is positive, so its inverse root is a real. -/
theorem rsqrt_col : Ideal.rsqrt ((varR p : EReal) + eps) = (rsR p : EReal) := by
  have hpos : 0 < varR p + epsR := add_pos_of_nonneg_of_pos (varR_nonneg p) epsR_pos
  have he : eps = (epsR : EReal) := eps_eq
  rw [he, ← EReal.coe_add, Ideal.rsqrt_coe, if_neg (not_lt.mpr hpos.le), if_neg hpos.ne']
  rfl

end Column

/-- A hidden-layer entry with real features, weights and bias is the coercion of the real entry. -/
theorem pre1_eq_coe {zab : Fin 128 → EReal} {a : Fin 4 → EReal} {wab : Fin 128 → Fin 128 → EReal}
    {wc : Fin 4 → Fin 128 → EReal} {b : Fin 128 → EReal} {j : Fin 128}
    (zr : Fin 128 → ℝ) (ar : Fin 4 → ℝ) (Wr : Fin 128 → ℝ) (Cr : Fin 4 → ℝ) (br : ℝ)
    (hz : ∀ k, zab k = (zr k : EReal)) (ha : ∀ k, a k = (ar k : EReal)) (hW : ∀ k, wab k j = (Wr k : EReal))
    (hC : ∀ k, wc k j = (Cr k : EReal)) (hb : b j = (br : EReal)) :
    pre1 zab a wab wc b j = (((∑ k, zr k * Wr k) + (∑ k, ar k * Cr k) + br : ℝ) : EReal) := by
  unfold pre1
  simp only [hz, ha, hW, hC, hb]
  rw [EReal.coe_add, EReal.coe_add, coe_sum, coe_sum]
  simp only [EReal.coe_mul]

/-! ## The folded layer is the normalised layer -/

/-- For real features, weights and parameters, a column of the layer recomputed with the scale folded into the
    weights and with the folded bias is that column centred, scaled and shifted. Both sides are coercions of
    reals; over the reals the scale comes out of the two sums and the rest is ring arithmetic. -/
theorem arg_eq (zab : Fin 1000000 → Fin 128 → EReal) (ea : Fin 1000000 → Fin 4 → EReal)
    (wab : Fin 128 → Fin 128 → EReal) (wc : Fin 4 → Fin 128 → EReal) (b1 g bt : Fin 128 → EReal)
    (hzab : ∀ e k, ∃ r : ℝ, zab e k = (r : EReal)) (hea : ∀ e k, ∃ r : ℝ, ea e k = (r : EReal))
    (hwab : ∀ k j, ∃ r : ℝ, wab k j = (r : EReal)) (hwc : ∀ k j, ∃ r : ℝ, wc k j = (r : EReal))
    (hb1 : ∀ j, ∃ r : ℝ, b1 j = (r : EReal)) (hg : ∀ j, ∃ r : ℝ, g j = (r : EReal))
    (hbt : ∀ j, ∃ r : ℝ, bt j = (r : EReal))
    (x : Fin 1000000 → Fin 132 → EReal) (w : Fin 132 → Fin 128 → EReal)
    (hx : ∀ e j, rPre x w b1 e j = pre1 (zab e) (ea e) wab wc b1 j)
    (e : Fin 1000000) (j : Fin 128) :
    pre1 (zab e) (ea e)
        (fun k j => wab k j * scaleOf (kS1 zab ea wab wc b1 j) (kS2 zab ea wab wc b1 j) (g j))
        (fun k j => wc k j * scaleOf (kS1 zab ea wab wc b1 j) (kS2 zab ea wab wc b1 j) (g j))
        (fun j => biasOf (kS1 zab ea wab wc b1 j) (kS2 zab ea wab wc b1 j) (g j) (b1 j) (bt j)) j
      = (rPre x w b1 e j - rMu x w b1 j) * Ideal.rsqrt (rVar x w b1 j + eps) * g j + bt j := by
  choose zq hzq using hzab
  choose aq haq using hea
  choose Wr hWr using hwab
  choose Cr hCr using hwc
  choose br hbr using hb1
  choose gr hgr using hg
  choose tr htr using hbt
  -- column `j` of the hidden layer over the reals
  let p : Fin 1000000 → ℝ := fun e => (∑ k, zq e k * Wr k j) + (∑ k, aq e k * Cr k j) + br j
  have hP : ∀ e, pre1 (zab e) (ea e) wab wc b1 j = (p e : EReal) := fun e =>
    pre1_eq_coe (zq e) (aq e) (fun k => Wr k j) (fun k => Cr k j) (br j) (hzq e) (haq e)
      (fun k => hWr k j) (fun k => hCr k j) (hbr j)
  -- the kernel program's statistics of that column
  have hS1 : kS1 zab ea wab wc b1 j = fun c => blockSum (fun e => (p e : EReal)) c := by
    funext c; unfold kS1; simp only [hP]
  have hS2 : kS2 zab ea wab wc b1 j = fun c => blockSum (fun e => (p e : EReal) * (p e : EReal)) c := by
    funext c; unfold kS2; simp only [hP]
  have hmu : muOf (kS1 zab ea wab wc b1 j) = (muR p : EReal) := by rw [hS1]; exact muOf_col p
  have hscale : scaleOf (kS1 zab ea wab wc b1 j) (kS2 zab ea wab wc b1 j) (g j) = ((gr j * rsR p : ℝ) : EReal) := by
    unfold scaleOf; rw [hS1, hS2, varOf_col, rsqrt_col, hgr, ← EReal.coe_mul]
  have hbias : biasOf (kS1 zab ea wab wc b1 j) (kS2 zab ea wab wc b1 j) (g j) (b1 j) (bt j)
      = ((br j * (gr j * rsR p) + tr j - muR p * (gr j * rsR p) : ℝ) : EReal) := by
    unfold biasOf
    rw [hscale, hmu, hbr, htr, ← EReal.coe_mul, ← EReal.coe_add, ← EReal.coe_mul, ← EReal.coe_sub]
  -- the reference's statistics of that column
  have hrmu : rMu x w b1 j = (muR p : EReal) := by
    unfold rMu; simp only [hx, hP]; exact rmu_col p
  have hrvar : rVar x w b1 j = (varR p : EReal) := by
    unfold rVar; rw [hrmu]; simp only [hx, hP]; exact rvar_col p
  rw [hx, hP, hrmu, hrvar, rsqrt_col, hgr, htr,
    pre1_eq_coe (zq e) (aq e) (fun k => Wr k j * (gr j * rsR p)) (fun k => Cr k j * (gr j * rsR p))
      (br j * (gr j * rsR p) + tr j - muR p * (gr j * rsR p)) (hzq e) (haq e)
      (fun k => by show wab k j * scaleOf _ _ _ = _; rw [hscale, hWr, ← EReal.coe_mul])
      (fun k => by show wc k j * scaleOf _ _ _ = _; rw [hscale, hCr, ← EReal.coe_mul])
      hbias,
    ← EReal.coe_sub, ← EReal.coe_mul, ← EReal.coe_mul, ← EReal.coe_add]
  congr 1
  have e1 : ∑ k, zq e k * (Wr k j * (gr j * rsR p)) = (∑ k, zq e k * Wr k j) * (gr j * rsR p) := by
    rw [Finset.sum_mul]; exact Finset.sum_congr rfl fun k _ => by ring
  have e2 : ∑ k, aq e k * (Cr k j * (gr j * rsR p)) = (∑ k, aq e k * Cr k j) * (gr j * rsR p) := by
    rw [Finset.sum_mul]; exact Finset.sum_congr rfl fun k _ => by ring
  rw [e1, e2]
  show _ = ((∑ k, zq e k * Wr k j) + (∑ k, aq e k * Cr k j) + br j - muR p) * rsR p * gr j + tr j
  ring

/-- With real entries in the table, the attributes, the first layer and the normalisation's parameters, and
    row numbers that are never negative, the kernel program's result array is the reference's. -/
theorem kernelResult_eq (z : SZ.Idx → EReal) (ea : SEA.Idx → EReal) (w1 : SW1.Idx → EReal) (b1 g bt : SV.Idx → EReal)
    (w2 : SW2.Idx → EReal) (b2 : SB2.Idx → EReal) (ei : SEI.Idx → BitVec 32)
    (hz : ∀ i, ∃ r : ℝ, z i = (r : EReal)) (hea : ∀ i, ∃ r : ℝ, ea i = (r : EReal)) (hw1 : ∀ i, ∃ r : ℝ, w1 i = (r : EReal))
    (hb1 : ∀ i, ∃ r : ℝ, b1 i = (r : EReal)) (hg : ∀ i, ∃ r : ℝ, g i = (r : EReal)) (hbt : ∀ i, ∃ r : ℝ, bt i = (r : EReal))
    (hnorm : ∀ a s : BitVec 32, norm (gidx a s) = gidx a s) :
    kernelResult z ea w1 b1 g bt w2 b2 ei = referenceResult z ea w1 b1 g bt w2 b2 ei := by
  unfold kernelResult referenceResult
  refine congrArg outArr (funext fun e => ?_)
  unfold kOut rOut finalOut
  refine congrArg (· + b2 (ix1 (0 : Fin 1))) (Finset.sum_congr rfl fun j _ => ?_)
  refine congrArg (fun t => act t * w2 (ix2 j (0 : Fin 1))) ?_
  exact arg_eq (zabK z ei) (fun e k => ea (ix2 e k))
    (fun k j => w1 (ix2 (⟨k.val, by omega⟩ : Fin 132) j)) (fun k j => w1 (ix2 (⟨128 + k.val, by omega⟩ : Fin 132) j))
    (fun j => b1 (ix1 j)) (fun j => g (ix1 j)) (fun j => bt (ix1 j))
    (fun e k => hz _) (fun e k => hea _) (fun k j => hw1 _) (fun k j => hw1 _)
    (fun j => hb1 _) (fun j => hg _) (fun j => hbt _)
    (xR z ea ei) (fun k j => w1 (ix2 k j))
    (fun e j => rPre_eq_pre1 z ea ei hnorm w1 (fun j => b1 (ix1 j)) e j) e j

end Cert.Spec

end
-- ==== Proof.lean ====
/-
  An edge decoder, two ways. For each of 1,000,000 edges the two endpoint rows of a 65,536 × 64 table are
  gathered by row numbers computed from the edge's two words, joined with four attributes, and passed through a
  132 → 128 linear layer, batch normalisation over the edges, a leaky rectifier and a 128 → 1 projection. The
  kernel program sums the hidden layer and its squares block by block in a first kernel, forms mean and variance
  from the sums on the host (variance as mean of squares less squared mean, not below zero), folds the
  normalisation into the layer's weights and bias, and recomputes the layer in a second kernel; the reference
  normalises with the centred variance. Over the extended reals, with finite inputs, the two agree: every value
  is then a real number, the two variances are one (and not negative), the variance plus a positive epsilon has
  a real inverse root, and scaling a column commutes with the layer's sums. The row numbers are never negative,
  so the reference's counting of negative row numbers from the table's end never applies.

  The three frames: the two kernel programs' are the launch of their segments; the reference's is its run with
  the result dropped. The idealization rewrote nothing.
-/
import proofs.«416790_j18339510354271_3_alg».proof.Defs
import proofs.«416790_j18339510354271_3_alg».proof.Proof.Gen.Kernel
import proofs.«416790_j18339510354271_3_alg».proof.Proof.Gen.Kernel.Frame
import proofs.«416790_j18339510354271_3_alg».proof.Proof.Gen.KernelIdeal
import proofs.«416790_j18339510354271_3_alg».proof.Proof.Gen.KernelIdeal.Frame
import proofs.«416790_j18339510354271_3_alg».proof.Proof.Gen.ReferenceIdeal
import proofs.«416790_j18339510354271_3_alg».proof.Proof.Gen.Pre_finite_inputs
import proofs.«416790_j18339510354271_3_alg».proof.Proof.KValue
import proofs.«416790_j18339510354271_3_alg».proof.Proof.RefFinal
import proofs.«416790_j18339510354271_3_alg».proof.Proof.Words
import proofs.«416790_j18339510354271_3_alg».proof.Proof.Finite
import proofs.«416790_j18339510354271_3_alg».proof.Proof.Algebra

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefFinal.run m ρ)

/-- From memories agreeing on the arguments both programs end, the kernel program at the kernel formula of its
    arguments and the reference at the reference formula of the same arrays; the precondition makes the float
    arrays real-valued, and then the two formulas are one function. -/
theorem algebraic : Cert.algebraic_KernelIdeal_ReferenceIdeal := by
  intro m ρ m' ρ' hpre hagree
  refine ⟨fun c => Spec.kernelResult (Cert.KernelIdeal.KHost.aZ m c) (Cert.KernelIdeal.KHost.aEA m c)
      (Cert.KernelIdeal.KHost.aW1 m c) (Cert.KernelIdeal.KHost.aB1 m c) (Cert.KernelIdeal.KHost.aG m c)
      (Cert.KernelIdeal.KHost.aBT m c) (Cert.KernelIdeal.KHost.aW2 m c) (Cert.KernelIdeal.KHost.aB2 m c)
      (Cert.KernelIdeal.KHost.aEI m c), Cert.KernelIdeal.KValue.run m ρ, ?_⟩
  refine (θ_run Cert.ReferenceIdeal.defs _ _).mono (fun r h c => ⟨(h c).1.trans ?_, (h c).2⟩)
    (Cert.ReferenceIdeal.RefFinal.run m' ρ')
  obtain ⟨h0, h1, h2, h3, h4, h5, h6, h7, h8⟩ := hagree c
  obtain ⟨hz, hea, hw1, hb1, hg, hbt⟩ := Cert.Finite.of_fn _ _ _ _ _ _ _ _ _ (hpre c)
  unfold Cert.ReferenceIdeal.RefFinal.aZ Cert.ReferenceIdeal.RefFinal.aEA Cert.ReferenceIdeal.RefFinal.aW1
    Cert.ReferenceIdeal.RefFinal.aB1 Cert.ReferenceIdeal.RefFinal.aG Cert.ReferenceIdeal.RefFinal.aBT
    Cert.ReferenceIdeal.RefFinal.aW2 Cert.ReferenceIdeal.RefFinal.aB2 Cert.ReferenceIdeal.RefFinal.aEI
  rw [h0, h1, h2, h3, h4, h5, h6, h7, h8]
  exact (Spec.kernelResult_eq _ _ _ _ _ _ _ _ _ hz hea hw1 hb1 hg hbt Spec.norm_gidx).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
